-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x128 : Shape := ⟨3, ![4, 10000, 128]⟩
abbrev S2x160000 : Shape := ⟨2, ![2, 160000]⟩
abbrev S160000 : Shape := ⟨1, ![160000]⟩
abbrev S4x128x128 : Shape := ⟨3, ![4, 128, 128]⟩
abbrev S128 : Shape := ⟨1, ![128]⟩
abbrev S_ : Shape := ⟨0, ![]⟩

class Facts : Prop where
  bcast_S_S4x10000x128 : S_.BroadcastsInDim S4x10000x128 (![] : Fin 0 → Fin S4x10000x128.rank)
  reducesTo_S4x10000x128_S_d0_1_2 : S4x10000x128.ReducesTo [0, 1, 2] S_
  h_S_ : 0 < S_.numel
  bcast_S_S160000 : S_.BroadcastsInDim S160000 (![] : Fin 0 → Fin S160000.rank)
  reducesTo_S160000_S_d0 : S160000.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_
  bcast_S_S2x160000 : S_.BroadcastsInDim S2x160000 (![] : Fin 0 → Fin S2x160000.rank)
  reducesTo_S2x160000_S_d0_1 : S2x160000.ReducesTo [0, 1] S_

variable [Facts]

def fn_part1 {F : FTy → Type} [FloatOps F] (main_arg1 : IVec S2x160000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S2x160000 32 := broadcastInDim S2x160000 ![] bcast_S_S2x160000 main_c_6
  let main_v20 : IVec S2x160000 1 := cmpi .sge main_arg1 main_v19
  let main_c_7 : IVec S_ 32 := constantI S_ 32 10000#32
  let main_v21 : IVec S2x160000 32 := broadcastInDim S2x160000 ![] bcast_S_S2x160000 main_c_7
  let main_v22 : IVec S2x160000 1 := cmpi .slt main_arg1 main_v21
  let main_v23 : IVec S2x160000 1 := andi main_v20 main_v22
  let main_c_8 : IVec S_ 1 := constantI S_ 1 1#1
  let main_v24 : IVec S_ 1 := (fun x v => Host.reduce IntOp.andi x v reducesTo_S2x160000_S_d0_1 h_S_) main_v23 main_c_8
  let main_v25 : IVec S_ 1 := andi main_v18 main_v24
  main_v25

def fn {F : FTy → Type} [FloatOps F] (main_arg0 : FVec F S4x10000x128 .f32) (main_arg1 : IVec S2x160000 32) (main_arg2 : FVec F S160000 .f32) (main_arg3 : FVec F S4x128x128 .f32) (main_arg4 : FVec F S128 .f32) : IVec S_ 1 :=
  let main_v0 : FVec F S4x10000x128 .f32 := Host.absf main_arg0
  let main_cst : FVec F S_ .f32 := constant S_ .f32 0x7F800000#32
  let main_v1 : FVec F S4x10000x128 .f32 := broadcastInDim S4x10000x128 ![] bcast_S_S4x10000x128 main_cst
  let main_v2 : IVec S4x10000x128 1 := cmpf .olt main_v0 main_v1
  let main_c : IVec S_ 1 := constantI S_ 1 1#1
  let main_v3 : IVec S_ 1 := (fun x v => Host.reduce IntOp.andi x v reducesTo_S4x10000x128_S_d0_1_2 h_S_) main_v2 main_c
  let main_v4 : FVec F S160000 .f32 := Host.absf main_arg2
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S4x10000x128 : Shape := ⟨3, ![4, 10000, 128]⟩
abbrev S2x160000 : Shape := ⟨2, ![2, 160000]⟩
abbrev S160000 : Shape := ⟨1, ![160000]⟩
abbrev S4x128x128 : Shape := ⟨3, ![4, 128, 128]⟩
abbrev S128 : Shape := ⟨1, ![128]⟩
abbrev S1x160000 : Shape := ⟨2, ![1, 160000]⟩
abbrev S_ : Shape := ⟨0, ![]⟩
abbrev S10000 : Shape := ⟨1, ![10000]⟩
abbrev S160000x1 : Shape := ⟨2, ![160000, 1]⟩
abbrev S170000 : Shape := ⟨1, ![170000]⟩
abbrev S10240x10240 : Shape := ⟨2, ![10240, 10240]⟩
abbrev S170000x1 : Shape := ⟨2, ![170000, 1]⟩
abbrev S170000x2 : Shape := ⟨2, ![170000, 2]⟩
abbrev S10000x4x128 : Shape := ⟨3, ![10000, 4, 128]⟩
abbrev S10000x512 : Shape := ⟨2, ![10000, 512]⟩
abbrev S10240x512 : Shape := ⟨2, ![10240, 512]⟩
abbrev S1024x1024 : Shape := ⟨2, ![1024, 1024]⟩
abbrev S1024x512 : Shape := ⟨2, ![1024, 512]⟩
abbrev S1x128x128 : Shape := ⟨3, ![1, 128, 128]⟩
abbrev S128x128 : Shape := ⟨2, ![128, 128]⟩
abbrev S1x1000x128 : Shape := ⟨3, ![1, 1000, 128]⟩
abbrev S1000x128 : Shape := ⟨2, ![1000, 128]⟩
abbrev S1x128 : Shape := ⟨2, ![1, 128]⟩

abbrev nBuf : Space → Nat
  | .hbm => 105
  | .vmem => 16
  | .smem => 0
  | _ => 0

abbrev bufTy : (tb : Table) → Fin (tcTables nBuf tb) → BufTy
  | .hbm, ⟨0, _⟩ => ⟨S4x10000x128, .f32⟩
  | .hbm, ⟨1, _⟩ => ⟨S2x160000, .i32⟩
  | .hbm, ⟨2, _⟩ => ⟨S160000, .f32⟩
  | .hbm, ⟨3, _⟩ => ⟨S4x128x128, .f32⟩
  | .hbm, ⟨4, _⟩ => ⟨S128, .f32⟩
  | .hbm, ⟨5, _⟩ => ⟨S1x160000, .i32⟩
  | .hbm, ⟨6, _⟩ => ⟨S160000, .i32⟩
  | .hbm, ⟨7, _⟩ => ⟨S1x160000, .i32⟩
  | .hbm, ⟨8, _⟩ => ⟨S160000, .i32⟩
  | .hbm, ⟨9, _⟩ => ⟨S_, .f32⟩
  | .hbm, ⟨10, _⟩ => ⟨S10000, .f32⟩
  | .hbm, ⟨11, _⟩ => ⟨S160000x1, .i32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S10000, .i1⟩
  | .hbm, ⟨16, _⟩ => ⟨S_, .f32⟩
  | .hbm, ⟨17, _⟩ => ⟨S_, .f32⟩
  | .hbm, ⟨18, _⟩ => ⟨S10000, .f32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S160000, .i32⟩
  | .hbm, ⟨29, _⟩ => ⟨S160000, .i1⟩
  | .hbm, ⟨30, _⟩ => ⟨S_, .i32⟩
  | .hbm, ⟨31, _⟩ => ⟨S160000, .i32⟩
  | .hbm, ⟨32, _⟩ => ⟨S160000, .i32⟩
  | .hbm, ⟨33, _⟩ => ⟨S160000, .i32⟩
  | .hbm, ⟨34, _⟩ => ⟨S160000x1, .i32⟩
  | .hbm, ⟨35, _⟩ => ⟨S160000, .f32⟩
  | .hbm, ⟨36, _⟩ => ⟨S160000, .f32⟩
  | .hbm, ⟨37, _⟩ => ⟨S160000, .f32⟩
  | .hbm, ⟨38, _⟩ => ⟨S_, .i32⟩
  | .hbm, ⟨39, _⟩ => ⟨S160000, .i32⟩
  | .hbm, ⟨40, _⟩ => ⟨S160000, .i1⟩
  | .hbm, ⟨41, _⟩ => ⟨S_, .i32⟩
  | .hbm, ⟨42, _⟩ => ⟨S160000, .i32⟩
  | .hbm, ⟨43, _⟩ => ⟨S160000, .i32⟩
  | .hbm, ⟨44, _⟩ => ⟨S160000, .i32⟩
  | .hbm, ⟨45, _⟩ => ⟨S160000x1, .i32⟩
  | .hbm, ⟨46, _⟩ => ⟨S160000, .f32⟩
  | .hbm, ⟨47, _⟩ => ⟨S160000, .f32⟩
  | .hbm, ⟨48, _⟩ => ⟨S10000, .i32⟩
  | .hbm, ⟨49, _⟩ => ⟨S170000, .i32⟩
  | .hbm, ⟨50, _⟩ => ⟨S170000, .i32⟩
  | .hbm, ⟨51, _⟩ => ⟨S_, .f32⟩
  | .hbm, ⟨52, _⟩ => ⟨S10000, .f32⟩
  | .hbm, ⟨53, _⟩ => ⟨S170000, .f32⟩
  | .hbm, ⟨54, _⟩ => ⟨S_, .f32⟩
  | .hbm, ⟨55, _⟩ => ⟨S170000, .f32⟩
  | .hbm, ⟨56, _⟩ => ⟨S170000, .f32⟩
  | .hbm, ⟨57, _⟩ => ⟨S_, .f32⟩
  | .hbm, ⟨58, _⟩ => ⟨S10240x10240, .f32⟩
  | .hbm, ⟨59, _⟩ => ⟨S_, .i32⟩
  | .hbm, ⟨60, _⟩ => ⟨S170000, .i32⟩
  | .hbm, ⟨61, _⟩ => ⟨S170000, .i1⟩
  | .hbm, ⟨62, _⟩ => ⟨S_, .i32⟩
  | .hbm, ⟨63, _⟩ => ⟨S170000, .i32⟩
  | .hbm, ⟨64, _⟩ => ⟨S170000, .i32⟩
  | .hbm, ⟨65, _⟩ => ⟨S170000, .i32⟩
  | .hbm, ⟨66, _⟩ => ⟨S_, .i32⟩
  | .hbm, ⟨67, _⟩ => ⟨S170000, .i32⟩
  | .hbm, ⟨68, _⟩ => ⟨S170000, .i1⟩
  | .hbm, ⟨69, _⟩ => ⟨S_, .i32⟩
  | .hbm, ⟨70, _⟩ => ⟨S170000, .i32⟩
  | .hbm, ⟨71, _⟩ => ⟨S170000, .i32⟩
  | .hbm, ⟨72, _⟩ => ⟨S170000, .i32⟩
  | .hbm, ⟨73, _⟩ => ⟨S170000x1, .i32⟩
  | .hbm, ⟨74, _⟩ => ⟨S170000x1, .i32⟩
  | .hbm, ⟨75, _⟩ => ⟨S170000x2, .i32⟩
  | .hbm, ⟨76, _⟩ => ⟨S10240x10240, .f32⟩
  | .hbm, ⟨77, _⟩ => ⟨S10240x10240, .bf16⟩
  | .hbm, ⟨78, _⟩ => ⟨S10000x4x128, .f32⟩
  | .hbm, ⟨79, _⟩ => ⟨S10000x512, .f32⟩
  | .hbm, ⟨80, _⟩ => ⟨S_, .i32⟩
  | .hbm, ⟨81, _⟩ => ⟨S_, .f32⟩
  | .hbm, ⟨82, _⟩ => ⟨S10240x512, .f32⟩
  | .hbm, ⟨83, _⟩ => ⟨S10240x512, .bf16⟩
  | .hbm, ⟨84, _⟩ => ⟨S10240x512, .f32⟩
  | .hbm, ⟨85, _⟩ => ⟨S10000x512, .f32⟩
  | .hbm, ⟨86, _⟩ => ⟨S10000x4x128, .f32⟩
  | .hbm, ⟨87, _⟩ => ⟨S4x10000x128, .f32⟩
  | .hbm, ⟨88, _⟩ => ⟨S1x128x128, .f32⟩
  | .hbm, ⟨89, _⟩ => ⟨S128x128, .f32⟩
  | .hbm, ⟨90, _⟩ => ⟨S1x128x128, .f32⟩
  | .hbm, ⟨91, _⟩ => ⟨S128x128, .f32⟩
  | .hbm, ⟨92, _⟩ => ⟨S128x128, .f32⟩
  | .hbm, ⟨93, _⟩ => ⟨S1x128x128, .f32⟩
  | .hbm, ⟨94, _⟩ => ⟨S128x128, .f32⟩
  | .hbm, ⟨95, _⟩ => ⟨S1x128x128, .f32⟩
  | .hbm, ⟨96, _⟩ => ⟨S128x128, .f32⟩
  | .hbm, ⟨97, _⟩ => ⟨S_, .f32⟩
  | .hbm, ⟨98, _⟩ => ⟨S128x128, .f32⟩
  | .hbm, ⟨99, _⟩ => ⟨S128x128, .f32⟩
  | .hbm, ⟨100, _⟩ => ⟨S128x128, .f32⟩
  | .hbm, ⟨101, _⟩ => ⟨S1x128x128, .f32⟩
  | .hbm, ⟨102, _⟩ => ⟨S128x128, .f32⟩
  | .hbm, ⟨103, _⟩ => ⟨S128x128, .f32⟩
  | .hbm, ⟨104, _⟩ => ⟨S4x10000x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1x1000x128, .f32⟩
  | .local _ .vmem, ⟨8, _⟩ => ⟨S1x1000x128, .f32⟩
  | .local _ .vmem, ⟨9, _⟩ => ⟨S1x1000x128, .f32⟩
  | .local _ .vmem, ⟨10, _⟩ => ⟨S1x1000x128, .f32⟩
  | .local _ .vmem, ⟨11, _⟩ => ⟨S128x128, .f32⟩
  | .local _ .vmem, ⟨12, _⟩ => ⟨S128x128, .f32⟩
  | .local _ .vmem, ⟨13, _⟩ => ⟨S128, .f32⟩
  | .local _ .vmem, ⟨14, _⟩ => ⟨S1x1000x128, .f32⟩
  | .local _ .vmem, ⟨15, _⟩ => ⟨S1x1000x128, .f32⟩
  | _, _ => ⟨S4x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_c_10 : Ref sig .tc := ⟨.hbm, 59, rfl⟩
abbrev main_v38 : Ref sig .tc := ⟨.hbm, 60, rfl⟩
abbrev main_v39 : Ref sig .tc := ⟨.hbm, 61, rfl⟩
abbrev main_c_11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_12 : Ref sig .tc := ⟨.hbm, 66, rfl⟩
abbrev main_v43 : Ref sig .tc := ⟨.hbm, 67, rfl⟩
abbrev main_v44 : Ref sig .tc := ⟨.hbm, 68, rfl⟩
abbrev main_c_13 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_call2_v0 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![10, 10], ![false, false]⟩

def k0_cond2 (i : grid0.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S10000 : S_.BroadcastsInDim S10000 (![] : Fin 0 → Fin S10000.rank)
  bcast_S160000_S160000x1_0 : S160000.BroadcastsInDim S160000x1 (![0] : Fin 1 → Fin S160000x1.rank)
  bcast_S_S160000 : S_.BroadcastsInDim S160000 (![] : Fin 0 → Fin S160000.rank)
  concatenates_S160000_S10000_S170000_d0 : Shape.Concatenates [S160000, S10000] S170000 0
  bcast_S_S170000 : S_.BroadcastsInDim S170000 (![] : Fin 0 → Fin S170000.rank)
  bcast_S_S10240x10240 : S_.BroadcastsInDim S10240x10240 (![] : Fin 0 → Fin S10240x10240.rank)
  bcast_S170000_S170000x1_0 : S170000.BroadcastsInDim S170000x1 (![0] : Fin 1 → Fin S170000x1.rank)
  concatenates_S170000x1_S170000x1_S170000x2_d1 : Shape.Concatenates [S170000x1, S170000x1] S170000x2 1
  bitsLt_bf16_f32 : FTy.bits .bf16 < FTy.bits .f32
  transposes_S4x10000x128_S10000x4x128_1_0_2 : S4x10000x128.Transposes [1, 0, 2] S10000x4x128
  shapeCasts_S10000x4x128_S10000x512 : S10000x4x128.ShapeCasts S10000x512
  pads_S10000x512_S10240x512_02400_000 : S10000x512.Pads (![0, 0] : Fin 2 → Nat) ![240, 0] ![0, 0] S10240x512
  h_S_ : 0 < S_.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S10240x512_S10000x512_0_0 : S10240x512.Slices ![0, 0] S10000x512
  shapeCasts_S10000x512_S10000x4x128 : S10000x512.ShapeCasts S10000x4x128
  transposes_S10000x4x128_S4x10000x128_1_0_2 : S10000x4x128.Transposes [1, 0, 2] S4x10000x128
  slices_S4x128x128_S1x128x128_0_0_0 : S4x128x128.Slices ![0, 0, 0] S1x128x128
  shapeCasts_S1x128x128_S128x128 : S1x128x128.ShapeCasts S128x128
  slices_S4x128x128_S1x128x128_2_0_0 : S4x128x128.Slices ![2, 0, 0] S1x128x128
  slices_S4x128x128_S1x128x128_1_0_0 : S4x128x128.Slices ![1, 0, 0] S1x128x128
  bcast_S_S128x128 : S_.BroadcastsInDim S128x128 (![] : Fin 0 → Fin S128x128.rank)
  slices_S4x128x128_S1x128x128_3_0_0 : S4x128x128.Slices ![3, 0, 0] S1x128x128
  inb_S1x1000x128_S1x1000x128_0_0_0 : ∀ a, (![0, 0, 0] : Fin 3 → Nat) a + S1x1000x128.size a ≤ S1x1000x128.size a
  h_S1x1000x128 : 0 < S1x1000x128.numel
  shapeCasts_S1x1000x128_S1000x128 : S1x1000x128.ShapeCasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  shapeCasts_S1000x128_S1x1000x128 : S1000x128.ShapeCasts S1x1000x128
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  scatter_S10240x10240_S170000x2_S170000_n_01_01_1_wf : ScatterDims.WF S10240x10240 S170000x2 S170000 [] [0, 1] [0, 1] 1
  dot_S1024x1024_S1024x512_S1024x512_1_0_0_1_n_n_wf : DotDims.WF S1024x1024 S1024x512 S1024x512 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S10240x10240.size a
  hwx0_0 : ∀ i : grid0.Coords, EltTy.bits .bf16 = 32 ∨ (Rect.block (s := S10240x10240) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S10240x512.size a
  hwx0_1 : ∀ i : grid0.Coords, EltTy.bits .bf16 = 32 ∨ (Rect.block (s := S10240x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S10240x512.size a
  hwx0_2 : ∀ i : grid0.Coords, EltTy.bits .f32 = 32 ∨ (Rect.block (s := S10240x512) S1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1000x128.size a ≤ S4x10000x128.size a
  hwx1_0 : ∀ i : grid1.Coords, EltTy.bits .f32 = 32 ∨ (Rect.block (s := S4x10000x128) S1x1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1000x128.size a ≤ S4x10000x128.size a
  hwx1_1 : ∀ i : grid1.Coords, EltTy.bits .f32 = 32 ∨ (Rect.block (s := S4x10000x128) S1x1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1000x128.size a ≤ S4x10000x128.size a
  hwx1_5 : ∀ i : grid1.Coords, EltTy.bits .f32 = 32 ∨ (Rect.block (s := S4x10000x128) S1x1000x128.size (cc1_transform_5 i) (hinb1_5 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v52) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S1x1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v65) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v75) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v76) S1x1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x10000x128 : Shape := ⟨3, ![4, 10000, 128]⟩
abbrev S2x160000 : Shape := ⟨2, ![2, 160000]⟩
abbrev S160000 : Shape := ⟨1, ![160000]⟩
abbrev S4x128x128 : Shape := ⟨3, ![4, 128, 128]⟩
abbrev S128 : Shape := ⟨1, ![128]⟩
abbrev S1x160000 : Shape := ⟨2, ![1, 160000]⟩
abbrev S_ : Shape := ⟨0, ![]⟩
abbrev S10000 : Shape := ⟨1, ![10000]⟩
abbrev S160000x1 : Shape := ⟨2, ![160000, 1]⟩
abbrev S170000 : Shape := ⟨1, ![170000]⟩
abbrev S1x128x128 : Shape := ⟨3, ![1, 128, 128]⟩
abbrev S128x128 : Shape := ⟨2, ![128, 128]⟩
abbrev S1x170000x1 : Shape := ⟨3, ![1, 170000, 1]⟩
abbrev S170000x1 : Shape := ⟨2, ![170000, 1]⟩
abbrev S4x170000x128 : Shape := ⟨3, ![4, 170000, 128]⟩
abbrev S10000x128 : Shape := ⟨2, ![10000, 128]⟩
abbrev S1x1x128 : Shape := ⟨3, ![1, 1, 128]⟩

abbrev nBuf : Space → Nat
  | .hbm => 100
  | .vmem => 0
  | .smem => 0
  | _ => 0

abbrev bufTy : (tb : Table) → Fin (tcTables nBuf tb) → BufTy
  | .hbm, ⟨0, _⟩ => ⟨S4x10000x128, .f32⟩
  | .hbm, ⟨1, _⟩ => ⟨S2x160000, .i32⟩
  | .hbm, ⟨2, _⟩ => ⟨S160000, .f32⟩
  | .hbm, ⟨3, _⟩ => ⟨S4x128x128, .f32⟩
  | .hbm, ⟨4, _⟩ => ⟨S128, .f32⟩
  | .hbm, ⟨5, _⟩ => ⟨S1x160000, .i32⟩
  | .hbm, ⟨6, _⟩ => ⟨S160000, .i32⟩
  | .hbm, ⟨7, _⟩ => ⟨S1x160000, .i32⟩
  | .hbm, ⟨8, _⟩ => ⟨S160000, .i32⟩
  | .hbm, ⟨9, _⟩ => ⟨S_, .f32⟩
  | .hbm, ⟨10, _⟩ => ⟨S10000, .f32⟩
  | .hbm, ⟨11, _⟩ => ⟨S160000x1, .i32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S10000, .i1⟩
  | .hbm, ⟨16, _⟩ => ⟨S_, .f32⟩
  | .hbm, ⟨17, _⟩ => ⟨S_, .f32⟩
  | .hbm, ⟨18, _⟩ => ⟨S10000, .f32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S160000, .i32⟩
  | .hbm, ⟨29, _⟩ => ⟨S160000, .i1⟩
  | .hbm, ⟨30, _⟩ => ⟨S_, .i32⟩
  | .hbm, ⟨31, _⟩ => ⟨S160000, .i32⟩
  | .hbm, ⟨32, _⟩ => ⟨S160000, .i32⟩
  | .hbm, ⟨33, _⟩ => ⟨S160000, .i32⟩
  | .hbm, ⟨34, _⟩ => ⟨S160000x1, .i32⟩
  | .hbm, ⟨35, _⟩ => ⟨S160000, .f32⟩
  | .hbm, ⟨36, _⟩ => ⟨S160000, .f32⟩
  | .hbm, ⟨37, _⟩ => ⟨S160000, .f32⟩
  | .hbm, ⟨38, _⟩ => ⟨S_, .i32⟩
  | .hbm, ⟨39, _⟩ => ⟨S160000, .i32⟩
  | .hbm, ⟨40, _⟩ => ⟨S160000, .i1⟩
  | .hbm, ⟨41, _⟩ => ⟨S_, .i32⟩
  | .hbm, ⟨42, _⟩ => ⟨S160000, .i32⟩
  | .hbm, ⟨43, _⟩ => ⟨S160000, .i32⟩
  | .hbm, ⟨44, _⟩ => ⟨S160000, .i32⟩
  | .hbm, ⟨45, _⟩ => ⟨S160000x1, .i32⟩
  | .hbm, ⟨46, _⟩ => ⟨S160000, .f32⟩
  | .hbm, ⟨47, _⟩ => ⟨S160000, .f32⟩
  | .hbm, ⟨48, _⟩ => ⟨S10000, .i32⟩
  | .hbm, ⟨49, _⟩ => ⟨S170000, .i32⟩
  | .hbm, ⟨50, _⟩ => ⟨S170000, .i32⟩
  | .hbm, ⟨51, _⟩ => ⟨S_, .f32⟩
  | .hbm, ⟨52, _⟩ => ⟨S10000, .f32⟩
  | .hbm, ⟨53, _⟩ => ⟨S170000, .f32⟩
  | .hbm, ⟨54, _⟩ => ⟨S_, .f32⟩
  | .hbm, ⟨55, _⟩ => ⟨S170000, .f32⟩
  | .hbm, ⟨56, _⟩ => ⟨S170000, .f32⟩
  | .hbm, ⟨57, _⟩ => ⟨S1x128x128, .f32⟩
  | .hbm, ⟨58, _⟩ => ⟨S128x128, .f32⟩
  | .hbm, ⟨59, _⟩ => ⟨S4x10000x128, .f32⟩
  | .hbm, ⟨60, _⟩ => ⟨S1x170000x1, .f32⟩
  | .hbm, ⟨61, _⟩ => ⟨S_, .i32⟩
  | .hbm, ⟨62, _⟩ => ⟨S170000, .i32⟩
  | .hbm, ⟨63, _⟩ => ⟨S170000, .i1⟩
  | .hbm, ⟨64, _⟩ => ⟨S_, .i32⟩
  | .hbm, ⟨65, _⟩ => ⟨S170000, .i32⟩
  | .hbm, ⟨66, _⟩ => ⟨S170000, .i32⟩
  | .hbm, ⟨67, _⟩ => ⟨S170000, .i32⟩
  | .hbm, ⟨68, _⟩ => ⟨S170000x1, .i32⟩
  | .hbm, ⟨69, _⟩ => ⟨S4x170000x128, .f32⟩
  | .hbm, ⟨70, _⟩ => ⟨S4x170000x128, .f32⟩
  | .hbm, ⟨71, _⟩ => ⟨S4x170000x128, .f32⟩
  | .hbm, ⟨72, _⟩ => ⟨S_, .f32⟩
  | .hbm, ⟨73, _⟩ => ⟨S10000x128, .f32⟩
  | .hbm, ⟨74, _⟩ => ⟨S170000x1, .i32⟩
  | .hbm, ⟨75, _⟩ => ⟨S4x10000x128, .f32⟩
  | .hbm, ⟨76, _⟩ => ⟨S4x10000x128, .f32⟩
  | .hbm, ⟨77, _⟩ => ⟨S1x128x128, .f32⟩
  | .hbm, ⟨78, _⟩ => ⟨S128x128, .f32⟩
  | .hbm, ⟨79, _⟩ => ⟨S4x10000x128, .f32⟩
  | .hbm, ⟨80, _⟩ => ⟨S4x10000x128, .f32⟩
  | .hbm, ⟨81, _⟩ => ⟨S_, .f32⟩
  | .hbm, ⟨82, _⟩ => ⟨S4x10000x128, .f32⟩
  | .hbm, ⟨83, _⟩ => ⟨S4x10000x128, .f32⟩
  | .hbm, ⟨84, _⟩ => ⟨S4x10000x128, .f32⟩
  | .hbm, ⟨85, _⟩ => ⟨S1x128x128, .f32⟩
  | .hbm, ⟨86, _⟩ => ⟨S128x128, .f32⟩
  | .hbm, ⟨87, _⟩ => ⟨S4x10000x128, .f32⟩
  | .hbm, ⟨88, _⟩ => ⟨S4x10000x128, .f32⟩
  | .hbm, ⟨89, _⟩ => ⟨S_, .f32⟩
  | .hbm, ⟨90, _⟩ => ⟨S4x10000x128, .f32⟩
  | .hbm, ⟨91, _⟩ => ⟨S4x10000x128, .f32⟩
  | .hbm, ⟨92, _⟩ => ⟨S4x10000x128, .f32⟩
  | .hbm, ⟨93, _⟩ => ⟨S1x128x128, .f32⟩
  | .hbm, ⟨94, _⟩ => ⟨S128x128, .f32⟩
  | .hbm, ⟨95, _⟩ => ⟨S4x10000x128, .f32⟩
  | .hbm, ⟨96, _⟩ => ⟨S4x10000x128, .f32⟩
  | .hbm, ⟨97, _⟩ => ⟨S1x1x128, .f32⟩
  | .hbm, ⟨98, _⟩ => ⟨S4x10000x128, .f32⟩
  | .hbm, ⟨99, _⟩ => ⟨S4x10000x128, .f32⟩
  | _, _ => ⟨S4x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S10000 : S_.BroadcastsInDim S10000 (![] : Fin 0 → Fin S10000.rank)
  bcast_S160000_S160000x1_0 : S160000.BroadcastsInDim S160000x1 (![0] : Fin 1 → Fin S160000x1.rank)
  bcast_S_S160000 : S_.BroadcastsInDim S160000 (![] : Fin 0 → Fin S160000.rank)
  concatenates_S160000_S10000_S170000_d0 : Shape.Concatenates [S160000, S10000] S170000 0
  bcast_S_S170000 : S_.BroadcastsInDim S170000 (![] : Fin 0 → Fin S170000.rank)
  slices_S4x128x128_S1x128x128_0_0_0 : S4x128x128.Slices ![0, 0, 0] S1x128x128
  shapeCasts_S1x128x128_S128x128 : S1x128x128.ShapeCasts S128x128
  bcast_S170000_S1x170000x1_1 : S170000.BroadcastsInDim S1x170000x1 (![1] : Fin 1 → Fin S1x170000x1.rank)
  bcast_S170000_S170000x1_0 : S170000.BroadcastsInDim S170000x1 (![0] : Fin 1 → Fin S170000x1.rank)
  bcast_S1x170000x1_S4x170000x128_0_1_2 : S1x170000x1.BroadcastsInDim S4x170000x128 (![0, 1, 2] : Fin 3 → Fin S4x170000x128.rank)
  bcast_S_S10000x128 : S_.BroadcastsInDim S10000x128 (![] : Fin 0 → Fin S10000x128.rank)
  bcast_S10000x128_S4x10000x128_1_2 : S10000x128.BroadcastsInDim S4x10000x128 (![1, 2] : Fin 2 → Fin S4x10000x128.rank)
  slices_S4x128x128_S1x128x128_1_0_0 : S4x128x128.Slices ![1, 0, 0] S1x128x128
  bcast_S_S4x10000x128 : S_.BroadcastsInDim S4x10000x128 (![] : Fin 0 → Fin S4x10000x128.rank)
  slices_S4x128x128_S1x128x128_2_0_0 : S4x128x128.Slices ![2, 0, 0] S1x128x128
  slices_S4x128x128_S1x128x128_3_0_0 : S4x128x128.Slices ![3, 0, 0] S1x128x128
  bcast_S128_S1x1x128_2 : S128.BroadcastsInDim S1x1x128 (![2] : Fin 1 → Fin S1x1x128.rank)
  bcast_S1x1x128_S4x10000x128_0_1_2 : S1x1x128.BroadcastsInDim S4x10000x128 (![0, 1, 2] : Fin 3 → Fin S4x10000x128.rank)
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  dot_S4x10000x128_S128x128_S4x10000x128_2_0_01_1_n_n_wf : DotDims.WF S4x10000x128 S128x128 S4x10000x128 [2] [0] [0, 1] [1] [] []
  gather_S4x10000x128_S170000x1_S4x170000x128_02_1_n_n_1_1_41128_wf : GatherDims.WF S4x10000x128 S170000x1 S4x170000x128 [0, 2] [1] [] [1] [] 1 ![4, 1, 128]
  scatter_S4x10000x128_S170000x1_S4x170000x128_02_1_1_1_wf : ScatterDims.WF S4x10000x128 S170000x1 S4x170000x128 [0, 2] [1] [1] 1

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S4x10000x128_S128x128_S4x10000x128_2_0_01_1_n_n : DotDims S4x10000x128 S128x128 S4x10000x128 where
  lhsContracting := [2]
  rhsContracting := [0]
  lhsNonContracting := [0, 1]
  rhsNonContracting := [1]
  lhsBatch := []
  rhsBatch := []
  wf := dot_S4x10000x128_S128x128_S4x10000x128_2_0_01_1_n_n_wf
def gather_S4x10000x128_S170000x1_S4x170000x128_02_1_n_n_1_1_41128 : GatherDims S4x10000x128 S170000x1 S4x170000x128 where
  offsetDims := [0, 2]
  collapsedSliceDims := [1]
  operandBatchingDims := []
  startIndicesBatchingDims := []
  startIndexMap := [1]
  indexVectorDim := 1
  sliceSizes := ![4, 1, 128]
  wf := gather_S4x10000x128_S170000x1_S4x170000x128_02_1_n_n_1_1_41128_wf
def scatter_S4x10000x128_S170000x1_S4x170000x128_02_1_1_1 : ScatterDims S4x10000x128 S170000x1 S4x170000x128 where
  updateWindowDims := [0, 2]
  insertedWindowDims := [1]
  scatterDimsToOperandDims := [1]
  indexVectorDim := 1
  wf := scatter_S4x10000x128_S170000x1_S4x170000x128_02_1_1_1_wf

class Facts : Prop extends Facts₀ where

variable [Facts]
-- ==== Proof.R0BodyBits.lean ====
import proofs.«101218_j11046655885865_1_alg».proof.Proof.Gen.Kernel.Launch
import proofs.«101218_j11046655885865_1_alg».proof.Proof.Gen.Kernel.Skeleton
import proofs.«101218_j11046655885865_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition, from the grid coordinates: the inner coordinate is 0. -/
abbrev cond0_1 (i : grid0.Coords) : Prop := (Scalar.cmpi .ne (Scalar.extui (Scalar.cmpi .eq (BitVec.ofNat 32 (i 1).val) 0#32)) 0#32) = 1#1
/-- The second branch's condition: the inner coordinate is 9. -/
abbrev cond0_2 (i : grid0.Coords) : Prop := k0_cond2 i = 1#1

/-- The first holds at the points ≡ 0 (mod 10), decided over the grid. -/
theorem hcond0_1 : ∀ t : Fin cfg0.N, cond0_1 (grid0.coords t) ↔ t.val % 10 = 0 :=
  (by decide +kernel : ∀ t : Fin grid0.N, cond0_1 (grid0.coords t) ↔ t.val % 10 = 0)
/-- The second holds at the points ≡ 9 (mod 10). -/
theorem hcond0_2 : ∀ t : Fin cfg0.N, cond0_2 (grid0.coords t) ↔ t.val % 10 = 9 :=
  (by decide +kernel : ∀ t : Fin grid0.N, cond0_2 (grid0.coords t) ↔ t.val % 10 = 9)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output window is idle, and not written back, exactly where the second condition fails. -/
theorem idleAt0_2 : ∀ t : Fin cfg0.N, ¬cond0_2 (grid0.coords t) → cfg0.idle 2 (grid0.coords t) = true := by decide +kernel
theorem liveAt0_2 : ∀ t : Fin cfg0.N, cond0_2 (grid0.coords t) → cfg0.idle 2 (grid0.coords t) = false := by decide +kernel
theorem noFlush0_2 : ∀ t : Fin cfg0.N, ¬cond0_2 (grid0.coords t) → (cfg0.win 2).flush t = false := by decide +kernel

/-- The zero offsets, as the printed rectangles spell them. -/
theorem hz2 : (![0, 0] : Fin 2 → Nat) = fun _ => 0 := funext fun a => by fin_cases a <;> rfl

/-- The whole-block rectangle of the scratch and the output block, as the printed stores spell it. -/
abbrev r0 : Rect S1024x512 := Rect.unit (s := S1024x512) ![0, 0] S1024x512.size inb_S1024x512_S1024x512_0_0

/-- One whole-block store covers the block; -/
theorem cover0_one (p0 : Vec F S1024x512 .f32) (y : S1024x512.Idx) :
    ∃ pc ∈ ([⟨r0, p0⟩] : List (View.Piece (Elt F) S1024x512 .f32)), y ∈ pc.1.set :=
  ⟨_, List.mem_singleton_self _, View.mem_set_unit_zero hz2 inb_S1024x512_S1024x512_0_0 y⟩

/-- and so do two, by the later one. -/
theorem cover0_two (p0 p1 : Vec F S1024x512 .f32) (y : S1024x512.Idx) :
    ∃ pc ∈ ([⟨r0, p0⟩, ⟨r0, p1⟩] : List (View.Piece (Elt F) S1024x512 .f32)), y ∈ pc.1.set :=
  ⟨_, List.mem_cons_self, View.mem_set_unit_zero hz2 inb_S1024x512_S1024x512_0_0 y⟩

set_option maxHeartbeats 1000000 in
/-- The body where both conditions fail: the scratch at s ends at s plus the blocks' product. -/
theorem sound_kernel0_mid (c : Dev nD) (E : Set ℕ) (i : grid0.Coords)
    (arg2 : Memref sig .tc .vmem S1024x1024 .bf16) (harg2 : arg2.IsWhole) (arg3 : Memref sig .tc .vmem S1024x512 .bf16) (harg3 : arg3.IsWhole)
    (arg4 : Memref sig .tc .vmem S1024x512 .f32) (harg4 : arg4.IsWhole) (arg5 : Memref sig .tc .vmem S1024x512 .f32) (harg5 : arg5.IsWhole)
    (h1 : ¬cond0_1 i) (h2 : ¬cond0_2 i)
    (xa : Vec F S1024x1024 .bf16) (xb : Vec F S1024x512 .bf16) (s : Vec F S1024x512 .f32) (K : PUnit → sProp 𝕄) :
    iprop(owns (c : Thread nD τ) arg2 fullShare xa ∗ owns (c : Thread nD τ) arg3 fullShare xb ∗ owns (c : Thread nD τ) arg5 fullShare s
        ∗ (iprop(owns (c : Thread nD τ) arg2 fullShare xa ∗ owns (c : Thread nD τ) arg3 fullShare xb ∗ owns (c : Thread nD τ) arg5 fullShare (k0_pay2 s xa xb)) -∗ K ⟨⟩))
      ⊢ wp frame (wpE (defs₀ (F := F)) Variants.none c none) E (cc0__spmm_kernel i arg2 harg2 arg3 harg3 arg4 harg4 arg5 harg5) K := by
  simp only [cc0__spmm_kernel_eq_skeleton]; unfold cc0__spmm_kernel_skel
  unfold owns
  iintro ⟨⟨%f2, %hf2, H2⟩, ⟨%f3, %hf3, H3⟩, ⟨%f5, %hf5, H5⟩, Hk⟩
  subst hf2; subst hf3; subst hf5
  sl_exec (disch := first | exact h1 | exact h2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  sl_unfold_run_names
  rw [View.read_writes_eq_canon _ _ _ (cover0_one _), View.canon_unit_zero hz2]
  simp only [View.readAt_eq_ld, View.ld_unit_zero (S := S1024x512) hz2, View.ld_unit_zero (S := S1024x1024) hz2]

set_option maxHeartbeats 1000000 in
/-- The body where the first condition holds and the second fails: the scratch, at anything, ends at
    zero plus the blocks' product. -/
theorem sound_kernel0_first (c : Dev nD) (E : Set ℕ) (i : grid0.Coords)
    (arg2 : Memref sig .tc .vmem S1024x1024 .bf16) (harg2 : arg2.IsWhole) (arg3 : Memref sig .tc .vmem S1024x512 .bf16) (harg3 : arg3.IsWhole)
    (arg4 : Memref sig .tc .vmem S1024x512 .f32) (harg4 : arg4.IsWhole) (arg5 : Memref sig .tc .vmem S1024x512 .f32) (harg5 : arg5.IsWhole)
    (h1 : cond0_1 i) (h2 : ¬cond0_2 i)
    (xa : Vec F S1024x1024 .bf16) (xb : Vec F S1024x512 .bf16) (K : PUnit → sProp 𝕄) :
    iprop(owns (c : Thread nD τ) arg2 fullShare xa ∗ owns (c : Thread nD τ) arg3 fullShare xb ∗ (∃ d, owns (c : Thread nD τ) arg5 fullShare d)
        ∗ (iprop(owns (c : Thread nD τ) arg2 fullShare xa ∗ owns (c : Thread nD τ) arg3 fullShare xb ∗ owns (c : Thread nD τ) arg5 fullShare (k0_pay2 (k0_pay1 (F := F)) xa xb)) -∗ K ⟨⟩))
      ⊢ wp frame (wpE (defs₀ (F := F)) Variants.none c none) E (cc0__spmm_kernel i arg2 harg2 arg3 harg3 arg4 harg4 arg5 harg5) K := by
  simp only [cc0__spmm_kernel_eq_skeleton]; unfold cc0__spmm_kernel_skel
  unfold owns
  iintro ⟨⟨%f2, %hf2, H2⟩, ⟨%f3, %hf3, H3⟩, ⟨%d5, %f5, -, H5⟩, Hk⟩
  subst hf2; subst hf3
  sl_exec (disch := first | exact h1 | exact h2)
  sl_step

  iapply Hk
  isplitl [H2]
  · iexists f2; isplitr; · ipureintro; rfl
    iexact H2
  isplitl [H3]
  · iexists f3; isplitr; · ipureintro; rfl
    iexact H3
  iexists _; isplitr
  swap; · iexact H5
  ipureintro
  sl_unfold_run_names
  rw [View.read_writes_eq_canon _ _ _ (cover0_two _ _), View.canon_cons_unit_zero hz2]
  simp only [View.readAt_eq_ld, View.ld_unit_zero (S := S1024x512) hz2, View.ld_unit_zero (S := S1024x1024) hz2, View.readCov_unit_zero (S := S1024x512) _ hz2]

set_option maxHeartbeats 1000000 in
/-- The body where the second condition holds and the first fails: the scratch at s ends at s plus
    the blocks' product, and the output block, at anything, ends at the same. -/
theorem sound_kernel0_last (c : Dev nD) (E : Set ℕ) (i : grid0.Coords)
    (arg2 : Memref sig .tc .vmem S1024x1024 .bf16) (harg2 : arg2.IsWhole) (arg3 : Memref sig .tc .vmem S1024x512 .bf16) (harg3 : arg3.IsWhole)
    (arg4 : Memref sig .tc .vmem S1024x512 .f32) (harg4 : arg4.IsWhole) (arg5 : Memref sig .tc .vmem S1024x512 .f32) (harg5 : arg5.IsWhole)
    (h1 : ¬cond0_1 i) (h2 : cond0_2 i)
    (xa : Vec F S1024x1024 .bf16) (xb : Vec F S1024x512 .bf16) (s : Vec F S1024x512 .f32) (K : PUnit → sProp 𝕄) :
    iprop(owns (c : Thread nD τ) arg2 fullShare xa ∗ owns (c : Thread nD τ) arg3 fullShare xb ∗ (∃ d, owns (c : Thread nD τ) arg4 fullShare d) ∗ owns (c : Thread nD τ) arg5 fullShare s
        ∗ (iprop(owns (c : Thread nD τ) arg2 fullShare xa ∗ owns (c : Thread nD τ) arg3 fullShare xb ∗ owns (c : Thread nD τ) arg4 fullShare (k0_pay2 s xa xb) ∗ owns (c : Thread nD τ) arg5 fullShare (k0_pay2 s xa xb)) -∗ K ⟨⟩))
      ⊢ wp frame (wpE (defs₀ (F := F)) Variants.none c none) E (cc0__spmm_kernel i arg2 harg2 arg3 harg3 arg4 harg4 arg5 harg5) K := by
  simp only [cc0__spmm_kernel_eq_skeleton]; unfold cc0__spmm_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact h1 | exact h2)
  sl_step

  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (cover0_one _), View.canon_unit_zero hz2]
    simp only [View.readAt_eq_ld, View.ld_unit_zero (S := S1024x512) hz2, View.ld_unit_zero (S := S1024x1024) hz2, View.readCov_unit_zero (S := S1024x512) _ hz2]
  iexists _; isplitr
  swap; · iexact H5
  ipureintro
  sl_unfold_run_names
  rw [View.read_writes_eq_canon _ _ _ (cover0_one _), View.canon_unit_zero hz2]
  simp only [View.readAt_eq_ld, View.ld_unit_zero (S := S1024x512) hz2, View.ld_unit_zero (S := S1024x1024) hz2]

variable (V : (c : Dev nD) → (b : Ref sig .tc) → Buf (Elt F) ((c : Thread nD τ).loc b))

/-- Window w's block at point t, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position n: reset to zero where n ≡ 0 (mod 10), then the
    product of the two blocks at n added. -/
def accAt0 (c : Dev nD) : (n : ℕ) → n < cfg0.N → Vec F S1024x512 .f32
  | 0, hn => k0_pay2 (k0_pay1 (F := F)) (iblk0 V c 0 ⟨0, hn⟩) (iblk0 V c 1 ⟨0, hn⟩)
  | n + 1, hn => k0_pay2 (if (n + 1) % 10 = 0 then k0_pay1 (F := F) else accAt0 c n (Nat.lt_of_succ_lt hn)) (iblk0 V c 0 ⟨n + 1, hn⟩) (iblk0 V c 1 ⟨n + 1, hn⟩)

theorem accAt0_zero (c : Dev nD) (hn : 0 < cfg0.N) :
    accAt0 V c 0 hn = k0_pay2 (k0_pay1 (F := F)) (iblk0 V c 0 ⟨0, hn⟩) (iblk0 V c 1 ⟨0, hn⟩) := rfl

theorem accAt0_succ (c : Dev nD) (n : ℕ) (hn : n + 1 < cfg0.N) :
    accAt0 V c (n + 1) hn = k0_pay2 (if (n + 1) % 10 = 0 then k0_pay1 (F := F) else accAt0 V c n (Nat.lt_of_succ_lt hn)) (iblk0 V c 0 ⟨n + 1, hn⟩) (iblk0 V c 1 ⟨n + 1, hn⟩) := rfl

/-- At a point ≡ 0 (mod 10) the accumulator restarts from zero. -/
theorem accAt0_first (c : Dev nD) (t : Fin cfg0.N) (h0 : t.val % 10 = 0) :
    accAt0 V c t.val t.isLt = k0_pay2 (k0_pay1 (F := F)) (iblk0 V c 0 t) (iblk0 V c 1 t) := by
  obtain ⟨n, hn⟩ := t
  cases n with
  | zero => rfl
  | succ n =>
    have h0' : (n + 1) % 10 = 0 := h0
    exact (accAt0_succ V c n hn).trans (by rw [if_pos h0'])

/-- At any other point it continues from what the point before left. -/
theorem accAt0_step (c : Dev nD) (t : Fin cfg0.N) (h0 : ¬t.val % 10 = 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n =>
    have h0' : ¬(n + 1) % 10 = 0 := h0
    exact (accAt0_succ V c n hn).trans (by rw [if_neg h0']; rfl)

/-- The scratch operand as a memref. -/
abbrev scM0 : Memref sig .tc .vmem S1024x512 .f32 := Memref.whole cc0_scratch0

/-- The scoped buffers of the core other than the scratch and this call's staging buffers, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant with the scratch as a memref owned at some contents. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

/-- The region invariant before position n: the class's before the first point; afterwards the
    scratch at what the point before left in it, the other scoped buffers at anything, the generator
    register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 (F := F) c) ∗ (∃ r, prngReg c r)) := by
  cases n with
  | zero => exact absurd rfl hz
  | succ n => rfl

/-- The proof data of the pipeline on core c: the arrays as the region finds them; after the body at
    point t each input's buffer at its block and the output's at the accumulator there; the invariant
    above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

/-- Each input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point's residue mod 10 says which
    of the three cases it is in; the invariant hands the body the scratch at what the point before left
    (at anything at the first point) and takes it back at this point's accumulator; the output's buffer
    is handed back untouched except where the inner coordinate is 9, where it ends at the accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 100 := lt_of_lt_of_eq t.isLt (show cfg0.N = 100 from N_0)
  by_cases h0 : t.val % 10 = 0
  · have hc1 : cond0_1 (grid0.coords t) := (hcond0_1 t).mpr h0
    have hc2 : ¬cond0_2 (grid0.coords t) := fun h => by have := (hcond0_2 t).mp h; omega
    rw [Dat.leavesExact_idle (dat0 V c) 2 t (idleAt0_2 t hc2) (noFlush0_2 t hc2)]
    rw [accAt0_first V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, H2⟩
      iapply (sound_kernel0_first c Set.univ (grid0.coords t) _ _ _ _ _ _ _ _ hc1 hc2 (iblk0 V c 0 t) (iblk0 V c 1 t) _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [PhiS0_castSucc V c t, PhiS0_pos V c _ _ hz]
      iintro ⟨⟨⟨HS, Hoth⟩, Hg⟩, Ho, ⟨%d0, H0⟩, ⟨%d1, H1⟩, H2⟩
      iapply (sound_kernel0_first c Set.univ (grid0.coords t) _ _ _ _ _ _ _ _ hc1 hc2 (iblk0 V c 0 t) (iblk0 V c 1 t) _)
      isplitl [H0]; · iexact H0
      isplitl [H1]; · iexact H1
      isplitl [HS]; · iexists _; iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
  · have hc1 : ¬cond0_1 (grid0.coords t) := fun h => h0 ((hcond0_1 t).mp h)
    have hz : t.val ≠ 0 := fun e => h0 (by rw [e])
    rw [accAt0_step V c t h0]
    rw [PhiS0_castSucc V c t, PhiS0_pos V c _ _ hz]
    by_cases h9 : t.val % 10 = 9
    · have hc2 : cond0_2 (grid0.coords t) := (hcond0_2 t).mpr h9
      rw [show (dat0 V c).leavesExact 2 t = owns (c : Thread nD τ) (st0_2 t) fullShare ((dat0 V c).after 2 t) from by
        unfold Dat.leavesExact; rw [liveAt0_2 t hc2], after0_2]
      rw [accAt0_step V c t h0]
      iintro ⟨⟨⟨HS, Hoth⟩, Hg⟩, Ho, ⟨%d0, H0⟩, ⟨%d1, H1⟩, ⟨%d2, H2⟩⟩
      iapply (sound_kernel0_last c Set.univ (grid0.coords t) _ _ _ _ _ _ _ _ hc1 hc2 (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hc2 : ¬cond0_2 (grid0.coords t) := fun h => h9 ((hcond0_2 t).mp h)
      rw [Dat.leavesExact_idle (dat0 V c) 2 t (idleAt0_2 t hc2) (noFlush0_2 t hc2)]
      iintro ⟨⟨⟨HS, Hoth⟩, Hg⟩, Ho, ⟨%d0, H0⟩, ⟨%d1, H1⟩, H2⟩
      iapply (sound_kernel0_mid c Set.univ (grid0.coords t) _ _ _ _ _ _ _ _ hc1 hc2 (iblk0 V c 0 t) (iblk0 V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point but the first the invariant gives the class's back: the scratch's named contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hoth⟩, Hg⟩
  isplitl [HS Hoth]
  · isplitl [HS]; · iexists _; iexact HS
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 100 := N_0; omega)

end Cert.Kernel.Hand

end
-- ==== Proof.R1BodyBits.lean ====
/- The body obligation of the second pipelined call of the program: at every grid point the body reads the
   five input windows' staging buffers whole and stores one payload whole into the output window's buffer.
   Stated at a parameter `V` (the TensorCore's buffer contents when the region is entered) and at any float
   instance. -/
import proofs.«101218_j11046655885865_1_alg».proof.Proof.Gen.Kernel.Launch
import proofs.«101218_j11046655885865_1_alg».proof.Proof.Gen.Kernel.Skeleton
import proofs.«101218_j11046655885865_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched,
    the block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched,
    the block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched,
    the block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched,
    the block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched,
    the block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_a : Rect S1x1000x128 := Rect.unit (s := S1x1000x128) ![0, 0, 0] S1x1000x128.size inb_S1x1000x128_S1x1000x128_0_0_0
abbrev r1_b : Rect S128x128 := Rect.unit (s := S128x128) ![0, 0] S128x128.size inb_S128x128_S128x128_0_0
abbrev r1_c : Rect S128 := Rect.unit (s := S128) ![0] S128.size inb_S128_S128_0

theorem r1_zeros3 : (![0, 0, 0] : Fin 3 → Nat) = fun _ => 0 := funext fun a => by fin_cases a <;> rfl
theorem r1_zeros2 : (![0, 0] : Fin 2 → Nat) = fun _ => 0 := funext fun a => by fin_cases a <;> rfl
theorem r1_zeros1 : (![0] : Fin 1 → Nat) = fun _ => 0 := funext fun a => by fin_cases a <;> rfl

/-! ## What the body leaves in the output window's buffer -/

/-- The output window's staging buffer after the body, from the input windows' blocks: its one store as a piece
    over the payload of the five loads. -/
def out1_5 (x0 x1 : Vec F S1x1000x128 .f32) (x2 x3 : Vec F S128x128 .f32) (x4 : Vec F S128 .f32) : Vec F S1x1000x128 .f32 :=
  View.canon [⟨r1_a, k1_pay1 (View.ld x0 r1_a) (View.ld x1 r1_a) (View.ld x2 r1_b) (View.ld x3 r1_b) (View.ld x4 r1_c)⟩]

/-- Every access being of a whole buffer, the buffer ends holding the payload of the buffers' contents. -/
theorem out1_5_eq (x0 x1 : Vec F S1x1000x128 .f32) (x2 x3 : Vec F S128x128 .f32) (x4 : Vec F S128 .f32) :
    out1_5 x0 x1 x2 x3 x4 = k1_pay1 x0 x1 x2 x3 x4 := by
  unfold out1_5
  rw [View.canon_unit_zero r1_zeros3, View.ld_unit_zero r1_zeros3, View.ld_unit_zero r1_zeros3,
    View.ld_unit_zero r1_zeros2, View.ld_unit_zero r1_zeros2, View.ld_unit_zero r1_zeros1]

/-- The one store is of the whole buffer, so it covers it. -/
theorem cover1_5 (p0 : Vec F S1x1000x128 .f32) (y : S1x1000x128.Idx) :
    ∃ pc ∈ ([⟨r1_a, p0⟩] : List (View.Piece (Elt F) S1x1000x128 .f32)), y ∈ pc.1.set :=
  ⟨_, List.mem_singleton_self _, View.mem_set_unit_zero r1_zeros3 inb_S1x1000x128_S1x1000x128_0_0_0 y⟩

/-! ## The body's triple -/

set_option maxHeartbeats 1000000 in
/-- The body on whole staging memrefs, the inputs' at contents `x0 … x4` and the output's at anything, runs to the
    continuation holding the inputs' as they were and the output's at `out1_5` of the inputs'. -/
theorem sound_kernel1 (c : Dev nD) (E : Set ℕ) (i : grid1.Coords) (arg2 : Memref sig .tc .vmem S1x1000x128 .f32) (harg2 : arg2.IsWhole) (arg3 : Memref sig .tc .vmem S1x1000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x1000x128 .f32) (harg7 : arg7.IsWhole)
    (x0 x1 : Vec F S1x1000x128 .f32) (x2 x3 : Vec F S128x128 .f32) (x4 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4)) -∗ K ⟨⟩))
      ⊢ wp frame (wpE (defs₀ (F := F)) Variants.none c none) E (cc1__combine_kernel i arg2 harg2 arg3 harg3 arg4 harg4 arg5 harg5 arg6 harg6 arg7 harg7) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the pipeline on core `c`: the arrays as the region finds them; after the body at point `t`
    each input's buffer at its block and the output's at `out1_5` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunBits.lean ====
/-
  The program's run, from the two kernel regions' body obligations.

  Region 0 multiplies the dense 10240×10240 matrix with the padded features block by block, accumulating ten
  blocks of the contracted axis in a scratch that is carried from one grid point to the next and written out at the
  tenth; region 1 combines the features and the propagated features with the two folded weight matrices and the bias,
  one block of a thousand nodes at a time. Each region enters the run as a segment: its arrays are split out of the
  core's unscoped buffers at the contents the host operations before it leave, the pipeline runs from the region's
  proof data, and the arrays are put back with the output array at what the pipeline's write-backs leave.
  The result: every execution terminates without fault, and the final memory holds every unscoped buffer at the last
  valuation — the arguments as launched, the result array at what region 1's write-backs leave.
-/
import proofs.«101218_j11046655885865_1_alg».proof.Proof.RunCondBits
import proofs.«101218_j11046655885865_1_alg».proof.Proof.R0BodyBits
import proofs.«101218_j11046655885865_1_alg».proof.Proof.R1BodyBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions are entered from and leave -/

/-- What region 0 finds in the TensorCore's buffers: the launch memory after the seven host stretches before it. -/
abbrev Ein0 : (c : Dev nD) → (b : Ref sig .tc) → Buf (Elt F) ((c : Thread nD τ).loc b) := fun c b => V7 m c b

/-- What region 0 leaves in its output array: its write-backs folded over the entry contents. -/
def o8 (c : Dev nD) : Buf (Elt F) ((c : Thread nD τ).loc main_v57) := (dat0 (Ein0 m) c).arrAt 2 cfg0.N

/-- The first region's leavings as the family of unknowns the valuations are written over. -/
def outs8 : Outs (F := F) := fun _ r c => Function.update (V7 m c) main_v57 (o8 m c) r

/-- What region 1 finds: region 0's output in place, then the host stretch between the regions. -/
abbrev Ein1 : (c : Dev nD) → (b : Ref sig .tc) → Buf (Elt F) ((c : Thread nD τ).loc b) := fun c b => V9 m (outs8 m) c b

/-- What region 1 leaves in the result array. -/
def o10 (c : Dev nD) : Buf (Elt F) ((c : Thread nD τ).loc main_v76) := (dat1 (Ein1 m) c).arrAt 5 cfg1.N

/-- Both regions' leavings: region 0's at the eighth boundary, region 1's at the tenth. -/
def outs : Outs (F := F)
  | 8, r, c => outs8 m 8 r c
  | _, r, c => Function.update (V9 m (outs8 m) c) main_v76 (o10 m c) r

theorem outs_8 (c : Dev nD) : outs m 8 main_v57 c = o8 m c := by
  show Function.update (V7 m c) main_v57 (o8 m c) main_v57 = _
  exact Function.update_self _ _ _

theorem outs_10 (c : Dev nD) : outs m 10 main_v76 c = o10 m c := by
  show Function.update (V9 m (outs8 m) c) main_v76 (o10 m c) main_v76 = _
  exact Function.update_self _ _ _

/-- The valuation after region 0 is the entry valuation with the output array at `o8`. -/
theorem V8_eq (c : Dev nD) : V8 m (outs m) c = Function.update (V7 m c) main_v57 (o8 m c) := by
  show Function.update (V7 m c) main_v57 (outs m 8 main_v57 c) = _
  rw [outs_8]

/-- The host stretch between the regions reads region 0's leavings only. -/
theorem V9_eq (c : Dev nD) : V9 m (outs m) c = V9 m (outs8 m) c := by
  show StableHlo.after hostOps1 (V8 m (outs m) c) = StableHlo.after hostOps1 (V8 m (outs8 m) c)
  rw [V8_eq]
  show _ = StableHlo.after hostOps1 (Function.update (V7 m c) main_v57 (outs8 m 8 main_v57 c))
  rw [show outs8 m 8 main_v57 c = o8 m c from Function.update_self _ _ _]

/-- The last valuation is region 1's entry valuation with the result array at `o10`. -/
theorem V10_eq (c : Dev nD) : V10 m (outs m) c = Function.update (V9 m (outs8 m) c) main_v76 (o10 m c) := by
  show Function.update (V9 m (outs m) c) main_v76 (outs m 10 main_v76 c) = _
  rw [outs_10, V9_eq]

/-- The result array in the last valuation. -/
theorem V10_result (c : Dev nD) : V10 m (outs m) c main_v76 = o10 m c := by
  rw [V10_eq]; simp only [Function.update_self]

/-- Region 0's output array in the valuation after it. -/
theorem V8_self (c : Dev nD) : V8 m (outs m) c main_v57 = o8 m c := by
  rw [V8_eq]; simp only [Function.update_self]

/-! ## The proof data family and what rides beside the buffers -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ein0 m) c
  | ⟨1, _⟩ => fun c => dat1 (Ein1 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers a core carries its generator register at some state and owes nothing. -/
abbrev R (c : Dev nD) : sProp 𝕄 := iprop((∃ r, prngReg c r) ∗ ∃ W, owes (c : Thread nD τ) (0 : CellTallies nD τ sig Unit) W)
abbrev Erest : Fin 3 → Dev nD → sProp 𝕄 := fun _ c => R c

/-! ## Region 0 leaves its arrays as the next valuation says -/

theorem hF0 (c : Dev nD) (w : Fin cfg0.W) : (dat0 (Ein0 m) c).arrAt w cfg0.N = V8 m (outs m) c (Pipeline.arrRef spec0 w) := by
  match w with
  | ⟨0, _⟩ => exact (((dat0 (Ein0 m) c).arrAt_in 0 rfl _).trans (A_eq0 (Ein0 m) c 0)).trans (V8_of m (outs m) c _ (by decide)).symm
  | ⟨1, _⟩ => exact (((dat0 (Ein0 m) c).arrAt_in 1 rfl _).trans (A_eq0 (Ein0 m) c 1)).trans (V8_of m (outs m) c _ (by decide)).symm
  | ⟨2, _⟩ => exact (V8_self m c).symm

theorem hrest0 (c : Dev nD) : ∀ b, b ∉ Finset.univ.image (Pipeline.arrRef spec0) → V8 m (outs m) c b = V7 m c b := by
  intro b hb
  refine V8_of m (outs m) c b (fun h => hb ?_)
  rw [List.mem_singleton] at h
  subst h
  exact Finset.mem_image.mpr ⟨(2 : Fin 3), Finset.mem_univ _, rfl⟩

/-- An input window's array is never written: at the region's exit it holds its entry contents. -/
theorem hF1_in (c : Dev nD) (w : Fin cfg1.W) (hw : (cfg1.win w).isOut = false)
    (hne : Pipeline.arrRef spec1 w ∉ ([main_v76] : List (Ref sig .tc))) :
    (dat1 (Ein1 m) c).arrAt w cfg1.N = V10 m (outs m) c (Pipeline.arrRef spec1 w) :=
  (((dat1 (Ein1 m) c).arrAt_in w hw _).trans (A_eq1 (Ein1 m) c w)).trans
    ((V10_of m (outs m) c _ hne).trans (congrFun (V9_eq m c) _)).symm

set_option maxHeartbeats 1000000 in
theorem hF1 (c : Dev nD) (w : Fin cfg1.W) : (dat1 (Ein1 m) c).arrAt w cfg1.N = V10 m (outs m) c (Pipeline.arrRef spec1 w) := by
  match w with
  | ⟨0, _⟩ => exact hF1_in m c 0 rfl (by decide)
  | ⟨1, _⟩ => exact hF1_in m c 1 rfl (by decide)
  | ⟨2, _⟩ => exact hF1_in m c 2 rfl (by decide)
  | ⟨3, _⟩ => exact hF1_in m c 3 rfl (by decide)
  | ⟨4, _⟩ => exact hF1_in m c 4 rfl (by decide)
  | ⟨5, _⟩ => exact (V10_result m c).symm

theorem hrest1 (c : Dev nD) : ∀ b, b ∉ Finset.univ.image (Pipeline.arrRef spec1) → V10 m (outs m) c b = V9 m (outs8 m) c b := by
  intro b hb
  refine (V10_of m (outs m) c b (fun h => hb ?_)).trans (congrFun (V9_eq m c) _)
  rw [List.mem_singleton] at h
  subst h
  exact Finset.mem_image.mpr ⟨(5 : Fin 6), Finset.mem_univ _, rfl⟩

/-! ## Region 0's invariant starts and ends at the class's -/

theorem reg0_in (c : Dev nD) :
    (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ (dat0 (Ein0 m) c).Φ 0 := by
  refine BIBase.Entails.trans (Q := Pipeline.ΦA spec0 c) ?_ (hin0 (Ein0 m) c)
  unfold Pipeline.ΦA
  iintro ⟨Hp, -, Hr⟩
  isplitl [Hr]; · iexact Hr
  iexact Hp

theorem reg0_out (c : Dev nD) :
    (dat0 (Ein0 m) c).Φ (Fin.last cfg0.N) ⊢ (iprop((∃ r, prngReg c r) ∗ BI.emp
        ∗ Pipeline.scopedRest (Pipeline.pin (pcfgs (F := F)) adm 0).spec c) : sProp 𝕄) := by
  refine BIBase.Entails.trans (Q := Pipeline.ΦA spec0 c) (hout0 (Ein0 m) c) ?_
  unfold Pipeline.ΦA
  iintro ⟨Hr, Hp⟩
  isplitl [Hp]; · iexact Hp
  isplitr; · iempintro
  iexact Hr

/-! ## The regions as segments -/

set_option backward.isDefEq.respectTransparency.types false in
/-- Region 0 over the thread state: entered from every unscoped buffer at `V7`, left at `V8`. The carried scratch
    lives in the region invariant, which starts and ends at the class's. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ein0 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ein0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ein0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := reg0_in m c
  hout c := by
    rw [Pipeline.ownSems0_none]
    exact reg0_out m c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ein0 m c) (fun b => V8 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `V9`, left at `V10`; its invariant is
    the class's throughout. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ein1 m) c).loose
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ein1 m c)
  hentry c := by
    rw [Pipeline.ownSems0_none, V9_eq]
    have hsplit := Pipeline.arrays_of_unscopedBufs (p := 1) (pcfgs (F := F)) adm (pdats m) launch1.win launch1.arr_whole c
      ((pdats m 1 c).share_full fun _ => rfl) (Ein1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ein1 m c) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates without fault, and the final
    memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V10 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (Erest (F := F))
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (reg0 m) (fun c => .rfl) (fun c => .rfl)
    (reg1 m) (fun c => .rfl) (fun c => .rfl)

/-- The frame: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c (Proc.devRef .tc main_arg0) (Finset.mem_filter.mpr ⟨StableHlo.devRef_mem_tcRefs main_arg0, by decide⟩)).trans (V10_main_arg0 m (outs m) c),
     (h c (Proc.devRef .tc main_arg1) (Finset.mem_filter.mpr ⟨StableHlo.devRef_mem_tcRefs main_arg1, by decide⟩)).trans (V10_main_arg1 m (outs m) c),
     (h c (Proc.devRef .tc main_arg2) (Finset.mem_filter.mpr ⟨StableHlo.devRef_mem_tcRefs main_arg2, by decide⟩)).trans (V10_main_arg2 m (outs m) c),
     (h c (Proc.devRef .tc main_arg3) (Finset.mem_filter.mpr ⟨StableHlo.devRef_mem_tcRefs main_arg3, by decide⟩)).trans (V10_main_arg3 m (outs m) c),
     (h c (Proc.devRef .tc main_arg4) (Finset.mem_filter.mpr ⟨StableHlo.devRef_mem_tcRefs main_arg4, by decide⟩)).trans (V10_main_arg4 m (outs m) c)⟩)
    (run_all m ρ)

/-- The run with the result named: the result array ends at what region 1 leaves, the arguments as launched. -/
theorem run_result : θ_run defs (onTc (τ := τ) (main (F := F))) ⟨m, fun _ => 0, ρ⟩ (fun r => ∀ c : Dev nD,
      r.2.mem ((c.tc : Thread nD τ).loc main_v76) = o10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c (Proc.devRef .tc main_v76) (Finset.mem_filter.mpr ⟨StableHlo.devRef_mem_tcRefs main_v76, by decide⟩)).trans (V10_result m c),
     (h c (Proc.devRef .tc main_arg0) (Finset.mem_filter.mpr ⟨StableHlo.devRef_mem_tcRefs main_arg0, by decide⟩)).trans (V10_main_arg0 m (outs m) c),
     (h c (Proc.devRef .tc main_arg1) (Finset.mem_filter.mpr ⟨StableHlo.devRef_mem_tcRefs main_arg1, by decide⟩)).trans (V10_main_arg1 m (outs m) c),
     (h c (Proc.devRef .tc main_arg2) (Finset.mem_filter.mpr ⟨StableHlo.devRef_mem_tcRefs main_arg2, by decide⟩)).trans (V10_main_arg2 m (outs m) c),
     (h c (Proc.devRef .tc main_arg3) (Finset.mem_filter.mpr ⟨StableHlo.devRef_mem_tcRefs main_arg3, by decide⟩)).trans (V10_main_arg3 m (outs m) c),
     (h c (Proc.devRef .tc main_arg4) (Finset.mem_filter.mpr ⟨StableHlo.devRef_mem_tcRefs main_arg4, by decide⟩)).trans (V10_main_arg4 m (outs m) c)⟩)
    (run_all m ρ)

end Cert.Kernel.Hand

end
-- ==== Proof.R0Body.lean ====
import proofs.«101218_j11046655885865_1_alg».proof.Proof.Gen.KernelIdeal.Launch
import proofs.«101218_j11046655885865_1_alg».proof.Proof.Gen.KernelIdeal.Skeleton
import proofs.«101218_j11046655885865_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition, from the grid coordinates: the inner coordinate is 0. -/
abbrev cond0_1 (i : grid0.Coords) : Prop := (Scalar.cmpi .ne (Scalar.extui (Scalar.cmpi .eq (BitVec.ofNat 32 (i 1).val) 0#32)) 0#32) = 1#1
/-- The second branch's condition: the inner coordinate is 9. -/
abbrev cond0_2 (i : grid0.Coords) : Prop := k0_cond2 i = 1#1

/-- The first holds at the points ≡ 0 (mod 10), decided over the grid. -/
theorem hcond0_1 : ∀ t : Fin cfg0.N, cond0_1 (grid0.coords t) ↔ t.val % 10 = 0 :=
  (by decide +kernel : ∀ t : Fin grid0.N, cond0_1 (grid0.coords t) ↔ t.val % 10 = 0)
/-- The second holds at the points ≡ 9 (mod 10). -/
theorem hcond0_2 : ∀ t : Fin cfg0.N, cond0_2 (grid0.coords t) ↔ t.val % 10 = 9 :=
  (by decide +kernel : ∀ t : Fin grid0.N, cond0_2 (grid0.coords t) ↔ t.val % 10 = 9)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output window is idle, and not written back, exactly where the second condition fails. -/
theorem idleAt0_2 : ∀ t : Fin cfg0.N, ¬cond0_2 (grid0.coords t) → cfg0.idle 2 (grid0.coords t) = true := by decide +kernel
theorem liveAt0_2 : ∀ t : Fin cfg0.N, cond0_2 (grid0.coords t) → cfg0.idle 2 (grid0.coords t) = false := by decide +kernel
theorem noFlush0_2 : ∀ t : Fin cfg0.N, ¬cond0_2 (grid0.coords t) → (cfg0.win 2).flush t = false := by decide +kernel

/-- The zero offsets, as the printed rectangles spell them. -/
theorem hz2 : (![0, 0] : Fin 2 → Nat) = fun _ => 0 := funext fun a => by fin_cases a <;> rfl

/-- The whole-block rectangle of the scratch and the output block, as the printed stores spell it. -/
abbrev r0 : Rect S1024x512 := Rect.unit (s := S1024x512) ![0, 0] S1024x512.size inb_S1024x512_S1024x512_0_0

/-- One whole-block store covers the block; -/
theorem cover0_one (p0 : Vec F S1024x512 .f32) (y : S1024x512.Idx) :
    ∃ pc ∈ ([⟨r0, p0⟩] : List (View.Piece (Elt F) S1024x512 .f32)), y ∈ pc.1.set :=
  ⟨_, List.mem_singleton_self _, View.mem_set_unit_zero hz2 inb_S1024x512_S1024x512_0_0 y⟩

/-- and so do two, by the later one. -/
theorem cover0_two (p0 p1 : Vec F S1024x512 .f32) (y : S1024x512.Idx) :
    ∃ pc ∈ ([⟨r0, p0⟩, ⟨r0, p1⟩] : List (View.Piece (Elt F) S1024x512 .f32)), y ∈ pc.1.set :=
  ⟨_, List.mem_cons_self, View.mem_set_unit_zero hz2 inb_S1024x512_S1024x512_0_0 y⟩

set_option maxHeartbeats 1000000 in
/-- The body where both conditions fail: the scratch at s ends at s plus the blocks' product. -/
theorem sound_kernel0_mid (c : Dev nD) (E : Set ℕ) (i : grid0.Coords)
    (arg2 : Memref sig .tc .vmem S1024x1024 .bf16) (harg2 : arg2.IsWhole) (arg3 : Memref sig .tc .vmem S1024x512 .bf16) (harg3 : arg3.IsWhole)
    (arg4 : Memref sig .tc .vmem S1024x512 .f32) (harg4 : arg4.IsWhole) (arg5 : Memref sig .tc .vmem S1024x512 .f32) (harg5 : arg5.IsWhole)
    (h1 : ¬cond0_1 i) (h2 : ¬cond0_2 i)
    (xa : Vec F S1024x1024 .bf16) (xb : Vec F S1024x512 .bf16) (s : Vec F S1024x512 .f32) (K : PUnit → sProp 𝕄) :
    iprop(owns (c : Thread nD τ) arg2 fullShare xa ∗ owns (c : Thread nD τ) arg3 fullShare xb ∗ owns (c : Thread nD τ) arg5 fullShare s
        ∗ (iprop(owns (c : Thread nD τ) arg2 fullShare xa ∗ owns (c : Thread nD τ) arg3 fullShare xb ∗ owns (c : Thread nD τ) arg5 fullShare (k0_pay2 s xa xb)) -∗ K ⟨⟩))
      ⊢ wp frame (wpE (defs₀ (F := F)) Variants.none c none) E (cc0__spmm_kernel i arg2 harg2 arg3 harg3 arg4 harg4 arg5 harg5) K := by
  simp only [cc0__spmm_kernel_eq_skeleton]; unfold cc0__spmm_kernel_skel
  unfold owns
  iintro ⟨⟨%f2, %hf2, H2⟩, ⟨%f3, %hf3, H3⟩, ⟨%f5, %hf5, H5⟩, Hk⟩
  subst hf2; subst hf3; subst hf5
  sl_exec (disch := first | exact h1 | exact h2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  sl_unfold_run_names
  rw [View.read_writes_eq_canon _ _ _ (cover0_one _), View.canon_unit_zero hz2]
  simp only [View.readAt_eq_ld, View.ld_unit_zero (S := S1024x512) hz2, View.ld_unit_zero (S := S1024x1024) hz2]

set_option maxHeartbeats 1000000 in
/-- The body where the first condition holds and the second fails: the scratch, at anything, ends at
    zero plus the blocks' product. -/
theorem sound_kernel0_first (c : Dev nD) (E : Set ℕ) (i : grid0.Coords)
    (arg2 : Memref sig .tc .vmem S1024x1024 .bf16) (harg2 : arg2.IsWhole) (arg3 : Memref sig .tc .vmem S1024x512 .bf16) (harg3 : arg3.IsWhole)
    (arg4 : Memref sig .tc .vmem S1024x512 .f32) (harg4 : arg4.IsWhole) (arg5 : Memref sig .tc .vmem S1024x512 .f32) (harg5 : arg5.IsWhole)
    (h1 : cond0_1 i) (h2 : ¬cond0_2 i)
    (xa : Vec F S1024x1024 .bf16) (xb : Vec F S1024x512 .bf16) (K : PUnit → sProp 𝕄) :
    iprop(owns (c : Thread nD τ) arg2 fullShare xa ∗ owns (c : Thread nD τ) arg3 fullShare xb ∗ (∃ d, owns (c : Thread nD τ) arg5 fullShare d)
        ∗ (iprop(owns (c : Thread nD τ) arg2 fullShare xa ∗ owns (c : Thread nD τ) arg3 fullShare xb ∗ owns (c : Thread nD τ) arg5 fullShare (k0_pay2 (k0_pay1 (F := F)) xa xb)) -∗ K ⟨⟩))
      ⊢ wp frame (wpE (defs₀ (F := F)) Variants.none c none) E (cc0__spmm_kernel i arg2 harg2 arg3 harg3 arg4 harg4 arg5 harg5) K := by
  simp only [cc0__spmm_kernel_eq_skeleton]; unfold cc0__spmm_kernel_skel
  unfold owns
  iintro ⟨⟨%f2, %hf2, H2⟩, ⟨%f3, %hf3, H3⟩, ⟨%d5, %f5, -, H5⟩, Hk⟩
  subst hf2; subst hf3
  sl_exec (disch := first | exact h1 | exact h2)
  sl_step

  iapply Hk
  isplitl [H2]
  · iexists f2; isplitr; · ipureintro; rfl
    iexact H2
  isplitl [H3]
  · iexists f3; isplitr; · ipureintro; rfl
    iexact H3
  iexists _; isplitr
  swap; · iexact H5
  ipureintro
  sl_unfold_run_names
  rw [View.read_writes_eq_canon _ _ _ (cover0_two _ _), View.canon_cons_unit_zero hz2]
  simp only [View.readAt_eq_ld, View.ld_unit_zero (S := S1024x512) hz2, View.ld_unit_zero (S := S1024x1024) hz2, View.readCov_unit_zero (S := S1024x512) _ hz2]

set_option maxHeartbeats 1000000 in
/-- The body where the second condition holds and the first fails: the scratch at s ends at s plus
    the blocks' product, and the output block, at anything, ends at the same. -/
theorem sound_kernel0_last (c : Dev nD) (E : Set ℕ) (i : grid0.Coords)
    (arg2 : Memref sig .tc .vmem S1024x1024 .bf16) (harg2 : arg2.IsWhole) (arg3 : Memref sig .tc .vmem S1024x512 .bf16) (harg3 : arg3.IsWhole)
    (arg4 : Memref sig .tc .vmem S1024x512 .f32) (harg4 : arg4.IsWhole) (arg5 : Memref sig .tc .vmem S1024x512 .f32) (harg5 : arg5.IsWhole)
    (h1 : ¬cond0_1 i) (h2 : cond0_2 i)
    (xa : Vec F S1024x1024 .bf16) (xb : Vec F S1024x512 .bf16) (s : Vec F S1024x512 .f32) (K : PUnit → sProp 𝕄) :
    iprop(owns (c : Thread nD τ) arg2 fullShare xa ∗ owns (c : Thread nD τ) arg3 fullShare xb ∗ (∃ d, owns (c : Thread nD τ) arg4 fullShare d) ∗ owns (c : Thread nD τ) arg5 fullShare s
        ∗ (iprop(owns (c : Thread nD τ) arg2 fullShare xa ∗ owns (c : Thread nD τ) arg3 fullShare xb ∗ owns (c : Thread nD τ) arg4 fullShare (k0_pay2 s xa xb) ∗ owns (c : Thread nD τ) arg5 fullShare (k0_pay2 s xa xb)) -∗ K ⟨⟩))
      ⊢ wp frame (wpE (defs₀ (F := F)) Variants.none c none) E (cc0__spmm_kernel i arg2 harg2 arg3 harg3 arg4 harg4 arg5 harg5) K := by
  simp only [cc0__spmm_kernel_eq_skeleton]; unfold cc0__spmm_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact h1 | exact h2)
  sl_step

  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (cover0_one _), View.canon_unit_zero hz2]
    simp only [View.readAt_eq_ld, View.ld_unit_zero (S := S1024x512) hz2, View.ld_unit_zero (S := S1024x1024) hz2, View.readCov_unit_zero (S := S1024x512) _ hz2]
  iexists _; isplitr
  swap; · iexact H5
  ipureintro
  sl_unfold_run_names
  rw [View.read_writes_eq_canon _ _ _ (cover0_one _), View.canon_unit_zero hz2]
  simp only [View.readAt_eq_ld, View.ld_unit_zero (S := S1024x512) hz2, View.ld_unit_zero (S := S1024x1024) hz2]

variable (V : (c : Dev nD) → (b : Ref sig .tc) → Buf (Elt F) ((c : Thread nD τ).loc b))

/-- Window w's block at point t, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position n: reset to zero where n ≡ 0 (mod 10), then the
    product of the two blocks at n added. -/
def accAt0 (c : Dev nD) : (n : ℕ) → n < cfg0.N → Vec F S1024x512 .f32
  | 0, hn => k0_pay2 (k0_pay1 (F := F)) (iblk0 V c 0 ⟨0, hn⟩) (iblk0 V c 1 ⟨0, hn⟩)
  | n + 1, hn => k0_pay2 (if (n + 1) % 10 = 0 then k0_pay1 (F := F) else accAt0 c n (Nat.lt_of_succ_lt hn)) (iblk0 V c 0 ⟨n + 1, hn⟩) (iblk0 V c 1 ⟨n + 1, hn⟩)

theorem accAt0_zero (c : Dev nD) (hn : 0 < cfg0.N) :
    accAt0 V c 0 hn = k0_pay2 (k0_pay1 (F := F)) (iblk0 V c 0 ⟨0, hn⟩) (iblk0 V c 1 ⟨0, hn⟩) := rfl

theorem accAt0_succ (c : Dev nD) (n : ℕ) (hn : n + 1 < cfg0.N) :
    accAt0 V c (n + 1) hn = k0_pay2 (if (n + 1) % 10 = 0 then k0_pay1 (F := F) else accAt0 V c n (Nat.lt_of_succ_lt hn)) (iblk0 V c 0 ⟨n + 1, hn⟩) (iblk0 V c 1 ⟨n + 1, hn⟩) := rfl

/-- At a point ≡ 0 (mod 10) the accumulator restarts from zero. -/
theorem accAt0_first (c : Dev nD) (t : Fin cfg0.N) (h0 : t.val % 10 = 0) :
    accAt0 V c t.val t.isLt = k0_pay2 (k0_pay1 (F := F)) (iblk0 V c 0 t) (iblk0 V c 1 t) := by
  obtain ⟨n, hn⟩ := t
  cases n with
  | zero => rfl
  | succ n =>
    have h0' : (n + 1) % 10 = 0 := h0
    exact (accAt0_succ V c n hn).trans (by rw [if_pos h0'])

/-- At any other point it continues from what the point before left. -/
theorem accAt0_step (c : Dev nD) (t : Fin cfg0.N) (h0 : ¬t.val % 10 = 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n =>
    have h0' : ¬(n + 1) % 10 = 0 := h0
    exact (accAt0_succ V c n hn).trans (by rw [if_neg h0']; rfl)

/-- The scratch operand as a memref. -/
abbrev scM0 : Memref sig .tc .vmem S1024x512 .f32 := Memref.whole cc0_scratch0

/-- The scoped buffers of the core other than the scratch and this call's staging buffers, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant with the scratch as a memref owned at some contents. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

/-- The region invariant before position n: the class's before the first point; afterwards the
    scratch at what the point before left in it, the other scoped buffers at anything, the generator
    register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 (F := F) c) ∗ (∃ r, prngReg c r)) := by
  cases n with
  | zero => exact absurd rfl hz
  | succ n => rfl

/-- The proof data of the pipeline on core c: the arrays as the region finds them; after the body at
    point t each input's buffer at its block and the output's at the accumulator there; the invariant
    above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

/-- Each input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point's residue mod 10 says which
    of the three cases it is in; the invariant hands the body the scratch at what the point before left
    (at anything at the first point) and takes it back at this point's accumulator; the output's buffer
    is handed back untouched except where the inner coordinate is 9, where it ends at the accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 100 := lt_of_lt_of_eq t.isLt (show cfg0.N = 100 from N_0)
  by_cases h0 : t.val % 10 = 0
  · have hc1 : cond0_1 (grid0.coords t) := (hcond0_1 t).mpr h0
    have hc2 : ¬cond0_2 (grid0.coords t) := fun h => by have := (hcond0_2 t).mp h; omega
    rw [Dat.leavesExact_idle (dat0 V c) 2 t (idleAt0_2 t hc2) (noFlush0_2 t hc2)]
    rw [accAt0_first V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, H2⟩
      iapply (sound_kernel0_first c Set.univ (grid0.coords t) _ _ _ _ _ _ _ _ hc1 hc2 (iblk0 V c 0 t) (iblk0 V c 1 t) _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [PhiS0_castSucc V c t, PhiS0_pos V c _ _ hz]
      iintro ⟨⟨⟨HS, Hoth⟩, Hg⟩, Ho, ⟨%d0, H0⟩, ⟨%d1, H1⟩, H2⟩
      iapply (sound_kernel0_first c Set.univ (grid0.coords t) _ _ _ _ _ _ _ _ hc1 hc2 (iblk0 V c 0 t) (iblk0 V c 1 t) _)
      isplitl [H0]; · iexact H0
      isplitl [H1]; · iexact H1
      isplitl [HS]; · iexists _; iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
  · have hc1 : ¬cond0_1 (grid0.coords t) := fun h => h0 ((hcond0_1 t).mp h)
    have hz : t.val ≠ 0 := fun e => h0 (by rw [e])
    rw [accAt0_step V c t h0]
    rw [PhiS0_castSucc V c t, PhiS0_pos V c _ _ hz]
    by_cases h9 : t.val % 10 = 9
    · have hc2 : cond0_2 (grid0.coords t) := (hcond0_2 t).mpr h9
      rw [show (dat0 V c).leavesExact 2 t = owns (c : Thread nD τ) (st0_2 t) fullShare ((dat0 V c).after 2 t) from by
        unfold Dat.leavesExact; rw [liveAt0_2 t hc2], after0_2]
      rw [accAt0_step V c t h0]
      iintro ⟨⟨⟨HS, Hoth⟩, Hg⟩, Ho, ⟨%d0, H0⟩, ⟨%d1, H1⟩, ⟨%d2, H2⟩⟩
      iapply (sound_kernel0_last c Set.univ (grid0.coords t) _ _ _ _ _ _ _ _ hc1 hc2 (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hc2 : ¬cond0_2 (grid0.coords t) := fun h => h9 ((hcond0_2 t).mp h)
      rw [Dat.leavesExact_idle (dat0 V c) 2 t (idleAt0_2 t hc2) (noFlush0_2 t hc2)]
      iintro ⟨⟨⟨HS, Hoth⟩, Hg⟩, Ho, ⟨%d0, H0⟩, ⟨%d1, H1⟩, H2⟩
      iapply (sound_kernel0_mid c Set.univ (grid0.coords t) _ _ _ _ _ _ _ _ hc1 hc2 (iblk0 V c 0 t) (iblk0 V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point but the first the invariant gives the class's back: the scratch's named contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hoth⟩, Hg⟩
  isplitl [HS Hoth]
  · isplitl [HS]; · iexists _; iexact HS
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 100 := N_0; omega)

end Cert.KernelIdeal.Hand

end
-- ==== Proof.R1Body.lean ====
/- The body obligation of the second pipelined call of the program: at every grid point the body reads the
   five input windows' staging buffers whole and stores one payload whole into the output window's buffer.
   Stated at a parameter `V` (the TensorCore's buffer contents when the region is entered) and at any float
   instance. -/
import proofs.«101218_j11046655885865_1_alg».proof.Proof.Gen.KernelIdeal.Launch
import proofs.«101218_j11046655885865_1_alg».proof.Proof.Gen.KernelIdeal.Skeleton
import proofs.«101218_j11046655885865_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched,
    the block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched,
    the block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched,
    the block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched,
    the block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched,
    the block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_a : Rect S1x1000x128 := Rect.unit (s := S1x1000x128) ![0, 0, 0] S1x1000x128.size inb_S1x1000x128_S1x1000x128_0_0_0
abbrev r1_b : Rect S128x128 := Rect.unit (s := S128x128) ![0, 0] S128x128.size inb_S128x128_S128x128_0_0
abbrev r1_c : Rect S128 := Rect.unit (s := S128) ![0] S128.size inb_S128_S128_0

theorem r1_zeros3 : (![0, 0, 0] : Fin 3 → Nat) = fun _ => 0 := funext fun a => by fin_cases a <;> rfl
theorem r1_zeros2 : (![0, 0] : Fin 2 → Nat) = fun _ => 0 := funext fun a => by fin_cases a <;> rfl
theorem r1_zeros1 : (![0] : Fin 1 → Nat) = fun _ => 0 := funext fun a => by fin_cases a <;> rfl

/-! ## What the body leaves in the output window's buffer -/

/-- The output window's staging buffer after the body, from the input windows' blocks: its one store as a piece
    over the payload of the five loads. -/
def out1_5 (x0 x1 : Vec F S1x1000x128 .f32) (x2 x3 : Vec F S128x128 .f32) (x4 : Vec F S128 .f32) : Vec F S1x1000x128 .f32 :=
  View.canon [⟨r1_a, k1_pay1 (View.ld x0 r1_a) (View.ld x1 r1_a) (View.ld x2 r1_b) (View.ld x3 r1_b) (View.ld x4 r1_c)⟩]

/-- Every access being of a whole buffer, the buffer ends holding the payload of the buffers' contents. -/
theorem out1_5_eq (x0 x1 : Vec F S1x1000x128 .f32) (x2 x3 : Vec F S128x128 .f32) (x4 : Vec F S128 .f32) :
    out1_5 x0 x1 x2 x3 x4 = k1_pay1 x0 x1 x2 x3 x4 := by
  unfold out1_5
  rw [View.canon_unit_zero r1_zeros3, View.ld_unit_zero r1_zeros3, View.ld_unit_zero r1_zeros3,
    View.ld_unit_zero r1_zeros2, View.ld_unit_zero r1_zeros2, View.ld_unit_zero r1_zeros1]

/-- The one store is of the whole buffer, so it covers it. -/
theorem cover1_5 (p0 : Vec F S1x1000x128 .f32) (y : S1x1000x128.Idx) :
    ∃ pc ∈ ([⟨r1_a, p0⟩] : List (View.Piece (Elt F) S1x1000x128 .f32)), y ∈ pc.1.set :=
  ⟨_, List.mem_singleton_self _, View.mem_set_unit_zero r1_zeros3 inb_S1x1000x128_S1x1000x128_0_0_0 y⟩

/-! ## The body's triple -/

set_option maxHeartbeats 1000000 in
/-- The body on whole staging memrefs, the inputs' at contents `x0 … x4` and the output's at anything, runs to the
    continuation holding the inputs' as they were and the output's at `out1_5` of the inputs'. -/
theorem sound_kernel1 (c : Dev nD) (E : Set ℕ) (i : grid1.Coords) (arg2 : Memref sig .tc .vmem S1x1000x128 .f32) (harg2 : arg2.IsWhole) (arg3 : Memref sig .tc .vmem S1x1000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x1000x128 .f32) (harg7 : arg7.IsWhole)
    (x0 x1 : Vec F S1x1000x128 .f32) (x2 x3 : Vec F S128x128 .f32) (x4 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4)) -∗ K ⟨⟩))
      ⊢ wp frame (wpE (defs₀ (F := F)) Variants.none c none) E (cc1__combine_kernel i arg2 harg2 arg3 harg3 arg4 harg4 arg5 harg5 arg6 harg6 arg7 harg7) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the pipeline on core `c`: the arrays as the region finds them; after the body at point `t`
    each input's buffer at its block and the output's at `out1_5` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The program's run, from the two kernel regions' body obligations.

  Region 0 multiplies the dense 10240×10240 matrix with the padded features block by block, accumulating ten
  blocks of the contracted axis in a scratch that is carried from one grid point to the next and written out at the
  tenth; region 1 combines the features and the propagated features with the two folded weight matrices and the bias,
  one block of a thousand nodes at a time. Each region enters the run as a segment: its arrays are split out of the
  core's unscoped buffers at the contents the host operations before it leave, the pipeline runs from the region's
  proof data, and the arrays are put back with the output array at what the pipeline's write-backs leave.
  The result: every execution terminates without fault, and the final memory holds every unscoped buffer at the last
  valuation — the arguments as launched, the result array at what region 1's write-backs leave.
-/
import proofs.«101218_j11046655885865_1_alg».proof.Proof.RunCond
import proofs.«101218_j11046655885865_1_alg».proof.Proof.R0Body
import proofs.«101218_j11046655885865_1_alg».proof.Proof.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions are entered from and leave -/

/-- What region 0 finds in the TensorCore's buffers: the launch memory after the seven host stretches before it. -/
abbrev Ein0 : (c : Dev nD) → (b : Ref sig .tc) → Buf (Elt F) ((c : Thread nD τ).loc b) := fun c b => V7 m c b

/-- What region 0 leaves in its output array: its write-backs folded over the entry contents. -/
def o8 (c : Dev nD) : Buf (Elt F) ((c : Thread nD τ).loc main_v57) := (dat0 (Ein0 m) c).arrAt 2 cfg0.N

/-- The first region's leavings as the family of unknowns the valuations are written over. -/
def outs8 : Outs (F := F) := fun _ r c => Function.update (V7 m c) main_v57 (o8 m c) r

/-- What region 1 finds: region 0's output in place, then the host stretch between the regions. -/
abbrev Ein1 : (c : Dev nD) → (b : Ref sig .tc) → Buf (Elt F) ((c : Thread nD τ).loc b) := fun c b => V9 m (outs8 m) c b

/-- What region 1 leaves in the result array. -/
def o10 (c : Dev nD) : Buf (Elt F) ((c : Thread nD τ).loc main_v76) := (dat1 (Ein1 m) c).arrAt 5 cfg1.N

/-- Both regions' leavings: region 0's at the eighth boundary, region 1's at the tenth. -/
def outs : Outs (F := F)
  | 8, r, c => outs8 m 8 r c
  | _, r, c => Function.update (V9 m (outs8 m) c) main_v76 (o10 m c) r

theorem outs_8 (c : Dev nD) : outs m 8 main_v57 c = o8 m c := by
  show Function.update (V7 m c) main_v57 (o8 m c) main_v57 = _
  exact Function.update_self _ _ _

theorem outs_10 (c : Dev nD) : outs m 10 main_v76 c = o10 m c := by
  show Function.update (V9 m (outs8 m) c) main_v76 (o10 m c) main_v76 = _
  exact Function.update_self _ _ _

/-- The valuation after region 0 is the entry valuation with the output array at `o8`. -/
theorem V8_eq (c : Dev nD) : V8 m (outs m) c = Function.update (V7 m c) main_v57 (o8 m c) := by
  show Function.update (V7 m c) main_v57 (outs m 8 main_v57 c) = _
  rw [outs_8]

/-- The host stretch between the regions reads region 0's leavings only. -/
theorem V9_eq (c : Dev nD) : V9 m (outs m) c = V9 m (outs8 m) c := by
  show StableHlo.after hostOps1 (V8 m (outs m) c) = StableHlo.after hostOps1 (V8 m (outs8 m) c)
  rw [V8_eq]
  show _ = StableHlo.after hostOps1 (Function.update (V7 m c) main_v57 (outs8 m 8 main_v57 c))
  rw [show outs8 m 8 main_v57 c = o8 m c from Function.update_self _ _ _]

/-- The last valuation is region 1's entry valuation with the result array at `o10`. -/
theorem V10_eq (c : Dev nD) : V10 m (outs m) c = Function.update (V9 m (outs8 m) c) main_v76 (o10 m c) := by
  show Function.update (V9 m (outs m) c) main_v76 (outs m 10 main_v76 c) = _
  rw [outs_10, V9_eq]

/-- The result array in the last valuation. -/
theorem V10_result (c : Dev nD) : V10 m (outs m) c main_v76 = o10 m c := by
  rw [V10_eq]; simp only [Function.update_self]

/-- Region 0's output array in the valuation after it. -/
theorem V8_self (c : Dev nD) : V8 m (outs m) c main_v57 = o8 m c := by
  rw [V8_eq]; simp only [Function.update_self]

/-! ## The proof data family and what rides beside the buffers -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ein0 m) c
  | ⟨1, _⟩ => fun c => dat1 (Ein1 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers a core carries its generator register at some state and owes nothing. -/
abbrev R (c : Dev nD) : sProp 𝕄 := iprop((∃ r, prngReg c r) ∗ ∃ W, owes (c : Thread nD τ) (0 : CellTallies nD τ sig Unit) W)
abbrev Erest : Fin 3 → Dev nD → sProp 𝕄 := fun _ c => R c

/-! ## Region 0 leaves its arrays as the next valuation says -/

theorem hF0 (c : Dev nD) (w : Fin cfg0.W) : (dat0 (Ein0 m) c).arrAt w cfg0.N = V8 m (outs m) c (Pipeline.arrRef spec0 w) := by
  match w with
  | ⟨0, _⟩ => exact (((dat0 (Ein0 m) c).arrAt_in 0 rfl _).trans (A_eq0 (Ein0 m) c 0)).trans (V8_of m (outs m) c _ (by decide)).symm
  | ⟨1, _⟩ => exact (((dat0 (Ein0 m) c).arrAt_in 1 rfl _).trans (A_eq0 (Ein0 m) c 1)).trans (V8_of m (outs m) c _ (by decide)).symm
  | ⟨2, _⟩ => exact (V8_self m c).symm

theorem hrest0 (c : Dev nD) : ∀ b, b ∉ Finset.univ.image (Pipeline.arrRef spec0) → V8 m (outs m) c b = V7 m c b := by
  intro b hb
  refine V8_of m (outs m) c b (fun h => hb ?_)
  rw [List.mem_singleton] at h
  subst h
  exact Finset.mem_image.mpr ⟨(2 : Fin 3), Finset.mem_univ _, rfl⟩

/-- An input window's array is never written: at the region's exit it holds its entry contents. -/
theorem hF1_in (c : Dev nD) (w : Fin cfg1.W) (hw : (cfg1.win w).isOut = false)
    (hne : Pipeline.arrRef spec1 w ∉ ([main_v76] : List (Ref sig .tc))) :
    (dat1 (Ein1 m) c).arrAt w cfg1.N = V10 m (outs m) c (Pipeline.arrRef spec1 w) :=
  (((dat1 (Ein1 m) c).arrAt_in w hw _).trans (A_eq1 (Ein1 m) c w)).trans
    ((V10_of m (outs m) c _ hne).trans (congrFun (V9_eq m c) _)).symm

set_option maxHeartbeats 1000000 in
theorem hF1 (c : Dev nD) (w : Fin cfg1.W) : (dat1 (Ein1 m) c).arrAt w cfg1.N = V10 m (outs m) c (Pipeline.arrRef spec1 w) := by
  match w with
  | ⟨0, _⟩ => exact hF1_in m c 0 rfl (by decide)
  | ⟨1, _⟩ => exact hF1_in m c 1 rfl (by decide)
  | ⟨2, _⟩ => exact hF1_in m c 2 rfl (by decide)
  | ⟨3, _⟩ => exact hF1_in m c 3 rfl (by decide)
  | ⟨4, _⟩ => exact hF1_in m c 4 rfl (by decide)
  | ⟨5, _⟩ => exact (V10_result m c).symm

theorem hrest1 (c : Dev nD) : ∀ b, b ∉ Finset.univ.image (Pipeline.arrRef spec1) → V10 m (outs m) c b = V9 m (outs8 m) c b := by
  intro b hb
  refine (V10_of m (outs m) c b (fun h => hb ?_)).trans (congrFun (V9_eq m c) _)
  rw [List.mem_singleton] at h
  subst h
  exact Finset.mem_image.mpr ⟨(5 : Fin 6), Finset.mem_univ _, rfl⟩

/-! ## Region 0's invariant starts and ends at the class's -/

theorem reg0_in (c : Dev nD) :
    (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ (dat0 (Ein0 m) c).Φ 0 := by
  refine BIBase.Entails.trans (Q := Pipeline.ΦA spec0 c) ?_ (hin0 (Ein0 m) c)
  unfold Pipeline.ΦA
  iintro ⟨Hp, -, Hr⟩
  isplitl [Hr]; · iexact Hr
  iexact Hp

theorem reg0_out (c : Dev nD) :
    (dat0 (Ein0 m) c).Φ (Fin.last cfg0.N) ⊢ (iprop((∃ r, prngReg c r) ∗ BI.emp
        ∗ Pipeline.scopedRest (Pipeline.pin (pcfgs (F := F)) adm 0).spec c) : sProp 𝕄) := by
  refine BIBase.Entails.trans (Q := Pipeline.ΦA spec0 c) (hout0 (Ein0 m) c) ?_
  unfold Pipeline.ΦA
  iintro ⟨Hr, Hp⟩
  isplitl [Hp]; · iexact Hp
  isplitr; · iempintro
  iexact Hr

/-! ## The regions as segments -/

set_option backward.isDefEq.respectTransparency.types false in
/-- Region 0 over the thread state: entered from every unscoped buffer at `V7`, left at `V8`. The carried scratch
    lives in the region invariant, which starts and ends at the class's. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ein0 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ein0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ein0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := reg0_in m c
  hout c := by
    rw [Pipeline.ownSems0_none]
    exact reg0_out m c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ein0 m c) (fun b => V8 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `V9`, left at `V10`; its invariant is
    the class's throughout. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ein1 m) c).loose
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ein1 m c)
  hentry c := by
    rw [Pipeline.ownSems0_none, V9_eq]
    have hsplit := Pipeline.arrays_of_unscopedBufs (p := 1) (pcfgs (F := F)) adm (pdats m) launch1.win launch1.arr_whole c
      ((pdats m 1 c).share_full fun _ => rfl) (Ein1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ein1 m c) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates without fault, and the final
    memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V10 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (Erest (F := F))
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (reg0 m) (fun c => .rfl) (fun c => .rfl)
    (reg1 m) (fun c => .rfl) (fun c => .rfl)

/-- The frame: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c (Proc.devRef .tc main_arg0) (Finset.mem_filter.mpr ⟨StableHlo.devRef_mem_tcRefs main_arg0, by decide⟩)).trans (V10_main_arg0 m (outs m) c),
     (h c (Proc.devRef .tc main_arg1) (Finset.mem_filter.mpr ⟨StableHlo.devRef_mem_tcRefs main_arg1, by decide⟩)).trans (V10_main_arg1 m (outs m) c),
     (h c (Proc.devRef .tc main_arg2) (Finset.mem_filter.mpr ⟨StableHlo.devRef_mem_tcRefs main_arg2, by decide⟩)).trans (V10_main_arg2 m (outs m) c),
     (h c (Proc.devRef .tc main_arg3) (Finset.mem_filter.mpr ⟨StableHlo.devRef_mem_tcRefs main_arg3, by decide⟩)).trans (V10_main_arg3 m (outs m) c),
     (h c (Proc.devRef .tc main_arg4) (Finset.mem_filter.mpr ⟨StableHlo.devRef_mem_tcRefs main_arg4, by decide⟩)).trans (V10_main_arg4 m (outs m) c)⟩)
    (run_all m ρ)

/-- The run with the result named: the result array ends at what region 1 leaves, the arguments as launched. -/
theorem run_result : θ_run defs (onTc (τ := τ) (main (F := F))) ⟨m, fun _ => 0, ρ⟩ (fun r => ∀ c : Dev nD,
      r.2.mem ((c.tc : Thread nD τ).loc main_v76) = o10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c (Proc.devRef .tc main_v76) (Finset.mem_filter.mpr ⟨StableHlo.devRef_mem_tcRefs main_v76, by decide⟩)).trans (V10_result m c),
     (h c (Proc.devRef .tc main_arg0) (Finset.mem_filter.mpr ⟨StableHlo.devRef_mem_tcRefs main_arg0, by decide⟩)).trans (V10_main_arg0 m (outs m) c),
     (h c (Proc.devRef .tc main_arg1) (Finset.mem_filter.mpr ⟨StableHlo.devRef_mem_tcRefs main_arg1, by decide⟩)).trans (V10_main_arg1 m (outs m) c),
     (h c (Proc.devRef .tc main_arg2) (Finset.mem_filter.mpr ⟨StableHlo.devRef_mem_tcRefs main_arg2, by decide⟩)).trans (V10_main_arg2 m (outs m) c),
     (h c (Proc.devRef .tc main_arg3) (Finset.mem_filter.mpr ⟨StableHlo.devRef_mem_tcRefs main_arg3, by decide⟩)).trans (V10_main_arg3 m (outs m) c),
     (h c (Proc.devRef .tc main_arg4) (Finset.mem_filter.mpr ⟨StableHlo.devRef_mem_tcRefs main_arg4, by decide⟩)).trans (V10_main_arg4 m (outs m) c)⟩)
    (run_all m ρ)

end Cert.KernelIdeal.Hand

end
-- ==== Proof.Inputs.lean ====
/-
  The inputs as real data.

  Under the precondition every float input entry is a real number and every edge endpoint is a node number below
  10000. `RealInputs` records the real arrays and the endpoints behind the five argument arrays; `ChainFacts` records
  the same for the 170000 weighted edges both programs compute first (the 160000 given edges with their normalised
  weights, then one self loop per node): real weights, endpoints below 10000.
-/
import Idealize.ShloMosaic.PureOps.Ideal
import Idealize.ShloMosaic.Lib.ValueIdx

noncomputable section

namespace Cert.Inputs

open Idealize.ShloMosaic Idealize.ShloMosaic.ValueIdx

/-- The five argument arrays, read at the ideal instance, come from real data. -/
structure RealInputs (x : (⟨3, ![4, 10000, 128]⟩ : Shape).Idx → EReal) (ei : (⟨2, ![2, 160000]⟩ : Shape).Idx → BitVec 32)
    (ew : (⟨1, ![160000]⟩ : Shape).Idx → EReal) (w : (⟨3, ![4, 128, 128]⟩ : Shape).Idx → EReal)
    (bs : (⟨1, ![128]⟩ : Shape).Idx → EReal) where
  xr : Fin 4 → Fin 10000 → Fin 128 → ℝ
  hx : ∀ b n f, x (ix3 b n f) = ((xr b n f : ℝ) : EReal)
  wr : Fin 4 → Fin 128 → Fin 128 → ℝ
  hw : ∀ j f o, w (ix3 j f o) = ((wr j f o : ℝ) : EReal)
  br : Fin 128 → ℝ
  hb : ∀ o, bs (ix1 o) = ((br o : ℝ) : EReal)
  ewr : Fin 160000 → ℝ
  hew : ∀ e, ew (ix1 e) = ((ewr e : ℝ) : EReal)
  /-- the target and the source node of each given edge -/
  rowE : Fin 160000 → Fin 10000
  colE : Fin 160000 → Fin 10000
  hrow : ∀ e, ei (ix2 (0 : Fin 2) e) = BitVec.ofNat 32 (rowE e).val
  hcol : ∀ e, ei (ix2 (1 : Fin 2) e) = BitVec.ofNat 32 (colE e).val

/-- The weighted edge list both programs compute first: real weights, endpoints below 10000. -/
structure ChainFacts (lap2 : (⟨1, ![170000]⟩ : Shape).Idx → EReal) (row2 col2 : (⟨1, ![170000]⟩ : Shape).Idx → BitVec 32) where
  lapR : Fin 170000 → ℝ
  hlap : ∀ e, lap2 (ix1 e) = ((lapR e : ℝ) : EReal)
  row : Fin 170000 → Fin 10000
  col : Fin 170000 → Fin 10000
  hrow2 : ∀ e, row2 (ix1 e) = BitVec.ofNat 32 (row e).val
  hcol2 : ∀ e, col2 (ix1 e) = BitVec.ofNat 32 (col e).val

end Cert.Inputs

end
-- ==== Proof.Spec.lean ====
/-
  The mathematics of the claim, over the reals, free of both programs.

  Data: 170000 weighted edges `e` (the 160000 given ones followed by one self loop per node), each with a
  weight `lap e`, a target node `row e` and a source node `col e` among 10000 nodes; node features `x b n f`
  (4 batches, 128 features); four 128×128 matrices `W j`; a bias.

  The reference propagates `Lx b n f = ∑ (e with row e = n) lap e * x b (col e) f` and sums the Chebyshev terms
  `x W₀ + Lx W₁ + (2 Lx − x) W₂ + (2 Lx − Lx) W₃ + bias`.
  The kernel scatters the weights into a dense 10240×10240 matrix `Ldense`, multiplies it with the features
  padded by 240 zero rows, and combines `x (W₀ − W₂) + Lx (W₁ + 2 W₂ + W₃) + bias`.
  `kerR_eq_refR`: the two are the same real number at every output index.
-/
import Mathlib.Algebra.BigOperators.Ring.Finset
import Mathlib.Algebra.BigOperators.Fin
import Mathlib.Data.Real.Basic
import Mathlib.Tactic.Ring
import Mathlib.Tactic.Linarith

noncomputable section

namespace Cert.Spec

open Finset

variable (lap : Fin 170000 → ℝ) (row col : Fin 170000 → Fin 10000)
  (x : Fin 4 → Fin 10000 → Fin 128 → ℝ) (W : Fin 4 → Fin 128 → Fin 128 → ℝ) (bias : Fin 128 → ℝ)

/-- The reference's propagated features: the weighted sum, over the edges into node `n`, of the source node's features. -/
def LxR (b : Fin 4) (n : Fin 10000) (f : Fin 128) : ℝ :=
  ∑ e ∈ univ.filter (fun e => row e = n), lap e * x b (col e) f

/-- The reference's result, in the reference's own order of additions. -/
def refR (b : Fin 4) (n : Fin 10000) (o : Fin 128) : ℝ :=
  ((((∑ f, x b n f * W 0 f o) + ∑ f, LxR lap row col x b n f * W 1 f o)
      + ∑ f, (2 * LxR lap row col x b n f - x b n f) * W 2 f o)
    + ∑ f, (2 * LxR lap row col x b n f - LxR lap row col x b n f) * W 3 f o) + bias o

/-- The dense matrix the kernel scatters the edge weights into (10240 = 10000 rounded up to a multiple of 1024). -/
def Ldense (n k : Fin 10240) : ℝ :=
  ∑ e ∈ univ.filter (fun e => (row e).val = n.val ∧ (col e).val = k.val), lap e

/-- The node features padded with 240 zero rows. -/
def xpad (k : Fin 10240) (b : Fin 4) (f : Fin 128) : ℝ :=
  if h : k.val < 10000 then x b ⟨k.val, h⟩ f else 0

/-- The kernel's propagated features: a row of the dense matrix against the padded features. -/
def LxK (b : Fin 4) (n : Fin 10000) (f : Fin 128) : ℝ :=
  ∑ k : Fin 10240, Ldense lap row col ⟨n.val, by have := n.isLt; omega⟩ k * xpad x k b f

/-- The kernel's result, in the kernel's own order of additions. -/
def kerR (b : Fin 4) (n : Fin 10000) (o : Fin 128) : ℝ :=
  ((∑ f, x b n f * (W 0 f o - W 2 f o))
    + ∑ f, LxK lap row col x b n f * ((W 1 f o + 2 * W 2 f o) + W 3 f o)) + bias o

/-- The dense product is the segment sum. -/
theorem LxK_eq_LxR (b : Fin 4) (n : Fin 10000) (f : Fin 128) :
    LxK lap row col x b n f = LxR lap row col x b n f := by
  unfold LxK LxR Ldense
  simp only [Finset.sum_mul, Finset.sum_filter]
  rw [Finset.sum_comm]
  refine Finset.sum_congr rfl fun e _ => ?_
  by_cases hr : row e = n
  · -- only the column `col e` contributes, and it lies below 10000, outside the padding
    have hk : (col e).val < 10240 := by have := (col e).isLt; omega
    rw [Finset.sum_eq_single (⟨(col e).val, hk⟩ : Fin 10240)]
    · simp [hr, xpad]
    · intro k _ hne
      have hc : ¬ ((col e).val = k.val) := fun h => hne (Fin.ext h.symm)
      simp [hc]
    · intro h
      exact absurd (Finset.mem_univ _) h
  · -- an edge into another node contributes to no entry of row `n`
    have hn : ∀ k : Fin 10240, ¬ ((row e).val = n.val ∧ (col e).val = k.val) :=
      fun k h => hr (Fin.ext h.1)
    simp [hn, hr]

/-- The collapsed recurrence is the recurrence. -/
theorem kerR_eq_refR (b : Fin 4) (n : Fin 10000) (o : Fin 128) :
    kerR lap row col x W bias b n o = refR lap row col x W bias b n o := by
  unfold kerR refR
  simp only [LxK_eq_LxR]
  simp only [← Finset.sum_add_distrib]
  congr 1
  refine Finset.sum_congr rfl fun f _ => ?_
  ring

end Cert.Spec

end
-- ==== Proof.SpecCoe.lean ====
/-
  Moving extended-real expressions over real entries back into the reals: the coercion ℝ → EReal commutes with
  finite sums, products, sums, differences and negations, so an extended-real expression built from coerced
  reals is the coercion of the same expression read in ℝ.
-/
import Mathlib.Data.EReal.Basic
import Mathlib.Data.EReal.Operations
import Mathlib.Algebra.BigOperators.Group.Finset.Basic
import Mathlib.Algebra.BigOperators.Fin
import proofs.«101218_j11046655885865_1_alg».proof.Proof.Spec

namespace Cert.Spec

open Finset

/-! ### Sums of coerced reals -/

/-- The coercion of a finite sum of reals is the sum of the coercions. -/
theorem coe_sum {ι : Type*} (s : Finset ι) (g : ι → ℝ) :
    ((∑ i ∈ s, g i : ℝ) : EReal) = ∑ i ∈ s, ((g i : ℝ) : EReal) := by
  classical
  induction s using Finset.induction_on with
  | empty => simp
  | insert a s ha ih =>
    rw [Finset.sum_insert ha, Finset.sum_insert ha, EReal.coe_add, ih]

/-- The same over a whole finite type. -/
theorem coe_sum_univ {ι : Type*} [Fintype ι] (g : ι → ℝ) :
    ((∑ i, g i : ℝ) : EReal) = ∑ i, ((g i : ℝ) : EReal) :=
  coe_sum Finset.univ g

/-! ### Merging coercions: each lemma rewrites an extended-real operation on coerced reals into one coercion -/

theorem push_mul (a b : ℝ) : (a : EReal) * (b : EReal) = ((a * b : ℝ) : EReal) :=
  (EReal.coe_mul a b).symm

theorem push_add (a b : ℝ) : (a : EReal) + (b : EReal) = ((a + b : ℝ) : EReal) :=
  (EReal.coe_add a b).symm

theorem push_sub (a b : ℝ) : (a : EReal) - (b : EReal) = ((a - b : ℝ) : EReal) :=
  (EReal.coe_sub a b).symm

theorem push_neg (a : ℝ) : -(a : EReal) = ((-a : ℝ) : EReal) :=
  (EReal.coe_neg a).symm

theorem push_zero : (0 : EReal) = ((0 : ℝ) : EReal) := rfl

theorem push_one : (1 : EReal) = ((1 : ℝ) : EReal) := rfl

theorem push_two : (2 : EReal) = ((2 : ℝ) : EReal) := rfl

theorem push_sum {ι : Type*} (s : Finset ι) (g : ι → ℝ) :
    ∑ i ∈ s, ((g i : ℝ) : EReal) = ((∑ i ∈ s, g i : ℝ) : EReal) :=
  (coe_sum s g).symm

/-- Two coerced reals are equal exactly when the reals are. -/
theorem coe_inj {a b : ℝ} : ((a : ℝ) : EReal) = ((b : ℝ) : EReal) ↔ a = b :=
  EReal.coe_eq_coe_iff

/-- Rewrites every product, sum, difference, negation and finite sum of coerced reals, and the literals
`0`, `1`, `2`, into a single coercion of a real expression. -/
macro "push_real" : tactic =>
  `(tactic| simp only [Cert.Spec.push_mul, Cert.Spec.push_add, Cert.Spec.push_sub, Cert.Spec.push_neg,
      Cert.Spec.push_zero, Cert.Spec.push_one, Cert.Spec.push_two, Cert.Spec.push_sum])

/-- The same at a hypothesis. -/
macro "push_real" "at" h:ident : tactic =>
  `(tactic| simp only [Cert.Spec.push_mul, Cert.Spec.push_add, Cert.Spec.push_sub, Cert.Spec.push_neg,
      Cert.Spec.push_zero, Cert.Spec.push_one, Cert.Spec.push_two, Cert.Spec.push_sum] at $h:ident)

/-! ### Tests -/

example (a b c d : ℝ) : ((a : EReal) * b + c) - d = ((a * b + c - d : ℝ) : EReal) := by
  push_real

example (a b c d : ℝ) : ((a : EReal) * b + c) - d = ((a * b + c - d : ℝ) : EReal) := by
  rw [push_mul, push_add, push_sub]

example (a : ℝ) (g : Fin 128 → ℝ) :
    (2 : EReal) * a + -(∑ f, ((g f : ℝ) : EReal)) + 0 = ((2 * a + -(∑ f, g f) + 0 : ℝ) : EReal) := by
  push_real

example (a b : ℝ) (g : Fin 128 → ℝ) (h : (a : EReal) + ∑ f, ((g f * b : ℝ) : EReal) = (b : EReal)) :
    a + ∑ f, g f * b = b := by
  push_real at h
  exact coe_inj.mp h

end Cert.Spec
-- ==== Proof.RefValue.lean ====
/-
  The reference's value: its run read back, stage by stage, as one function of the argument arrays, and that function
  evaluated at the ideal instance on real data.

  The reference gathers, for each of the 170000 weighted edges, the features of the edge's source node, multiplies
  them by the edge's weight and sums the products into the edge's target node; the propagated features `Lx` so
  obtained enter the four Chebyshev terms `x W₀ + Lx W₁ + (2 Lx − x) W₂ + (2 Lx − Lx) W₃ + bias`.
  Here: the scatter's and the gather's dimension numbers decoded at the reference's two records (an update index
  (b, e, f) lands at (b, row e, f); a result index (b, e, f) reads the operand at (b, col e, f)); the sum of the
  updates landing on one element re-indexed over the edges into its node; each later stage read at an index; and
  the result, `ref_value`: at (b, n, o) the reference returns the real number `Cert.Spec.refR`.
-/
import proofs.«101218_j11046655885865_1_alg».proof.Defs
import proofs.«101218_j11046655885865_1_alg».proof.Proof.Gen.ReferenceIdeal.Run
import proofs.«101218_j11046655885865_1_alg».proof.Proof.Gen.ReferenceIdeal.Read
import proofs.«101218_j11046655885865_1_alg».proof.Proof.Inputs
import proofs.«101218_j11046655885865_1_alg».proof.Proof.Spec
import proofs.«101218_j11046655885865_1_alg».proof.Proof.SpecCoe
import Idealize.ShloMosaic.Lib.ValueIdx
import Idealize.ShloMosaic.PureOps.Ideal

noncomputable section

namespace Cert.ReferenceIdeal.RefValue

open Cert.ReferenceIdeal Cert.ReferenceIdeal.Gen Idealize.ShloMosaic Idealize.ShloMosaic.ValueIdx
open Idealize.ShloMosaic.TcCoe Idealize.SL.Sem Idealize.ShloMosaic.StableHlo

/-! ## Small facts: the three axes, words below 10000, the two literals -/

/-- The segment sum's dimension numbers: updates [4, 170000, 128] into [4, 10000, 128] along axis 1. -/
abbrev SD := scatter_S4x10000x128_S170000x1_S4x170000x128_02_1_1_1
/-- The gather's dimension numbers: rows of [4, 10000, 128] along axis 1 into [4, 170000, 128]. -/
abbrev GD := gather_S4x10000x128_S170000x1_S4x170000x128_02_1_n_n_1_1_41128

/-- A statement about the three axes holds when it holds at each. -/
theorem forall_fin3 {P : Fin 3 → Prop} (h0 : P 0) (h1 : P 1) (h2 : P 2) : ∀ a, P a := by
  intro a
  match a with
  | ⟨0, _⟩ => exact h0
  | ⟨1, _⟩ => exact h1
  | ⟨2, _⟩ => exact h2

/-- A word below 10000 reads, signed, as itself. -/
theorem toInt_ofNat_small (r : Nat) (h : r < 10000) : (BitVec.ofNat 32 r).toInt = (r : Int) := by
  rw [BitVec.toInt_eq_toNat_cond, BitVec.toNat_ofNat]
  have : r % 2 ^ 32 = r := Nat.mod_eq_of_lt (by omega)
  rw [this]; split <;> omega

/-! ## The segment sum's dimension numbers, decoded -/

theorem sd_window0 (j : S4x170000x128.Idx) : SD.window j 0 = (j 0).val := rfl
theorem sd_window1 (j : S4x170000x128.Idx) : SD.window j 1 = 0 := rfl
theorem sd_window2 (j : S4x170000x128.Idx) : SD.window j 2 = (j 2).val := rfl
theorem sd_start0 (j : S4x170000x128.Idx) (idx : IVec S170000x1 32) : SD.start j idx 0 = 0 := rfl
theorem sd_start2 (j : S4x170000x128.Idx) (idx : IVec S170000x1 32) : SD.start j idx 2 = 0 := rfl
theorem sd_start1 (j : S4x170000x128.Idx) (idx : IVec S170000x1 32) : SD.start j idx 1 = (idx (ix2 (j 1) (0 : Fin 1))).toInt := by
  unfold ScatterDims.start
  rw [dif_pos (by decide)]
  congr 2
  funext a
  match a with
  | ⟨0, _⟩ => rfl
  | ⟨1, _⟩ => rfl

/-- An update index whose scatter index names node r lands at (its batch, r, its feature). -/
theorem sd_resultIdx (idx : IVec S170000x1 32) (j : S4x170000x128.Idx) (r : Fin 10000)
    (h : idx (ix2 (j 1) (0 : Fin 1)) = BitVec.ofNat 32 r.val) :
    SD.resultIdx? j idx = some (ix3 (j 0) r (j 2)) := by
  have h1 : SD.start j idx 1 = (r.val : Int) := by
    rw [sd_start1, h]; exact toInt_ofNat_small _ r.isLt
  have hr := r.isLt
  have hj0 : (j 0).val < 4 := (j 0).isLt
  have hj2 : (j 2).val < 128 := (j 2).isLt
  unfold ScatterDims.resultIdx?
  rw [dif_pos (forall_fin3
    (by rw [sd_start0, sd_window0]; show 0 ≤ (0 : Int) + ((j 0).val : Int) ∧ (0 : Int) + ((j 0).val : Int) < ((4 : Nat) : Int); omega)
    (by rw [h1, sd_window1]; show 0 ≤ (r.val : Int) + ((0 : Nat) : Int) ∧ (r.val : Int) + ((0 : Nat) : Int) < ((10000 : Nat) : Int); omega)
    (by rw [sd_start2, sd_window2]; show 0 ≤ (0 : Int) + ((j 2).val : Int) ∧ (0 : Int) + ((j 2).val : Int) < ((128 : Nat) : Int); omega))]
  congr 1
  funext a
  revert a
  refine forall_fin3 (Fin.ext ?_) (Fin.ext ?_) (Fin.ext ?_)
  · show (SD.start j idx 0 + (SD.window j 0 : Int)).toNat = (j 0).val
    rw [sd_start0, sd_window0]; omega
  · show (SD.start j idx 1 + (SD.window j 1 : Int)).toNat = r.val
    rw [h1, sd_window1]; omega
  · show (SD.start j idx 2 + (SD.window j 2 : Int)).toNat = (j 2).val
    rw [sd_start2, sd_window2]; omega

/-! ## The gather's dimension numbers, decoded -/

theorem gd_start0 (j : S4x170000x128.Idx) (idx : IVec S170000x1 32) : GD.start j idx 0 = 0 := rfl
theorem gd_start2 (j : S4x170000x128.Idx) (idx : IVec S170000x1 32) : GD.start j idx 2 = 0 := rfl
theorem gd_batch (j : S4x170000x128.Idx) (a : Fin 3) : GD.batchCoord j a = 0 :=
  GatherDims.batchCoord_eq_zero _ _ _ List.not_mem_nil
theorem gd_off0 (j : S4x170000x128.Idx) : GD.offCoord j 0 = (j 0).val := rfl
theorem gd_off1 (j : S4x170000x128.Idx) : GD.offCoord j 1 = 0 := rfl
theorem gd_off2 (j : S4x170000x128.Idx) : GD.offCoord j 2 = (j 2).val := rfl
theorem gd_start1 (j : S4x170000x128.Idx) (idx : IVec S170000x1 32) :
    GD.start j idx 1 = min (idx (ix2 (j 1) (0 : Fin 1))).toInt.toNat 9999 := by
  unfold GatherDims.start
  rw [dif_pos (by decide)]
  show min _ (10000 - 1) = _
  congr 4
  funext a
  match a with
  | ⟨0, _⟩ => rfl
  | ⟨1, _⟩ => rfl

/-- A result index whose start index names node c reads the operand at (its batch, c, its feature). -/
theorem gd_operandIdx (idx : IVec S170000x1 32) (j : S4x170000x128.Idx) (c : Fin 10000)
    (h : idx (ix2 (j 1) (0 : Fin 1)) = BitVec.ofNat 32 c.val) :
    GD.operandIdx j idx = ix3 (j 0) c (j 2) := by
  have hc := c.isLt
  have h1 : GD.start j idx 1 = c.val := by
    rw [gd_start1, h, toInt_ofNat_small _ c.isLt]; omega
  funext a
  revert a
  refine forall_fin3 (Fin.ext ?_) (Fin.ext ?_) (Fin.ext ?_)
  · show GD.start j idx 0 + GD.batchCoord j 0 + GD.offCoord j 0 = (j 0).val
    rw [gd_start0, gd_batch, gd_off0]; omega
  · show GD.start j idx 1 + GD.batchCoord j 1 + GD.offCoord j 1 = c.val
    rw [h1, gd_batch, gd_off1]; omega
  · show GD.start j idx 2 + GD.batchCoord j 2 + GD.offCoord j 2 = (j 2).val
    rw [gd_start2, gd_batch, gd_off2]; omega

/-! ## The updates landing on one element -/

/-- The updates landing on (b, n, f) are the edges into n, at batch b and feature f. -/
theorem sum_landing {M : Type*} [AddCommMonoid M] (idx : IVec S170000x1 32) (row : Fin 170000 → Fin 10000)
    (hrow : ∀ e, idx (ix2 e (0 : Fin 1)) = BitVec.ofNat 32 (row e).val)
    (upd : S4x170000x128.Idx → M) (b : Fin 4) (n : Fin 10000) (f : Fin 128)
    [DecidablePred fun j : S4x170000x128.Idx => SD.resultIdx? j idx = some (ix3 b n f)] :
    ∑ j ∈ Finset.univ.filter (fun j => SD.resultIdx? j idx = some (ix3 b n f)), upd j
      = ∑ e ∈ Finset.univ.filter (fun e => row e = n), upd (ix3 b e f) := by
  have key : ∀ j : S4x170000x128.Idx, SD.resultIdx? j idx = some (ix3 b n f) ↔ (j 0 = b ∧ row (j 1) = n ∧ j 2 = f) := by
    intro j
    have e := sd_resultIdx idx j (row (j 1)) (hrow (j 1))
    constructor
    · intro h
      have h' := Option.some.inj (e.symm.trans h)
      exact ⟨congrFun h' 0, congrFun h' 1, congrFun h' 2⟩
    · rintro ⟨h0, h1, h2⟩
      refine e.trans (congrArg some ?_)
      funext a
      revert a
      exact forall_fin3 h0 h1 h2
  have back : ∀ j : S4x170000x128.Idx, j 0 = b → j 2 = f → ix3 b (j 1 : Fin 170000) f = j := by
    intro j h0 h2
    funext a
    revert a
    exact forall_fin3 h0.symm rfl h2.symm
  refine Finset.sum_nbij' (fun j => (j 1 : Fin 170000)) (fun e => ix3 b e f) ?_ ?_ ?_ ?_ ?_
  · intro j hj
    exact Finset.mem_filter.2 ⟨Finset.mem_univ _, ((key j).1 (Finset.mem_filter.1 hj).2).2.1⟩
  · intro e he
    exact Finset.mem_filter.2 ⟨Finset.mem_univ _, (key _).2 ⟨rfl, (Finset.mem_filter.1 he).2, rfl⟩⟩
  · intro j hj
    obtain ⟨h0, _, h2⟩ := (key j).1 (Finset.mem_filter.1 hj).2
    exact back j h0 h2
  · intro e _
    rfl
  · intro j hj
    obtain ⟨h0, _, h2⟩ := (key j).1 (Finset.mem_filter.1 hj).2
    exact congrArg upd (back j h0 h2).symm

/-! ## Words and literals -/

/-- A word below 10000 is not negative. -/
theorem slt_zero_small (r : Nat) (h : r < 10000) : IntOp.cmpi .slt (BitVec.ofNat 32 r) 0#32 = 0#1 := by
  show BitVec.ofBool ((BitVec.ofNat 32 r).slt 0#32) = 0#1
  rw [BitVec.slt_eq_decide, toInt_ofNat_small r h]
  have : ¬ ((r : Int) < (0#32 : BitVec 32).toInt) := by
    rw [BitVec.toInt_zero]; omega
  rw [decide_eq_false this]
  rfl

/-- The pattern of +0.0 denotes 0. -/
theorem ofBits_zero : FloatOps.ofBits (F := Ideal) .f32 0x00000000#32 = ((0 : ℝ) : EReal) := by
  show Ideal.ofBits .f32 0x00000000#32 = _
  simp [Ideal.ofBits, Ideal.ieee]

/-- The pattern of 2.0 denotes 2. -/
theorem ofBits_two : FloatOps.ofBits (F := Ideal) .f32 0x40000000#32 = ((2 : ℝ) : EReal) := by
  show Ideal.ofBits .f32 0x40000000#32 = _
  simp [Ideal.ofBits, Ideal.ieee, -EReal.coe_mul]; norm_num

/-! ## The stages, read at an index -/

section Chain

variable {x : (⟨3, ![4, 10000, 128]⟩ : Shape).Idx → EReal} {ei : (⟨2, ![2, 160000]⟩ : Shape).Idx → BitVec 32}
  {ew : (⟨1, ![160000]⟩ : Shape).Idx → EReal} {w : (⟨3, ![4, 128, 128]⟩ : Shape).Idx → EReal}
  {bs : (⟨1, ![128]⟩ : Shape).Idx → EReal}
  (hin : Cert.Inputs.RealInputs x ei ew w bs)
  (hch : Cert.Inputs.ChainFacts (Read.val_main_v36 (F := Ideal) ei ew) (Read.val_main_v31 (F := Ideal) ei)
    (Read.val_main_v32 (F := Ideal) ei))

include hch in
/-- The source node of edge e, after the wrap of negative indices: still the source node. -/
theorem v45_val (e : Fin 170000) :
    Read.val_main_v45 (F := Ideal) ei (ix1 e) = BitVec.ofNat 32 (hch.col e).val := by
  rw [Read.val_main_v45_apply, Read.val_main_v42_apply, Read.val_main_v41_apply, Read.val_main_c_9_apply, hch.hcol2 e,
    slt_zero_small _ (hch.col e).isLt, select_zero]

include hch in
theorem v46_val (e : Fin 170000) :
    Read.val_main_v46 (F := Ideal) ei (ix2 e (0 : Fin 1)) = BitVec.ofNat 32 (hch.col e).val := by
  rw [Read.val_main_v46_apply]
  have e1 : Read.idx_main_v46 (ix2 e (0 : Fin 1)) = ix1 e := by
    funext a
    match a with
    | ⟨0, _⟩ => rfl
  rw [e1]; exact v45_val hch e

include hin hch in
/-- The gathered features: edge e reads its source node's row. -/
theorem v47_val (b : Fin 4) (e : Fin 170000) (f : Fin 128) :
    Read.val_main_v47 (F := Ideal) x ei (ix3 b e f) = ((hin.xr b (hch.col e) f : ℝ) : EReal) := by
  show x (GD.operandIdx (ix3 b e f) (Read.val_main_v46 (F := Ideal) ei)) = _
  rw [gd_operandIdx _ (ix3 b e f) (hch.col e) (v46_val hch e)]
  exact hin.hx _ _ _

include hch in
/-- The edge weights, broadcast over batches and features. -/
theorem v48_val (b : Fin 4) (e : Fin 170000) (f : Fin 128) :
    Read.val_main_v48 (F := Ideal) ei ew (ix3 b e f) = ((hch.lapR e : ℝ) : EReal) := by
  rw [Read.val_main_v48_apply, Read.val_main_v40_apply]
  have e1 : Read.idx_main_v40 (Read.idx_main_v48 (ix3 b e f)) = ix1 e := by
    funext a
    match a with
    | ⟨0, _⟩ => rfl
  rw [e1]; exact hch.hlap e

include hin hch in
/-- The messages: weight times source feature. -/
theorem v49_val (b : Fin 4) (e : Fin 170000) (f : Fin 128) :
    Read.val_main_v49 (F := Ideal) x ei ew (ix3 b e f) = ((hch.lapR e * hin.xr b (hch.col e) f : ℝ) : EReal) := by
  rw [Read.val_main_v49_apply, v48_val hch, v47_val hin hch]
  exact (EReal.coe_mul _ _).symm

/-- The zero array the messages are summed into. -/
theorem v52_val (i : S4x10000x128.Idx) : Read.val_main_v52 (F := Ideal) i = ((0 : ℝ) : EReal) := by
  rw [Read.val_main_v52_apply, Read.val_main_v50_apply, Read.val_main_cst_11_apply]
  exact ofBits_zero

include hch in
theorem v51_val (e : Fin 170000) :
    Read.val_main_v51 (F := Ideal) ei (ix2 e (0 : Fin 1)) = BitVec.ofNat 32 (hch.row e).val := by
  rw [Read.val_main_v51_apply]
  have e1 : Read.idx_main_v51 (ix2 e (0 : Fin 1)) = ix1 e := by
    funext a
    match a with
    | ⟨0, _⟩ => rfl
  rw [e1]; exact hch.hrow2 e

include hin hch in
/-- The propagated features: at (b, n, f), the sum of the messages of the edges into n. -/
theorem v53_val (b : Fin 4) (n : Fin 10000) (f : Fin 128) :
    Read.val_main_v53 (F := Ideal) x ei ew (ix3 b n f)
      = ((Cert.Spec.LxR hch.lapR hch.row hch.col hin.xr b n f : ℝ) : EReal) := by
  show Ideal.hostScatterAdd SD (Read.val_main_v52 (F := Ideal)) (Read.val_main_v51 (F := Ideal) ei)
    (Read.val_main_v49 (F := Ideal) x ei ew) (ix3 b n f) = _
  unfold Ideal.hostScatterAdd
  rw [sum_landing (Read.val_main_v51 (F := Ideal) ei) hch.row (fun e => v51_val hch e) _ b n f, v52_val,
    EReal.coe_zero, zero_add]
  unfold Cert.Spec.LxR
  rw [Cert.Spec.coe_sum]
  exact Finset.sum_congr rfl fun e _ => v49_val hin hch b e f

theorem lidx39 (b : Fin 4) (n : Fin 10000) (o k : Fin 128) : Read.lidx_main_v39 (ix3 b n o) k = ix3 b n k := by
  funext a; revert a; exact forall_fin3 rfl rfl rfl
theorem ridx39 (b : Fin 4) (n : Fin 10000) (o k : Fin 128) : Read.ridx_main_v39 (ix3 b n o) k = ix2 k o := by
  funext a
  match a with
  | ⟨0, _⟩ => rfl
  | ⟨1, _⟩ => rfl

theorem lidx56 (b : Fin 4) (n : Fin 10000) (o k : Fin 128) : Read.lidx_main_v56 (ix3 b n o) k = ix3 b n k := by
  funext a; revert a; exact forall_fin3 rfl rfl rfl
theorem ridx56 (b : Fin 4) (n : Fin 10000) (o k : Fin 128) : Read.ridx_main_v56 (ix3 b n o) k = ix2 k o := by
  funext a
  match a with
  | ⟨0, _⟩ => rfl
  | ⟨1, _⟩ => rfl

theorem lidx63 (b : Fin 4) (n : Fin 10000) (o k : Fin 128) : Read.lidx_main_v63 (ix3 b n o) k = ix3 b n k := by
  funext a; revert a; exact forall_fin3 rfl rfl rfl
theorem ridx63 (b : Fin 4) (n : Fin 10000) (o k : Fin 128) : Read.ridx_main_v63 (ix3 b n o) k = ix2 k o := by
  funext a
  match a with
  | ⟨0, _⟩ => rfl
  | ⟨1, _⟩ => rfl

theorem lidx70 (b : Fin 4) (n : Fin 10000) (o k : Fin 128) : Read.lidx_main_v70 (ix3 b n o) k = ix3 b n k := by
  funext a; revert a; exact forall_fin3 rfl rfl rfl
theorem ridx70 (b : Fin 4) (n : Fin 10000) (o k : Fin 128) : Read.ridx_main_v70 (ix3 b n o) k = ix2 k o := by
  funext a
  match a with
  | ⟨0, _⟩ => rfl
  | ⟨1, _⟩ => rfl

section Weights
include hin

/-- The first weight matrix, read at (k, o). -/
theorem v38_val (k o : Fin 128) : Read.val_main_v38 (F := Ideal) w (ix2 k o) = ((hin.wr 0 k o : ℝ) : EReal) := by
  have hk := k.isLt
  have ho := o.isLt
  rw [Read.val_main_v38_apply, Read.val_main_v37_apply]
  have e : Read.idx_main_v37 (Read.idx_main_v38 (ix2 k o)) = ix3 (0 : Fin 4) k o := by
    funext a; revert a
    refine forall_fin3 (Fin.ext ?_) (Fin.ext ?_) (Fin.ext ?_)
    · rfl
    · show (k.val * 128 + o.val) / 128 % 128 = k.val; omega
    · show (k.val * 128 + o.val) % 128 = o.val; omega
  rw [e]; exact hin.hw 0 k o

/-- The second weight matrix, read at (k, o). -/
theorem v55_val (k o : Fin 128) : Read.val_main_v55 (F := Ideal) w (ix2 k o) = ((hin.wr 1 k o : ℝ) : EReal) := by
  have hk := k.isLt
  have ho := o.isLt
  rw [Read.val_main_v55_apply, Read.val_main_v54_apply]
  have e : Read.idx_main_v54 (Read.idx_main_v55 (ix2 k o)) = ix3 (1 : Fin 4) k o := by
    funext a; revert a
    refine forall_fin3 (Fin.ext ?_) (Fin.ext ?_) (Fin.ext ?_)
    · rfl
    · show (k.val * 128 + o.val) / 128 % 128 = k.val; omega
    · show (k.val * 128 + o.val) % 128 = o.val; omega
  rw [e]; exact hin.hw 1 k o

/-- The third weight matrix, read at (k, o). -/
theorem v62_val (k o : Fin 128) : Read.val_main_v62 (F := Ideal) w (ix2 k o) = ((hin.wr 2 k o : ℝ) : EReal) := by
  have hk := k.isLt
  have ho := o.isLt
  rw [Read.val_main_v62_apply, Read.val_main_v61_apply]
  have e : Read.idx_main_v61 (Read.idx_main_v62 (ix2 k o)) = ix3 (2 : Fin 4) k o := by
    funext a; revert a
    refine forall_fin3 (Fin.ext ?_) (Fin.ext ?_) (Fin.ext ?_)
    · rfl
    · show (k.val * 128 + o.val) / 128 % 128 = k.val; omega
    · show (k.val * 128 + o.val) % 128 = o.val; omega
  rw [e]; exact hin.hw 2 k o

/-- The fourth weight matrix, read at (k, o). -/
theorem v69_val (k o : Fin 128) : Read.val_main_v69 (F := Ideal) w (ix2 k o) = ((hin.wr 3 k o : ℝ) : EReal) := by
  have hk := k.isLt
  have ho := o.isLt
  rw [Read.val_main_v69_apply, Read.val_main_v68_apply]
  have e : Read.idx_main_v68 (Read.idx_main_v69 (ix2 k o)) = ix3 (3 : Fin 4) k o := by
    funext a; revert a
    refine forall_fin3 (Fin.ext ?_) (Fin.ext ?_) (Fin.ext ?_)
    · rfl
    · show (k.val * 128 + o.val) / 128 % 128 = k.val; omega
    · show (k.val * 128 + o.val) % 128 = o.val; omega
  rw [e]; exact hin.hw 3 k o
end Weights

include hin in
/-- x W₀ -/
theorem v39_val (b : Fin 4) (n : Fin 10000) (o : Fin 128) :
    Read.val_main_v39 (F := Ideal) x w (ix3 b n o) = ((∑ f, hin.xr b n f * hin.wr 0 f o : ℝ) : EReal) := by
  rw [Read.val_main_v39_apply, Cert.Spec.coe_sum_univ]
  refine Finset.sum_congr rfl fun k _ => ?_
  rw [lidx39, ridx39, hin.hx, v38_val hin, EReal.coe_mul]

include hin hch in
/-- Lx W₁ -/
theorem v56_val (b : Fin 4) (n : Fin 10000) (o : Fin 128) :
    Read.val_main_v56 (F := Ideal) x ei ew w (ix3 b n o)
      = ((∑ f, Cert.Spec.LxR hch.lapR hch.row hch.col hin.xr b n f * hin.wr 1 f o : ℝ) : EReal) := by
  rw [Read.val_main_v56_apply, Cert.Spec.coe_sum_univ]
  refine Finset.sum_congr rfl fun k _ => ?_
  rw [lidx56, ridx56, v53_val hin hch, v55_val hin, EReal.coe_mul]

/-- The constant 2. -/
theorem v58_val (i : S4x10000x128.Idx) : Read.val_main_v58 (F := Ideal) i = ((2 : ℝ) : EReal) := by
  rw [Read.val_main_v58_apply, Read.val_main_cst_12_apply]
  exact ofBits_two

theorem v65_val (i : S4x10000x128.Idx) : Read.val_main_v65 (F := Ideal) i = ((2 : ℝ) : EReal) := by
  rw [Read.val_main_v65_apply, Read.val_main_cst_13_apply]
  exact ofBits_two

include hin hch in
/-- 2 Lx − x -/
theorem v60_val (b : Fin 4) (n : Fin 10000) (f : Fin 128) :
    Read.val_main_v60 (F := Ideal) x ei ew (ix3 b n f)
      = ((2 * Cert.Spec.LxR hch.lapR hch.row hch.col hin.xr b n f - hin.xr b n f : ℝ) : EReal) := by
  rw [Read.val_main_v60_apply, Read.val_main_v59_apply, v58_val, v53_val hin hch, hin.hx]
  show ((2 : ℝ) : EReal) * _ - _ = _
  rw [EReal.coe_sub, EReal.coe_mul]

include hin hch in
/-- 2 Lx − Lx -/
theorem v67_val (b : Fin 4) (n : Fin 10000) (f : Fin 128) :
    Read.val_main_v67 (F := Ideal) x ei ew (ix3 b n f)
      = ((2 * Cert.Spec.LxR hch.lapR hch.row hch.col hin.xr b n f
          - Cert.Spec.LxR hch.lapR hch.row hch.col hin.xr b n f : ℝ) : EReal) := by
  rw [Read.val_main_v67_apply, Read.val_main_v66_apply, v65_val, v53_val hin hch]
  show ((2 : ℝ) : EReal) * _ - _ = _
  rw [EReal.coe_sub, EReal.coe_mul]

include hin hch in
/-- (2 Lx − x) W₂ -/
theorem v63_val (b : Fin 4) (n : Fin 10000) (o : Fin 128) :
    Read.val_main_v63 (F := Ideal) x ei ew w (ix3 b n o)
      = ((∑ f, (2 * Cert.Spec.LxR hch.lapR hch.row hch.col hin.xr b n f - hin.xr b n f) * hin.wr 2 f o : ℝ) : EReal) := by
  rw [Read.val_main_v63_apply, Cert.Spec.coe_sum_univ]
  refine Finset.sum_congr rfl fun k _ => ?_
  rw [lidx63, ridx63, v60_val hin hch, v62_val hin, EReal.coe_mul]

include hin hch in
/-- (2 Lx − Lx) W₃ -/
theorem v70_val (b : Fin 4) (n : Fin 10000) (o : Fin 128) :
    Read.val_main_v70 (F := Ideal) x ei ew w (ix3 b n o)
      = ((∑ f, (2 * Cert.Spec.LxR hch.lapR hch.row hch.col hin.xr b n f
            - Cert.Spec.LxR hch.lapR hch.row hch.col hin.xr b n f) * hin.wr 3 f o : ℝ) : EReal) := by
  rw [Read.val_main_v70_apply, Cert.Spec.coe_sum_univ]
  refine Finset.sum_congr rfl fun k _ => ?_
  rw [lidx70, ridx70, v67_val hin hch, v69_val hin, EReal.coe_mul]

include hin in
/-- The bias, broadcast over batches and nodes. -/
theorem v73_val (b : Fin 4) (n : Fin 10000) (o : Fin 128) :
    Read.val_main_v73 (F := Ideal) bs (ix3 b n o) = ((hin.br o : ℝ) : EReal) := by
  rw [Read.val_main_v73_apply, Read.val_main_v72_apply]
  have e1 : Read.idx_main_v72 (Read.idx_main_v73 (ix3 b n o)) = ix1 o := by
    funext a
    match a with
    | ⟨0, _⟩ => rfl
  rw [e1]; exact hin.hb o

end Chain

/-! ## The reference's result -/

/-- The reference's result at (b, n, o), for inputs that are real data, is the real number `refR`. -/
theorem ref_value (x : (⟨3, ![4, 10000, 128]⟩ : Shape).Idx → EReal) (ei : (⟨2, ![2, 160000]⟩ : Shape).Idx → BitVec 32)
    (ew : (⟨1, ![160000]⟩ : Shape).Idx → EReal) (w : (⟨3, ![4, 128, 128]⟩ : Shape).Idx → EReal)
    (bs : (⟨1, ![128]⟩ : Shape).Idx → EReal)
    (hin : Cert.Inputs.RealInputs x ei ew w bs)
    (hch : Cert.Inputs.ChainFacts (Read.val_main_v36 (F := Ideal) ei ew) (Read.val_main_v31 (F := Ideal) ei)
      (Read.val_main_v32 (F := Ideal) ei))
    (b : Fin 4) (n : Fin 10000) (o : Fin 128) :
    Read.val_main_v74 (F := Ideal) x ei ew w bs (ix3 b n o)
      = ((Cert.Spec.refR hch.lapR hch.row hch.col hin.xr hin.wr hin.br b n o : ℝ) : EReal) := by
  rw [Read.val_main_v74_apply, Read.val_main_v71_apply, Read.val_main_v64_apply, Read.val_main_v57_apply,
    v39_val hin, v56_val hin hch, v63_val hin hch, v70_val hin hch, v73_val hin]
  unfold Cert.Spec.refR
  rw [EReal.coe_add, EReal.coe_add, EReal.coe_add, EReal.coe_add]
  rfl

/-- The run's result term is the last stage, as a function of the five argument arrays. -/
theorem ref_run_value {F : FTy → Type} [FloatOps F] (m : (ℓ : Loc nD τ sig) → Buf (Elt F) ℓ) (c : Dev nD) :
    Cert.ReferenceIdeal.Value.res_main_v74 m c
      = Read.val_main_v74 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  Read.val_main_v74_eq m c

end Cert.ReferenceIdeal.RefValue

end
-- ==== Proof.HostVals.lean ====
import proofs.«101218_j11046655885865_1_alg».proof.Proof.Gen.KernelIdeal.Regions
import Idealize.ShloMosaic.Lib.Pipeline.Value
import Idealize.ShloMosaic.Lib.ValueIdx
import Idealize.ShloMosaic.Lib.KernelVsHost
import Idealize.ShloMosaic.PureOps.Ideal.Laws

/-!
# What the kernel program's host operations compute

The contents of the arrays the two kernel regions are entered with, as terms of the program's
arguments, at the ideal instance: the normalised Laplacian scattered into a padded square matrix,
the node features laid out one row per node and padded, and, between the two regions, the first
region's product cut back and regrouped and the two combined weight matrices. Each is then read
at an index.
-/

noncomputable section

namespace Cert.KernelIdeal.HandValue

open Cert.KernelIdeal Cert.KernelIdeal.Gen Idealize.ShloMosaic Idealize.ShloMosaic.TcCoe Idealize.SL.Sem
open Idealize.ShloMosaic.StableHlo Idealize.ShloMosaic.ValueIdx
open scoped BigOperators

/-! ## Between the two regions -/

section Generic
variable {F : FTy → Type} [FloatOps F]

/-- The first `10000` rows of a `10240 × 512` array, each row split into `4` groups of `128`, the group
    axis moved in front. -/
def T60 (y : Vec F S10240x512 .f32) : Vec F S4x10000x128 .f32 :=
  transpose S4x10000x128 [1, 0, 2]
    (shapeCast S10000x4x128 (extractStridedSlice S10000x512 ![0, 0] y slices_S10240x512_S10000x512_0_0)
      shapeCasts_S10000x512_S10000x4x128)
    transposes_S10000x4x128_S4x10000x128_1_0_2

/-- Matrix `k` of the stack of four weight matrices. -/
def Wk0 (w : Vec F S4x128x128 .f32) : Vec F S128x128 .f32 :=
  shapeCast S128x128 (extractStridedSlice S1x128x128 ![0, 0, 0] w slices_S4x128x128_S1x128x128_0_0_0) shapeCasts_S1x128x128_S128x128
def Wk1 (w : Vec F S4x128x128 .f32) : Vec F S128x128 .f32 :=
  shapeCast S128x128 (extractStridedSlice S1x128x128 ![1, 0, 0] w slices_S4x128x128_S1x128x128_1_0_0) shapeCasts_S1x128x128_S128x128
def Wk2 (w : Vec F S4x128x128 .f32) : Vec F S128x128 .f32 :=
  shapeCast S128x128 (extractStridedSlice S1x128x128 ![2, 0, 0] w slices_S4x128x128_S1x128x128_2_0_0) shapeCasts_S1x128x128_S128x128
def Wk3 (w : Vec F S4x128x128 .f32) : Vec F S128x128 .f32 :=
  shapeCast S128x128 (extractStridedSlice S1x128x128 ![3, 0, 0] w slices_S4x128x128_S1x128x128_3_0_0) shapeCasts_S1x128x128_S128x128

/-- The weight applied to the features: `W₀ - W₂`. -/
def WX (w : Vec F S4x128x128 .f32) : Vec F S128x128 .f32 := subf (Wk0 w) (Wk2 w)

/-- The weight applied to the propagated features: `(W₁ + 2 · W₂) + W₃`. -/
def WL (w : Vec F S4x128x128 .f32) : Vec F S128x128 .f32 :=
  addf (addf (Wk1 w) (mulf (broadcastInDim S128x128 ![] bcast_S_S128x128 (constant (F := F) S_ .f32 0x40000000#32)) (Wk2 w))) (Wk3 w)

theorem ops1_v60 (V : Valuation τ sig (Elt F)) :
    after hostOps1 V (main_v60 : DevRef τ sig) = T60 (V (main_v57 : DevRef τ sig)) := by
  after_results
  rfl

theorem ops1_v65 (V : Valuation τ sig (Elt F)) :
    after hostOps1 V (main_v65 : DevRef τ sig) = WX (V (main_arg3 : DevRef τ sig)) := by
  after_results
  rfl

theorem ops1_v75 (V : Valuation τ sig (Elt F)) :
    after hostOps1 V (main_v75 : DevRef τ sig) = WL (V (main_arg3 : DevRef τ sig)) := by
  after_results_simp
  rfl

end Generic

/-! ### Read at an index -/

section GenericRead
variable {F : FTy → Type} [FloatOps F]

theorem T60_apply (y : Vec F S10240x512 .f32) (b : Fin 4) (n : Fin 10000) (f : Fin 128) :
    T60 y (ix3 b n f) = y (ix2 (⟨n.val, by omega⟩ : Fin 10240) (⟨128 * b.val + f.val, by omega⟩ : Fin 512)) := by
  unfold T60
  refine (transpose_apply [1, 0, 2] _ transposes_S10000x4x128_S4x10000x128_1_0_2 (ix3 b n f) (ix3 n b f)
    (fun a => match a with | ⟨0, _⟩ => rfl | ⟨1, _⟩ => rfl | ⟨2, _⟩ => rfl)).trans ?_
  refine (shapeCast_apply _ shapeCasts_S10000x512_S10000x4x128 (ix3 n b f)
    (ix2 n (⟨128 * b.val + f.val, by omega⟩ : Fin 512)) (by
      rewrite [Shape.rowMajor_val_two, Shape.rowMajor_val_three]
      show n.val * 512 + (128 * b.val + f.val) = (n.val * 4 + b.val) * 128 + f.val
      omega)).trans ?_
  exact extractStridedSlice_apply ![0, 0] y slices_S10240x512_S10000x512_0_0 _ _
    (fun a => match a with
      | ⟨0, _⟩ => by show n.val = 0 + n.val; omega
      | ⟨1, _⟩ => by show 128 * b.val + f.val = 0 + (128 * b.val + f.val); omega)

theorem Wk0_apply (w : Vec F S4x128x128 .f32) (f o : Fin 128) : Wk0 w (ix2 f o) = w (ix3 (0 : Fin 4) f o) := by
  unfold Wk0
  refine (shapeCast_apply _ shapeCasts_S1x128x128_S128x128 (ix2 f o) (ix3 (0 : Fin 1) f o) (by
    rewrite [Shape.rowMajor_val_three, Shape.rowMajor_val_two]
    show (0 * 128 + f.val) * 128 + o.val = f.val * 128 + o.val
    omega)).trans ?_
  exact extractStridedSlice_apply ![0, 0, 0] w slices_S4x128x128_S1x128x128_0_0_0 _ _
    (fun a => match a with
      | ⟨0, _⟩ => by show 0 = 0 + 0; omega
      | ⟨1, _⟩ => by show f.val = 0 + f.val; omega
      | ⟨2, _⟩ => by show o.val = 0 + o.val; omega)

theorem Wk1_apply (w : Vec F S4x128x128 .f32) (f o : Fin 128) : Wk1 w (ix2 f o) = w (ix3 (1 : Fin 4) f o) := by
  unfold Wk1
  refine (shapeCast_apply _ shapeCasts_S1x128x128_S128x128 (ix2 f o) (ix3 (0 : Fin 1) f o) (by
    rewrite [Shape.rowMajor_val_three, Shape.rowMajor_val_two]
    show (0 * 128 + f.val) * 128 + o.val = f.val * 128 + o.val
    omega)).trans ?_
  exact extractStridedSlice_apply ![1, 0, 0] w slices_S4x128x128_S1x128x128_1_0_0 _ _
    (fun a => match a with
      | ⟨0, _⟩ => by show 1 = 1 + 0; omega
      | ⟨1, _⟩ => by show f.val = 0 + f.val; omega
      | ⟨2, _⟩ => by show o.val = 0 + o.val; omega)

theorem Wk2_apply (w : Vec F S4x128x128 .f32) (f o : Fin 128) : Wk2 w (ix2 f o) = w (ix3 (2 : Fin 4) f o) := by
  unfold Wk2
  refine (shapeCast_apply _ shapeCasts_S1x128x128_S128x128 (ix2 f o) (ix3 (0 : Fin 1) f o) (by
    rewrite [Shape.rowMajor_val_three, Shape.rowMajor_val_two]
    show (0 * 128 + f.val) * 128 + o.val = f.val * 128 + o.val
    omega)).trans ?_
  exact extractStridedSlice_apply ![2, 0, 0] w slices_S4x128x128_S1x128x128_2_0_0 _ _
    (fun a => match a with
      | ⟨0, _⟩ => by show 2 = 2 + 0; omega
      | ⟨1, _⟩ => by show f.val = 0 + f.val; omega
      | ⟨2, _⟩ => by show o.val = 0 + o.val; omega)

theorem Wk3_apply (w : Vec F S4x128x128 .f32) (f o : Fin 128) : Wk3 w (ix2 f o) = w (ix3 (3 : Fin 4) f o) := by
  unfold Wk3
  refine (shapeCast_apply _ shapeCasts_S1x128x128_S128x128 (ix2 f o) (ix3 (0 : Fin 1) f o) (by
    rewrite [Shape.rowMajor_val_three, Shape.rowMajor_val_two]
    show (0 * 128 + f.val) * 128 + o.val = f.val * 128 + o.val
    omega)).trans ?_
  exact extractStridedSlice_apply ![3, 0, 0] w slices_S4x128x128_S1x128x128_3_0_0 _ _
    (fun a => match a with
      | ⟨0, _⟩ => by show 3 = 3 + 0; omega
      | ⟨1, _⟩ => by show f.val = 0 + f.val; omega
      | ⟨2, _⟩ => by show o.val = 0 + o.val; omega)

end GenericRead

/-- The single-precision pattern `0x40000000` is the real number two. -/
theorem ofBits_two_f32 : Ideal.ofBits .f32 0x40000000#32 = ((2 : ℝ) : EReal) := by
  simp [Ideal.ofBits, Ideal.ieee, -EReal.coe_mul]; norm_num

theorem WX_apply (w : Vec Ideal S4x128x128 .f32) (f o : Fin 128) :
    WX w (ix2 f o) = w (ix3 (0 : Fin 4) f o) - w (ix3 (2 : Fin 4) f o) := by
  show Wk0 w (ix2 f o) - Wk2 w (ix2 f o) = _
  rw [Wk0_apply, Wk2_apply]

theorem WL_apply (w : Vec Ideal S4x128x128 .f32) (f o : Fin 128) :
    WL w (ix2 f o) = (w (ix3 (1 : Fin 4) f o) + ((2 : ℝ) : EReal) * w (ix3 (2 : Fin 4) f o)) + w (ix3 (3 : Fin 4) f o) := by
  show (Wk1 w (ix2 f o) + Ideal.ofBits .f32 0x40000000#32 * Wk2 w (ix2 f o)) + Wk3 w (ix2 f o) = _
  rw [Wk1_apply, Wk2_apply, Wk3_apply, ofBits_two_f32]

/-! ### At the valuations between the items -/

section AtV
variable {F : FTy → Type} [FloatOps F]
variable (m : (ℓ : Loc nD τ sig) → Buf (Elt F) ℓ) (outs : Outs (F := F))

/-- No host operation before the second region writes the features. -/
theorem v9_arg0 (c : Dev nD) : V9 m outs c main_arg0 = m ((c : Thread nD τ).loc main_arg0) :=
  (V9_of m outs c main_arg0 (by decide)).trans <| (V8_of m outs c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl

/-- Nor the bias. -/
theorem v9_arg4 (c : Dev nD) : V9 m outs c main_arg4 = m ((c : Thread nD τ).loc main_arg4) :=
  (V9_of m outs c main_arg4 (by decide)).trans <| (V8_of m outs c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl

/-- Nor, before the last host stretch, the weights. -/
theorem v8_arg3 (c : Dev nD) : V8 m outs c main_arg3 = m ((c : Thread nD τ).loc main_arg3) :=
  (V8_of m outs c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-- What the first region leaves is what the last host stretch reads. -/
theorem v8_v57 (c : Dev nD) : V8 m outs c main_v57 = outs 8 main_v57 c := by
  show Function.update (V7 m c) (main_v57 : DevRef τ sig) (outs 8 main_v57 c) (main_v57 : DevRef τ sig) = _
  exact Function.update_self _ _ _

theorem v60_eq (c : Dev nD) (outs : Outs (F := F)) : V9 m outs c main_v60 = T60 (outs 8 main_v57 c) :=
  (ops1_v60 (V8 m outs c)).trans (congrArg T60 (v8_v57 m outs c))

theorem v65_eq (c : Dev nD) (outs : Outs (F := F)) : V9 m outs c main_v65 = WX (m ((c : Thread nD τ).loc main_arg3)) :=
  (ops1_v65 (V8 m outs c)).trans (congrArg WX (v8_arg3 m outs c))

theorem v75_eq (c : Dev nD) (outs : Outs (F := F)) : V9 m outs c main_v75 = WL (m ((c : Thread nD τ).loc main_arg3)) :=
  (ops1_v75 (V8 m outs c)).trans (congrArg WL (v8_arg3 m outs c))

end AtV

/-! ## Before the first region: the features -/

section GenericX
variable {F : FTy → Type} [FloatOps F]

/-- The features laid out one row per node — the four groups of `128` side by side —, `240` zero rows added
    below, in the narrow float format. -/
def X56 (x : Vec F S4x10000x128 .f32) : Vec F S10240x512 .bf16 :=
  truncf .bf16
    (pad S10240x512 ![0, 0] ![240, 0] ![0, 0]
      (shapeCast S10000x512 (transpose S10000x4x128 [1, 0, 2] x transposes_S4x10000x128_S10000x4x128_1_0_2)
        shapeCasts_S10000x4x128_S10000x512)
      (sitofp .f32 (constantI S_ 32 0#32) : Vec F S_ .f32) pads_S10000x512_S10240x512_02400_000 h_S_)
    bitsLt_bf16_f32

theorem ops04_v54 (V : Valuation τ sig (Elt F)) :
    after hostOps0_4 V (main_v54 : DevRef τ sig)
      = shapeCast S10000x512 (transpose S10000x4x128 [1, 0, 2] (V (main_arg0 : DevRef τ sig)) transposes_S4x10000x128_S10000x4x128_1_0_2)
          shapeCasts_S10000x4x128_S10000x512 := by
  after_results_simp <;> rfl

theorem ops04_c14 (V : Valuation τ sig (Elt F)) :
    after hostOps0_4 V (main_c_14 : DevRef τ sig) = constantI S_ 32 0#32 := by
  after_results_simp <;> rfl

theorem ops05_v55 (V : Valuation τ sig (Elt F)) :
    after hostOps0_5 V (main_v55 : DevRef τ sig)
      = pad S10240x512 ![0, 0] ![240, 0] ![0, 0] (V (main_v54 : DevRef τ sig))
          (sitofp .f32 (V (main_c_14 : DevRef τ sig)) : Vec F S_ .f32) pads_S10000x512_S10240x512_02400_000 h_S_ := by
  after_results_simp <;> rfl

theorem ops06_v56 (V : Valuation τ sig (Elt F)) :
    after hostOps0_6 V (main_v56 : DevRef τ sig) = truncf .bf16 (V (main_v55 : DevRef τ sig)) bitsLt_bf16_f32 := by
  after_results_simp <;> rfl

variable (m : (ℓ : Loc nD τ sig) → Buf (Elt F) ℓ)

theorem v4_arg0 (c : Dev nD) : V4 m c main_arg0 = m ((c : Thread nD τ).loc main_arg0) :=
  (V4_of m c main_arg0 (by decide)).trans <| (V3_of m c main_arg0 (by decide)).trans <| (V2_of m c main_arg0 (by decide)).trans <| (V1_of m c main_arg0 (by decide)).trans rfl

theorem v56_eq (c : Dev nD) : V7 m c main_v56 = X56 (m ((c : Thread nD τ).loc main_arg0)) := by
  refine (ops06_v56 (V6 m c)).trans ?_
  refine congrArg (truncf .bf16 · bitsLt_bf16_f32) ?_
  refine (ops05_v55 (V5 m c)).trans ?_
  refine congrArg₂ (fun (a : Vec F S10000x512 .f32) (b : IVec S_ 32) => pad S10240x512 ![0, 0] ![240, 0] ![0, 0] a
      (sitofp .f32 b : Vec F S_ .f32) pads_S10000x512_S10240x512_02400_000 h_S_) ?_ ?_
  · exact (ops04_v54 (V4 m c)).trans (by rw [v4_arg0])
  · exact ops04_c14 (V4 m c)

end GenericX

theorem X56_apply (x : Vec Ideal S4x10000x128 .f32) (k : Fin 10240) (j : Fin 512) :
    X56 x (ix2 k j)
      = if h : k.val < 10000 then
          x (ix3 (⟨j.val / 128, by omega⟩ : Fin 4) (⟨k.val, h⟩ : Fin 10000) (⟨j.val % 128, by omega⟩ : Fin 128))
        else 0 := by
  show pad (s := S10000x512) S10240x512 ![0, 0] ![240, 0] ![0, 0] _ (u := S_) _ pads_S10000x512_S10240x512_02400_000 h_S_ (ix2 k j) = _
  by_cases h : k.val < 10000
  · rw [dif_pos h]
    refine (pad_apply_of_inside ![0, 0] ![240, 0] ![0, 0] _ _ pads_S10000x512_S10240x512_02400_000 h_S_ (ix2 k j)
      (ix2 (⟨k.val, h⟩ : Fin 10000) j) (fun a => match a with
        | ⟨0, _⟩ => by show k.val = 0 + k.val * (0 + 1); omega
        | ⟨1, _⟩ => by show j.val = 0 + j.val * (0 + 1); omega)).trans ?_
    refine (shapeCast_apply _ shapeCasts_S10000x4x128_S10000x512 (ix2 (⟨k.val, h⟩ : Fin 10000) j)
      (ix3 (⟨k.val, h⟩ : Fin 10000) (⟨j.val / 128, by omega⟩ : Fin 4) (⟨j.val % 128, by omega⟩ : Fin 128)) (by
        rewrite [Shape.rowMajor_val_three, Shape.rowMajor_val_two]
        show (k.val * 4 + j.val / 128) * 128 + j.val % 128 = k.val * 512 + j.val
        omega)).trans ?_
    exact transpose_apply [1, 0, 2] x transposes_S4x10000x128_S10000x4x128_1_0_2 _ _
      (fun a => match a with | ⟨0, _⟩ => rfl | ⟨1, _⟩ => rfl | ⟨2, _⟩ => rfl)
  · rw [dif_neg h]
    refine (pad_apply_of_not_inside (s := S10000x512) (t := S10240x512) ![0, 0] ![240, 0] ![0, 0] _ _ pads_S10000x512_S10240x512_02400_000 h_S_ (ix2 k j)
      (0 : Fin 2) (by
        show ¬(0 ≤ k.val ∧ (k.val - 0) % (0 + 1) = 0 ∧ (k.val - 0) / (0 + 1) < 10000)
        omega)).trans ?_
    show (((0#32 : BitVec 32).toInt : ℝ) : EReal) = 0
    simp

/-! ## Before the first region: the Laplacian -/

section GenericL
variable {F : FTy → Type} [FloatOps F]

/-- The source-node row of the edge list. -/
def row (ei : Vec F S2x160000 .i32) : Vec F S160000 .i32 :=
  shapeCast S160000 (extractStridedSlice S1x160000 ![0, 0] ei slices_S2x160000_S1x160000_0_0) shapeCasts_S1x160000_S160000

/-- The target-node row of the edge list. -/
def col (ei : Vec F S2x160000 .i32) : Vec F S160000 .i32 :=
  shapeCast S160000 (extractStridedSlice S1x160000 ![1, 0] ei slices_S2x160000_S1x160000_1_0) shapeCasts_S1x160000_S160000

/-- Each node's degree: the sum of the weights of the edges it is the source of. -/
def degree (ei : Vec F S2x160000 .i32) (ew : Vec F S160000 .f32) : Vec F S10000 .f32 :=
  Host.scatterAdd scatter_S10000_S160000x1_S160000_n_0_0_1
    (broadcastInDim S10000 ![] bcast_S_S10000 (constant (F := F) S_ .f32 0x00000000#32))
    (broadcastInDim S160000x1 ![0] bcast_S160000_S160000x1_0 (row ei)) ew

/-- Where the degree is positive. -/
def positive (ei : Vec F S2x160000 .i32) (ew : Vec F S160000 .f32) : Vec F S10000 .i1 :=
  cmpf .ogt (degree ei ew) (broadcastInDim S10000 ![] bcast_S_S10000 (constant (F := F) S_ .f32 0x00000000#32))

/-- The degree, one where it is not positive. -/
def degSafe (ei : Vec F S2x160000 .i32) (ew : Vec F S160000 .f32) : Vec F S10000 .f32 :=
  select (positive ei ew) (degree ei ew) (broadcastInDim S10000 ![] bcast_S_S10000 (id (constant (F := F) S_ .f32 0x3F800000#32)))

/-- The inverse square root of the degree, zero where the degree is not positive. -/
def dinv (ei : Vec F S2x160000 .i32) (ew : Vec F S160000 .f32) : Vec F S10000 .f32 :=
  select (positive ei ew)
    (Host.powf (degSafe ei ew) (broadcastInDim S10000 ![] bcast_S_S10000 (constant (F := F) S_ .f32 0xBF000000#32)))
    (broadcastInDim S10000 ![] bcast_S_S10000 (id (constant (F := F) S_ .f32 0x00000000#32)))

/-- A node number read the way an array index is: a negative one counted from the end. -/
def wrap160 (r : Vec F S160000 .i32) : Vec F S160000 .i32 :=
  select (cmpi .slt r (broadcastInDim S160000 ![] bcast_S_S160000 (constantI S_ 32 0#32)))
    (addi r (broadcastInDim S160000 ![] bcast_S_S160000 (constantI S_ 32 10000#32))) r

/-- The entries of a per-node vector at the nodes a list names. -/
def takeAt (d : Vec F S10000 .f32) (r : Vec F S160000 .i32) : Vec F S160000 .f32 :=
  Host.gather gather_S10000_S160000x1_S160000_n_0_n_n_0_1_1 d
    (broadcastInDim S160000x1 ![0] bcast_S160000_S160000x1_0 (wrap160 r))

/-- The off-diagonal weights of the normalised Laplacian, one per edge: minus the edge weight scaled at both ends. -/
def lapF (r c : Vec F S160000 .i32) (d : Vec F S10000 .f32) (ew : Vec F S160000 .f32) : Vec F S160000 .f32 :=
  mulf (mulf (Host.negf (takeAt d r)) ew) (takeAt d c)

/-- A list of edge ends followed by every node once (the self loops). -/
def withLoops (r : Vec F S160000 .i32) : Vec F S170000 .i32 :=
  concatenate S170000 0 [⟨S160000, r⟩, ⟨S10000, (iotaInDim S10000 32 0 : Vec F S10000 .i32)⟩] concatenates_S160000_S10000_S170000_d0

/-- The edge weights followed by the self loops' weight, all doubled. -/
def lap2F (l : Vec F S160000 .f32) : Vec F S170000 .f32 :=
  mulf (concatenate S170000 0 [⟨S160000, l⟩,
      ⟨S10000, broadcastInDim S10000 ![] bcast_S_S10000 (constant (F := F) S_ .f32 0xBD4CCCCD#32)⟩] concatenates_S160000_S10000_S170000_d0)
    (broadcastInDim S170000 ![] bcast_S_S170000 (constant (F := F) S_ .f32 0x40000000#32))

/-- A row or column number of the padded matrix read the way an array index is. -/
def wrap170 (r : Vec F S170000 .i32) : Vec F S170000 .i32 :=
  select (cmpi .slt r (broadcastInDim S170000 ![] bcast_S_S170000 (constantI S_ 32 0#32)))
    (addi r (broadcastInDim S170000 ![] bcast_S_S170000 (constantI S_ 32 10240#32))) r

/-- The two index columns side by side: one (row, column) pair per entry to add. -/
def idx2F (r2 c2 : Vec F S170000 .i32) : Vec F S170000x2 .i32 :=
  concatenate S170000x2 1 [⟨S170000x1, broadcastInDim S170000x1 ![0] bcast_S170000_S170000x1_0 (wrap170 r2)⟩,
    ⟨S170000x1, broadcastInDim S170000x1 ![0] bcast_S170000_S170000x1_0 (wrap170 c2)⟩] concatenates_S170000x1_S170000x1_S170000x2_d1

/-- The entries added into the zero matrix at their index pairs, in the narrow float format. -/
def L52F (i2 : Vec F S170000x2 .i32) (l2 : Vec F S170000 .f32) : Vec F S10240x10240 .bf16 :=
  truncf .bf16
    (Host.scatterAdd scatter_S10240x10240_S170000x2_S170000_n_01_01_1
      (broadcastInDim S10240x10240 ![] bcast_S_S10240x10240 (constant (F := F) S_ .f32 0x00000000#32)) i2 l2)
    bitsLt_bf16_f32

/-- The sources of the edges and of the self loops. -/
def row2 (ei : Vec F S2x160000 .i32) : Vec F S170000 .i32 := withLoops (row ei)
/-- The targets of the edges and of the self loops. -/
def col2 (ei : Vec F S2x160000 .i32) : Vec F S170000 .i32 := withLoops (col ei)
/-- The doubled weights of the edges and of the self loops. -/
def lap2 (ei : Vec F S2x160000 .i32) (ew : Vec F S160000 .f32) : Vec F S170000 .f32 :=
  lap2F (lapF (row ei) (col ei) (dinv ei ew) ew)
/-- The index pairs of the entries. -/
def idx2 (ei : Vec F S2x160000 .i32) : Vec F S170000x2 .i32 := idx2F (row2 ei) (col2 ei)
/-- The padded matrix the first region multiplies by. -/
def L52 (ei : Vec F S2x160000 .i32) (ew : Vec F S160000 .f32) : Vec F S10240x10240 .bf16 := L52F (idx2 ei) (lap2 ei ew)

/-! ### The first four stretches -/

theorem ops0_v1 (V : Valuation τ sig (Elt F)) : after hostOps0 V (main_v1 : DevRef τ sig) = row (V (main_arg1 : DevRef τ sig)) := by
  after_results_simp <;> rfl
theorem ops0_v3 (V : Valuation τ sig (Elt F)) : after hostOps0 V (main_v3 : DevRef τ sig) = col (V (main_arg1 : DevRef τ sig)) := by
  after_results_simp <;> rfl
theorem ops0_v6 (V : Valuation τ sig (Elt F)) :
    after hostOps0 V (main_v6 : DevRef τ sig) = degree (V (main_arg1 : DevRef τ sig)) (V (main_arg2 : DevRef τ sig)) := by
  after_results_simp <;> rfl
theorem ops0_v8 (V : Valuation τ sig (Elt F)) :
    after hostOps0 V (main_v8 : DevRef τ sig) = positive (V (main_arg1 : DevRef τ sig)) (V (main_arg2 : DevRef τ sig)) := by
  after_results_simp <;> rfl
theorem ops0_cst1 (V : Valuation τ sig (Elt F)) :
    after hostOps0 V (main_cst_1 : DevRef τ sig) = constant (F := F) S_ .f32 0x3F800000#32 := by
  after_results_simp <;> rfl
theorem ops01_v9 (V : Valuation τ sig (Elt F)) :
    after hostOps0_1 V (main_v9 : DevRef τ sig)
      = select (V (main_v8 : DevRef τ sig)) (V (main_v6 : DevRef τ sig))
          (broadcastInDim S10000 ![] bcast_S_S10000 (id (V (main_cst_1 : DevRef τ sig)))) := by
  after_results_simp <;> rfl
theorem ops02_v11 (V : Valuation τ sig (Elt F)) :
    after hostOps0_2 V (main_v11 : DevRef τ sig)
      = Host.powf (V (main_v9 : DevRef τ sig)) (broadcastInDim S10000 ![] bcast_S_S10000 (constant (F := F) S_ .f32 0xBF000000#32)) := by
  after_results_simp <;> rfl
theorem ops02_cst3 (V : Valuation τ sig (Elt F)) :
    after hostOps0_2 V (main_cst_3 : DevRef τ sig) = constant (F := F) S_ .f32 0x00000000#32 := by
  after_results_simp <;> rfl
theorem ops03_v12 (V : Valuation τ sig (Elt F)) :
    after hostOps0_3 V (main_v12 : DevRef τ sig)
      = select (V (main_v8 : DevRef τ sig)) (V (main_v11 : DevRef τ sig))
          (broadcastInDim S10000 ![] bcast_S_S10000 (id (V (main_cst_3 : DevRef τ sig)))) := by
  after_results_simp <;> rfl

/-! ### The fifth stretch, cut before each joining of computed lists -/

/-- The fourth stretch up to the edge weights of the normalised Laplacian and the node numbering. -/
abbrev opsA : List (HloOp τ sig (Elt F)) :=
  ( StableHlo.nullary main_c (constantI S_ 32 0#32)
  :: StableHlo.unary main_c main_v13 (broadcastInDim S160000 ![] bcast_S_S160000 : (⟨S_, .i32⟩ : BufTy).Contents (Elt F) → (⟨S160000, .i32⟩ : BufTy).Contents (Elt F))
  :: StableHlo.binary main_v1 main_v13 main_v14 (cmpi .slt : (⟨S160000, .i32⟩ : BufTy).Contents (Elt F) → (⟨S160000, .i32⟩ : BufTy).Contents (Elt F) → (⟨S160000, .i1⟩ : BufTy).Contents (Elt F))
  :: StableHlo.nullary main_c_4 (constantI S_ 32 10000#32)
  :: StableHlo.unary main_c_4 main_v15 (broadcastInDim S160000 ![] bcast_S_S160000 : (⟨S_, .i32⟩ : BufTy).Contents (Elt F) → (⟨S160000, .i32⟩ : BufTy).Contents (Elt F))
  :: StableHlo.binary main_v1 main_v15 main_v16 (addi : (⟨S160000, .i32⟩ : BufTy).Contents (Elt F) → (⟨S160000, .i32⟩ : BufTy).Contents (Elt F) → (⟨S160000, .i32⟩ : BufTy).Contents (Elt F))
  :: StableHlo.ternary main_v14 main_v16 main_v1 main_v17 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
  :: StableHlo.unary main_v17 main_v18 (broadcastInDim S160000x1 ![0] bcast_S160000_S160000x1_0 : (⟨S160000, .i32⟩ : BufTy).Contents (Elt F) → (⟨S160000x1, .i32⟩ : BufTy).Contents (Elt F))
  :: StableHlo.binary main_v12 main_v18 main_v19 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F))
  :: StableHlo.unary main_v19 main_v20 (Host.negf : (⟨S160000, .f32⟩ : BufTy).Contents (Elt F) → (⟨S160000, .f32⟩ : BufTy).Contents (Elt F))
  :: StableHlo.binary main_v20 main_arg2 main_v21 (mulf : (⟨S160000, .f32⟩ : BufTy).Contents (Elt F) → (⟨S160000, .f32⟩ : BufTy).Contents (Elt F) → (⟨S160000, .f32⟩ : BufTy).Contents (Elt F))
  :: StableHlo.nullary main_c_5 (constantI S_ 32 0#32)
  :: StableHlo.unary main_c_5 main_v22 (broadcastInDim S160000 ![] bcast_S_S160000 : (⟨S_, .i32⟩ : BufTy).Contents (Elt F) → (⟨S160000, .i32⟩ : BufTy).Contents (Elt F))
  :: StableHlo.binary main_v3 main_v22 main_v23 (cmpi .slt : (⟨S160000, .i32⟩ : BufTy).Contents (Elt F) → (⟨S160000, .i32⟩ : BufTy).Contents (Elt F) → (⟨S160000, .i1⟩ : BufTy).Contents (Elt F))
  :: StableHlo.nullary main_c_6 (constantI S_ 32 10000#32)
  :: StableHlo.unary main_c_6 main_v24 (broadcastInDim S160000 ![] bcast_S_S160000 : (⟨S_, .i32⟩ : BufTy).Contents (Elt F) → (⟨S160000, .i32⟩ : BufTy).Contents (Elt F))
  :: StableHlo.binary main_v3 main_v24 main_v25 (addi : (⟨S160000, .i32⟩ : BufTy).Contents (Elt F) → (⟨S160000, .i32⟩ : BufTy).Contents (Elt F) → (⟨S160000, .i32⟩ : BufTy).Contents (Elt F))
  :: StableHlo.ternary main_v23 main_v25 main_v3 main_v26 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
  :: StableHlo.unary main_v26 main_v27 (broadcastInDim S160000x1 ![0] bcast_S160000_S160000x1_0 : (⟨S160000, .i32⟩ : BufTy).Contents (Elt F) → (⟨S160000x1, .i32⟩ : BufTy).Contents (Elt F))
  :: StableHlo.binary main_v12 main_v27 main_v28 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F))
  :: StableHlo.binary main_v21 main_v28 main_v29 (mulf : (⟨S160000, .f32⟩ : BufTy).Contents (Elt F) → (⟨S160000, .f32⟩ : BufTy).Contents (Elt F) → (⟨S160000, .f32⟩ : BufTy).Contents (Elt F))
  :: StableHlo.nullary main_v30 (iotaInDim S10000 32 0)
  :: [] )

/-- The edge lists extended by the self loops, and the self-loop weight. -/
abbrev opsB : List (HloOp τ sig (Elt F)) :=
  ( StableHlo.binary main_v1 main_v30 main_v31 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F))
  :: StableHlo.binary main_v3 main_v30 main_v32 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F))
  :: StableHlo.nullary main_cst_7 (constant S_ .f32 0xBD4CCCCD#32)
  :: StableHlo.unary main_cst_7 main_v33 (broadcastInDim S10000 ![] bcast_S_S10000 : (⟨S_, .f32⟩ : BufTy).Contents (Elt F) → (⟨S10000, .f32⟩ : BufTy).Contents (Elt F))
  :: [] )

/-- The doubled weights, the zero matrix, and the two index columns. -/
abbrev opsC : List (HloOp τ sig (Elt F)) :=
  ( StableHlo.binary main_v29 main_v33 main_v34 ((fun a b => concatenate S170000 0 [⟨S160000, a⟩, ⟨S10000, b⟩] concatenates_S160000_S10000_S170000_d0) : (⟨S160000, .f32⟩ : BufTy).Contents (Elt F) → (⟨S10000, .f32⟩ : BufTy).Contents (Elt F) → (⟨S170000, .f32⟩ : BufTy).Contents (Elt F))
  :: StableHlo.nullary main_cst_8 (constant S_ .f32 0x40000000#32)
  :: StableHlo.unary main_cst_8 main_v35 (broadcastInDim S170000 ![] bcast_S_S170000 : (⟨S_, .f32⟩ : BufTy).Contents (Elt F) → (⟨S170000, .f32⟩ : BufTy).Contents (Elt F))
  :: StableHlo.binary main_v34 main_v35 main_v36 (mulf : (⟨S170000, .f32⟩ : BufTy).Contents (Elt F) → (⟨S170000, .f32⟩ : BufTy).Contents (Elt F) → (⟨S170000, .f32⟩ : BufTy).Contents (Elt F))
  :: StableHlo.nullary main_cst_9 (constant S_ .f32 0x00000000#32)
  :: StableHlo.unary main_cst_9 main_v37 (broadcastInDim S10240x10240 ![] bcast_S_S10240x10240 : (⟨S_, .f32⟩ : BufTy).Contents (Elt F) → (⟨S10240x10240, .f32⟩ : BufTy).Contents (Elt F))
  :: StableHlo.nullary main_c_10 (constantI S_ 32 0#32)
  :: StableHlo.unary main_c_10 main_v38 (broadcastInDim S170000 ![] bcast_S_S170000 : (⟨S_, .i32⟩ : BufTy).Contents (Elt F) → (⟨S170000, .i32⟩ : BufTy).Contents (Elt F))
  :: StableHlo.binary main_v31 main_v38 main_v39 (cmpi .slt : (⟨S170000, .i32⟩ : BufTy).Contents (Elt F) → (⟨S170000, .i32⟩ : BufTy).Contents (Elt F) → (⟨S170000, .i1⟩ : BufTy).Contents (Elt F))
  :: StableHlo.nullary main_c_11 (constantI S_ 32 10240#32)
  :: StableHlo.unary main_c_11 main_v40 (broadcastInDim S170000 ![] bcast_S_S170000 : (⟨S_, .i32⟩ : BufTy).Contents (Elt F) → (⟨S170000, .i32⟩ : BufTy).Contents (Elt F))
  :: StableHlo.binary main_v31 main_v40 main_v41 (addi : (⟨S170000, .i32⟩ : BufTy).Contents (Elt F) → (⟨S170000, .i32⟩ : BufTy).Contents (Elt F) → (⟨S170000, .i32⟩ : BufTy).Contents (Elt F))
  :: StableHlo.ternary main_v39 main_v41 main_v31 main_v42 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F))
  :: StableHlo.nullary main_c_12 (constantI S_ 32 0#32)
  :: StableHlo.unary main_c_12 main_v43 (broadcastInDim S170000 ![] bcast_S_S170000 : (⟨S_, .i32⟩ : BufTy).Contents (Elt F) → (⟨S170000, .i32⟩ : BufTy).Contents (Elt F))
  :: StableHlo.binary main_v32 main_v43 main_v44 (cmpi .slt : (⟨S170000, .i32⟩ : BufTy).Contents (Elt F) → (⟨S170000, .i32⟩ : BufTy).Contents (Elt F) → (⟨S170000, .i1⟩ : BufTy).Contents (Elt F))
  :: StableHlo.nullary main_c_13 (constantI S_ 32 10240#32)
  :: StableHlo.unary main_c_13 main_v45 (broadcastInDim S170000 ![] bcast_S_S170000 : (⟨S_, .i32⟩ : BufTy).Contents (Elt F) → (⟨S170000, .i32⟩ : BufTy).Contents (Elt F))
  :: StableHlo.binary main_v32 main_v45 main_v46 (addi : (⟨S170000, .i32⟩ : BufTy).Contents (Elt F) → (⟨S170000, .i32⟩ : BufTy).Contents (Elt F) → (⟨S170000, .i32⟩ : BufTy).Contents (Elt F))
  :: StableHlo.ternary main_v44 main_v46 main_v32 main_v47 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F))
  :: StableHlo.unary main_v42 main_v48 (broadcastInDim S170000x1 ![0] bcast_S170000_S170000x1_0 : (⟨S170000, .i32⟩ : BufTy).Contents (Elt F) → (⟨S170000x1, .i32⟩ : BufTy).Contents (Elt F))
  :: StableHlo.unary main_v47 main_v49 (broadcastInDim S170000x1 ![0] bcast_S170000_S170000x1_0 : (⟨S170000, .i32⟩ : BufTy).Contents (Elt F) → (⟨S170000x1, .i32⟩ : BufTy).Contents (Elt F))
  :: [] )

/-- The scatter into the matrix, its rounding, and the features laid out one row per node. -/
abbrev opsD : List (HloOp τ sig (Elt F)) :=
  ( StableHlo.binary main_v48 main_v49 main_v50 ((fun a b => concatenate S170000x2 1 [⟨S170000x1, a⟩, ⟨S170000x1, b⟩] concatenates_S170000x1_S170000x1_S170000x2_d1) : (⟨S170000x1, .i32⟩ : BufTy).Contents (Elt F) → (⟨S170000x1, .i32⟩ : BufTy).Contents (Elt F) → (⟨S170000x2, .i32⟩ : BufTy).Contents (Elt F))
  :: StableHlo.ternary main_v37 main_v50 main_v36 main_v51 ((fun x i u => Host.scatterAdd scatter_S10240x10240_S170000x2_S170000_n_01_01_1 x i u) : (⟨S10240x10240, .f32⟩ : BufTy).Contents (Elt F) → (⟨S170000x2, .i32⟩ : BufTy).Contents (Elt F) → (⟨S170000, .f32⟩ : BufTy).Contents (Elt F) → (⟨S10240x10240, .f32⟩ : BufTy).Contents (Elt F))
  :: StableHlo.unary main_v51 main_v52 ((truncf .bf16 · bitsLt_bf16_f32) : (⟨S10240x10240, .f32⟩ : BufTy).Contents (Elt F) → (⟨S10240x10240, .bf16⟩ : BufTy).Contents (Elt F))
  :: StableHlo.unary main_arg0 main_v53 ((transpose S10000x4x128 [1, 0, 2] · transposes_S4x10000x128_S10000x4x128_1_0_2) : (⟨S4x10000x128, .f32⟩ : BufTy).Contents (Elt F) → (⟨S10000x4x128, .f32⟩ : BufTy).Contents (Elt F))
  :: StableHlo.reshape main_v53 main_v54 rfl shapeCasts_S10000x4x128_S10000x512
  :: StableHlo.nullary main_c_14 (constantI S_ 32 0#32)
  :: [] )

theorem hostOps0_4_split : (hostOps0_4 : List (HloOp τ sig (Elt F))) = opsA ++ (opsB ++ (opsC ++ opsD)) := rfl

theorem after04 (V : Valuation τ sig (Elt F)) :
    after hostOps0_4 V = after opsD (after opsC (after opsB (after opsA V))) := by
  rw [hostOps0_4_split, StableHlo.after_append, StableHlo.after_append, StableHlo.after_append]

theorem A_v29 (V : Valuation τ sig (Elt F)) :
    after opsA V (main_v29 : DevRef τ sig)
      = lapF (V (main_v1 : DevRef τ sig)) (V (main_v3 : DevRef τ sig)) (V (main_v12 : DevRef τ sig)) (V (main_arg2 : DevRef τ sig)) := by
  after_results_simp <;> rfl
theorem A_v30 (V : Valuation τ sig (Elt F)) : after opsA V (main_v30 : DevRef τ sig) = (iotaInDim S10000 32 0 : Vec F S10000 .i32) := by
  after_results_simp <;> rfl
theorem A_v1 (V : Valuation τ sig (Elt F)) : after opsA V (main_v1 : DevRef τ sig) = V (main_v1 : DevRef τ sig) := by
  after_results_simp
theorem A_v3 (V : Valuation τ sig (Elt F)) : after opsA V (main_v3 : DevRef τ sig) = V (main_v3 : DevRef τ sig) := by
  after_results_simp

theorem B_v31 (V : Valuation τ sig (Elt F)) :
    after opsB V (main_v31 : DevRef τ sig)
      = concatenate S170000 0 [⟨S160000, V (main_v1 : DevRef τ sig)⟩, ⟨S10000, V (main_v30 : DevRef τ sig)⟩] concatenates_S160000_S10000_S170000_d0 := by
  after_results_simp <;> rfl
theorem B_v32 (V : Valuation τ sig (Elt F)) :
    after opsB V (main_v32 : DevRef τ sig)
      = concatenate S170000 0 [⟨S160000, V (main_v3 : DevRef τ sig)⟩, ⟨S10000, V (main_v30 : DevRef τ sig)⟩] concatenates_S160000_S10000_S170000_d0 := by
  after_results_simp <;> rfl
theorem B_v33 (V : Valuation τ sig (Elt F)) :
    after opsB V (main_v33 : DevRef τ sig) = broadcastInDim S10000 ![] bcast_S_S10000 (constant (F := F) S_ .f32 0xBD4CCCCD#32) := by
  after_results_simp <;> rfl
theorem B_v29 (V : Valuation τ sig (Elt F)) : after opsB V (main_v29 : DevRef τ sig) = V (main_v29 : DevRef τ sig) := by
  after_results_simp

theorem C_v36 (V : Valuation τ sig (Elt F)) :
    after opsC V (main_v36 : DevRef τ sig)
      = mulf (concatenate S170000 0 [⟨S160000, V (main_v29 : DevRef τ sig)⟩, ⟨S10000, V (main_v33 : DevRef τ sig)⟩] concatenates_S160000_S10000_S170000_d0)
          (broadcastInDim S170000 ![] bcast_S_S170000 (constant (F := F) S_ .f32 0x40000000#32)) := by
  after_results_simp <;> rfl
theorem C_v37 (V : Valuation τ sig (Elt F)) :
    after opsC V (main_v37 : DevRef τ sig)
      = broadcastInDim S10240x10240 ![] bcast_S_S10240x10240 (constant (F := F) S_ .f32 0x00000000#32) := by
  after_results_simp <;> rfl
theorem C_v48 (V : Valuation τ sig (Elt F)) :
    after opsC V (main_v48 : DevRef τ sig)
      = broadcastInDim S170000x1 ![0] bcast_S170000_S170000x1_0 (wrap170 (V (main_v31 : DevRef τ sig))) := by
  after_results_simp <;> rfl
theorem C_v49 (V : Valuation τ sig (Elt F)) :
    after opsC V (main_v49 : DevRef τ sig)
      = broadcastInDim S170000x1 ![0] bcast_S170000_S170000x1_0 (wrap170 (V (main_v32 : DevRef τ sig))) := by
  after_results_simp <;> rfl

theorem D_v52 (V : Valuation τ sig (Elt F)) :
    after opsD V (main_v52 : DevRef τ sig)
      = truncf .bf16
          (Host.scatterAdd scatter_S10240x10240_S170000x2_S170000_n_01_01_1 (V (main_v37 : DevRef τ sig))
            (concatenate S170000x2 1 [⟨S170000x1, V (main_v48 : DevRef τ sig)⟩, ⟨S170000x1, V (main_v49 : DevRef τ sig)⟩] concatenates_S170000x1_S170000x1_S170000x2_d1)
            (V (main_v36 : DevRef τ sig)))
          bitsLt_bf16_f32 := by
  after_results_simp <;> rfl

/-- The fifth stretch's matrix from the four arrays it reads. -/
theorem ops04_v52 (V : Valuation τ sig (Elt F)) :
    after hostOps0_4 V (main_v52 : DevRef τ sig)
      = L52F (idx2F (withLoops (V (main_v1 : DevRef τ sig))) (withLoops (V (main_v3 : DevRef τ sig))))
          (lap2F (lapF (V (main_v1 : DevRef τ sig)) (V (main_v3 : DevRef τ sig)) (V (main_v12 : DevRef τ sig)) (V (main_arg2 : DevRef τ sig)))) := by
  rw [after04, D_v52, C_v37, C_v48, C_v49, C_v36, B_v31, B_v32, B_v29, B_v33, A_v29, A_v30, A_v1, A_v3]
  rfl

/-! ### At the valuations between the items -/

variable (m : (ℓ : Loc nD τ sig) → Buf (Elt F) ℓ)

theorem v4_v1 (c : Dev nD) : V4 m c main_v1 = row (m ((c : Thread nD τ).loc main_arg1)) :=
  (V4_of m c main_v1 (by decide)).trans <| (V3_of m c main_v1 (by decide)).trans <| (V2_of m c main_v1 (by decide)).trans <| (ops0_v1 (V0 m c)).trans rfl
theorem v4_v3 (c : Dev nD) : V4 m c main_v3 = col (m ((c : Thread nD τ).loc main_arg1)) :=
  (V4_of m c main_v3 (by decide)).trans <| (V3_of m c main_v3 (by decide)).trans <| (V2_of m c main_v3 (by decide)).trans <| (ops0_v3 (V0 m c)).trans rfl
theorem v4_arg2 (c : Dev nD) : V4 m c main_arg2 = m ((c : Thread nD τ).loc main_arg2) :=
  (V4_of m c main_arg2 (by decide)).trans <| (V3_of m c main_arg2 (by decide)).trans <| (V2_of m c main_arg2 (by decide)).trans <| (V1_of m c main_arg2 (by decide)).trans rfl
theorem v1_v8 (c : Dev nD) :
    V1 m c main_v8 = positive (m ((c : Thread nD τ).loc main_arg1)) (m ((c : Thread nD τ).loc main_arg2)) := ops0_v8 (V0 m c)
theorem v1_v6 (c : Dev nD) :
    V1 m c main_v6 = degree (m ((c : Thread nD τ).loc main_arg1)) (m ((c : Thread nD τ).loc main_arg2)) := ops0_v6 (V0 m c)
theorem v1_cst1 (c : Dev nD) : V1 m c main_cst_1 = constant (F := F) S_ .f32 0x3F800000#32 := ops0_cst1 (V0 m c)
theorem v2_v9 (c : Dev nD) :
    V2 m c main_v9 = degSafe (m ((c : Thread nD τ).loc main_arg1)) (m ((c : Thread nD τ).loc main_arg2)) :=
  (ops01_v9 (V1 m c)).trans (by rw [v1_v8, v1_v6, v1_cst1]; rfl)
theorem v3_v8 (c : Dev nD) :
    V3 m c main_v8 = positive (m ((c : Thread nD τ).loc main_arg1)) (m ((c : Thread nD τ).loc main_arg2)) :=
  (V3_of m c main_v8 (by decide)).trans <| (V2_of m c main_v8 (by decide)).trans (v1_v8 m c)
theorem v3_v11 (c : Dev nD) :
    V3 m c main_v11 = Host.powf (degSafe (m ((c : Thread nD τ).loc main_arg1)) (m ((c : Thread nD τ).loc main_arg2)))
      (broadcastInDim S10000 ![] bcast_S_S10000 (constant (F := F) S_ .f32 0xBF000000#32)) :=
  (ops02_v11 (V2 m c)).trans (by rw [v2_v9])
theorem v3_cst3 (c : Dev nD) : V3 m c main_cst_3 = constant (F := F) S_ .f32 0x00000000#32 := ops02_cst3 (V2 m c)
theorem v4_v12 (c : Dev nD) :
    V4 m c main_v12 = dinv (m ((c : Thread nD τ).loc main_arg1)) (m ((c : Thread nD τ).loc main_arg2)) :=
  (ops03_v12 (V3 m c)).trans (by rw [v3_v8, v3_v11, v3_cst3]; rfl)

/-- The matrix the first region is entered with. -/
theorem v52_eq (c : Dev nD) :
    V7 m c main_v52 = L52 (m ((c : Thread nD τ).loc main_arg1)) (m ((c : Thread nD τ).loc main_arg2)) :=
  (V7_of m c main_v52 (by decide)).trans <| (V6_of m c main_v52 (by decide)).trans <|
    (ops04_v52 (V4 m c)).trans (by rw [v4_v1, v4_v3, v4_v12, v4_arg2]; rfl)

end GenericL

/-! ### The matrix read at an entry -/

/-- A 32-bit word holding a number below 10000 is not negative read signed, so reading it as an array index changes nothing. -/
theorem wrap_word (n : Nat) (hn : n < 10000) :
    Scalar.select (IntOp.cmpi .slt (BitVec.ofNat 32 n) 0#32) (IntOp.addi (BitVec.ofNat 32 n) 10240#32) (BitVec.ofNat 32 n)
      = BitVec.ofNat 32 n := by
  have hs : (BitVec.ofNat 32 n).slt 0#32 = false := by
    have ht : (BitVec.ofNat 32 n).toInt = (n : Int) := by
      rw [BitVec.toInt_ofNat']
      exact Int.bmod_eq_of_le_mul_two (by omega) (by omega)
    simp [BitVec.slt, ht]
  have hc : IntOp.cmpi .slt (BitVec.ofNat 32 n) 0#32 = 0#1 := by
    show BitVec.ofBool ((BitVec.ofNat 32 n).slt 0#32) = 0#1
    rw [hs]; rfl
  rw [hc]
  exact if_neg (by decide)

section ReadL
variable {F : FTy → Type} [FloatOps F]

theorem wrap170_small (r : Vec F S170000 .i32) (e : Fin 170000) (n : Nat) (hn : n < 10000)
    (h : r (ix1 e) = BitVec.ofNat 32 n) : wrap170 r (ix1 e) = BitVec.ofNat 32 n := by
  show Scalar.select (IntOp.cmpi .slt (r (ix1 e)) 0#32) (IntOp.addi (r (ix1 e)) 10240#32) (r (ix1 e)) = _
  rw [h]
  exact wrap_word n hn

/-- The first index column holds the row numbers. -/
theorem idx2F_col0 (r2 c2 : Vec F S170000 .i32) (e : Fin 170000) (n : Nat) (hn : n < 10000)
    (h : r2 (ix1 e) = BitVec.ofNat 32 n) : idx2F r2 c2 (ix2 e (0 : Fin 2)) = BitVec.ofNat 32 n := by
  unfold idx2F
  refine (concatenate_pair_apply_left (t := S170000x2) (s₁ := S170000x1) (s₂ := S170000x1) (1 : Fin 2) _ _ concatenates_S170000x1_S170000x1_S170000x2_d1 (ix2 e (0 : Fin 2)) rfl
    (ix2 e (0 : Fin 1)) (fun b => match b with | ⟨0, _⟩ => rfl | ⟨1, _⟩ => rfl)).trans ?_
  refine (broadcastInDim_apply _ bcast_S170000_S170000x1_0 _ (ix2 e (0 : Fin 1)) (ix1 e) (fun a => match a with
    | ⟨0, _⟩ => by show e.val = if (170000 : Nat) = 1 then 0 else e.val; rw [if_neg (by decide)])).trans ?_
  exact wrap170_small r2 e n hn h

/-- The second index column holds the column numbers. -/
theorem idx2F_col1 (r2 c2 : Vec F S170000 .i32) (e : Fin 170000) (n : Nat) (hn : n < 10000)
    (h : c2 (ix1 e) = BitVec.ofNat 32 n) : idx2F r2 c2 (ix2 e (1 : Fin 2)) = BitVec.ofNat 32 n := by
  unfold idx2F
  refine (concatenate_pair_apply_right (t := S170000x2) (s₁ := S170000x1) (s₂ := S170000x1) (1 : Fin 2) _ _ concatenates_S170000x1_S170000x1_S170000x2_d1 (ix2 e (1 : Fin 2)) rfl rfl
    (ix2 e (0 : Fin 1)) (fun b => match b with | ⟨0, _⟩ => fun _ => rfl | ⟨1, _⟩ => fun hb => absurd rfl hb) rfl).trans ?_
  refine (broadcastInDim_apply _ bcast_S170000_S170000x1_0 _ (ix2 e (0 : Fin 1)) (ix1 e) (fun a => match a with
    | ⟨0, _⟩ => by show e.val = if (170000 : Nat) = 1 then 0 else e.val; rw [if_neg (by decide)])).trans ?_
  exact wrap170_small c2 e n hn h

end ReadL

/-- The matrix the entries are added into is zero. -/
theorem zeroMat_apply (i : S10240x10240.Idx) :
    broadcastInDim S10240x10240 ![] bcast_S_S10240x10240 (constant (F := Ideal) S_ .f32 0x00000000#32) i = 0 :=
  Ideal.ofBits_zero_f32

/-- At the ideal instance the narrowing of the float format changes nothing: the matrix is the scatter's. -/
theorem L52F_apply (i2 : Vec Ideal S170000x2 .i32) (l2 : Vec Ideal S170000 .f32) (j : S10240x10240.Idx) :
    L52F i2 l2 j
      = Host.scatterAdd (F := Ideal) (φ := .f32) scatter_S10240x10240_S170000x2_S170000_n_01_01_1
          (broadcastInDim S10240x10240 ![] bcast_S_S10240x10240 (constant (F := Ideal) S_ .f32 0x00000000#32)) i2 l2 j := rfl

/-- Entry `(r, k)` of the matrix: the sum of the weights whose index pair lands there. -/
theorem L52_apply_sum (ei : Vec Ideal S2x160000 .i32) (ew : Vec Ideal S160000 .f32) (r k : Fin 10240) :
    L52 ei ew (ix2 r k)
      = 0 + ∑ e ∈ Finset.univ.filter (fun e =>
            scatter_S10240x10240_S170000x2_S170000_n_01_01_1.resultIdx? e (idx2 ei) = some (ix2 r k)), lap2 ei ew e := by
  refine (L52F_apply (idx2 ei) (lap2 ei ew) (ix2 r k)).trans ?_
  show Ideal.hostScatterAdd _ _ (idx2 ei) (lap2 ei ew) (ix2 r k) = _
  unfold Ideal.hostScatterAdd
  rw [zeroMat_apply]

end Cert.KernelIdeal.HandValue

end
-- ==== Proof.LDecode.lean ====
/-
  The kernel's dense matrix read at an entry.

  The kernel scatters the 170000 edge weights into a 10240 × 10240 matrix of zeros, adding the weight of edge `e` at
  the entry whose two coordinates are the two endpoints of `e`. The endpoints are node numbers below 10000, so their
  32-bit words read as signed integers are the node numbers themselves and every update lands inside the matrix.
  Hence entry `(r, k)` holds the sum of the weights of the edges with endpoints `(r, k)`: the real number
  `Cert.Spec.Ldense lapR row col r k`.
-/
import proofs.«101218_j11046655885865_1_alg».proof.KernelIdeal
import proofs.«101218_j11046655885865_1_alg».proof.Proof.Spec
import proofs.«101218_j11046655885865_1_alg».proof.Proof.SpecCoe
import Idealize.ShloMosaic.PureOps.Ideal
import Idealize.ShloMosaic.Lib.ValueIdx
import Mathlib.Algebra.BigOperators.Group.Finset.Basic

namespace Cert.KernelIdeal.HandValue

open Idealize.ShloMosaic Idealize.ShloMosaic.ValueIdx

/-- A 32-bit word holding a number below 10000 reads, as a signed integer, that number. -/
theorem toInt_small (n : Nat) (h : n < 10000) : (BitVec.ofNat 32 n).toInt = (n : Int) := by
  rw [BitVec.toInt_ofNat']
  exact Int.bmod_eq_of_le_mul_two (by omega) (by omega)

variable [Cert.KernelIdeal.Facts]

/-- A rank-1 index built from one coordinate reads that coordinate on its only axis. -/
theorem ix1_apply {n : Nat} (e : Fin n) (q : Fin 1) : (ix1 e q).val = e.val := by
  match q with | ⟨0, _⟩ => rfl

/-- Update number `e` reads component `c` of its start index at entry `(e, c)` of the index array. -/
theorem siIdx_eq (e : Fin 170000) (c : Fin 2) :
    scatter_S10240x10240_S170000x2_S170000_n_01_01_1.siIdx (ix1 e) c = ix2 e c := by
  funext b
  match b with
  | ⟨0, _⟩ =>
    apply Fin.ext
    simp [ScatterDims.siIdx, scatter_S10240x10240_S170000x2_S170000_n_01_01_1, ScatterDims.siCoord]
    exact ix1_apply e _
  | ⟨1, _⟩ =>
    apply Fin.ext
    simp [ScatterDims.siIdx, scatter_S10240x10240_S170000x2_S170000_n_01_01_1]

/-- The start of update `e` on operand axis `a` is entry `(e, a)` of the index array, read signed. -/
theorem start_eq (idx : S170000x2.Idx → BitVec 32) (e : Fin 170000) (a : Fin 2) :
    scatter_S10240x10240_S170000x2_S170000_n_01_01_1.start (ix1 e) idx a = (idx (ix2 e a)).toInt := by
  match a with
  | ⟨0, _⟩ =>
    unfold ScatterDims.start
    rw [dif_pos (by simp [scatter_S10240x10240_S170000x2_S170000_n_01_01_1])]
    exact congrArg (fun q => (idx q).toInt) (siIdx_eq e ⟨0, by omega⟩)
  | ⟨1, _⟩ =>
    unfold ScatterDims.start
    rw [dif_pos (by simp [scatter_S10240x10240_S170000x2_S170000_n_01_01_1])]
    exact congrArg (fun q => (idx q).toInt) (siIdx_eq e ⟨1, by omega⟩)

/-- Both operand axes are inserted: there is no window coordinate. -/
theorem window_eq (e : Fin 170000) (a : Fin 2) :
    scatter_S10240x10240_S170000x2_S170000_n_01_01_1.window (ix1 e) a = 0 := by
  unfold ScatterDims.window
  match a with
  | ⟨0, _⟩ => exact dif_neg (by simp [scatter_S10240x10240_S170000x2_S170000_n_01_01_1, ScatterDims.sKept, Shape.kept])
  | ⟨1, _⟩ => exact dif_neg (by simp [scatter_S10240x10240_S170000x2_S170000_n_01_01_1, ScatterDims.sKept, Shape.kept])

/-- The landing coordinates of update `e`, and the landing entry: update `e` lands on entry `(r, k)` exactly when
its two endpoints are `r` and `k` (endpoints are below 10000, so their 32-bit words read signed are themselves,
and they lie inside the 10240 × 10240 operand). -/
theorem decode (idx : S170000x2.Idx → BitVec 32) (row col : Fin 170000 → Fin 10000)
    (hrow : ∀ e, idx (ix2 e (0 : Fin 2)) = BitVec.ofNat 32 (row e).val)
    (hcol : ∀ e, idx (ix2 e (1 : Fin 2)) = BitVec.ofNat 32 (col e).val) (e : Fin 170000) (r k : Fin 10240) :
    scatter_S10240x10240_S170000x2_S170000_n_01_01_1.resultIdx? (ix1 e) idx = some (ix2 r k) ↔
      (row e).val = r.val ∧ (col e).val = k.val := by
  have hr := (row e).isLt
  have hc := (col e).isLt
  have e0 : ∀ ha : 0 < S10240x10240.rank,
      scatter_S10240x10240_S170000x2_S170000_n_01_01_1.start (ix1 e) idx ⟨0, ha⟩
        + (scatter_S10240x10240_S170000x2_S170000_n_01_01_1.window (ix1 e) ⟨0, ha⟩ : Int) = ((row e).val : Int) := by
    intro ha
    rw [start_eq, window_eq]
    show (idx (ix2 e (0 : Fin 2))).toInt + ((0 : Nat) : Int) = _
    rw [hrow, toInt_small _ hr]; simp
  have e1 : ∀ ha : 1 < S10240x10240.rank,
      scatter_S10240x10240_S170000x2_S170000_n_01_01_1.start (ix1 e) idx ⟨1, ha⟩
        + (scatter_S10240x10240_S170000x2_S170000_n_01_01_1.window (ix1 e) ⟨1, ha⟩ : Int) = ((col e).val : Int) := by
    intro ha
    rw [start_eq, window_eq]
    show (idx (ix2 e (1 : Fin 2))).toInt + ((0 : Nat) : Int) = _
    rw [hcol, toInt_small _ hc]; simp
  have h : ∀ a, 0 ≤ scatter_S10240x10240_S170000x2_S170000_n_01_01_1.start (ix1 e) idx a
        + scatter_S10240x10240_S170000x2_S170000_n_01_01_1.window (ix1 e) a ∧
      scatter_S10240x10240_S170000x2_S170000_n_01_01_1.start (ix1 e) idx a
        + scatter_S10240x10240_S170000x2_S170000_n_01_01_1.window (ix1 e) a < S10240x10240.size a := by
    intro a
    match a with
    | ⟨0, ha⟩ =>
      rw [e0 ha]
      show 0 ≤ _ ∧ _ < ((10240 : Nat) : Int)
      omega
    | ⟨1, ha⟩ =>
      rw [e1 ha]
      show 0 ≤ _ ∧ _ < ((10240 : Nat) : Int)
      omega
  unfold ScatterDims.resultIdx?
  rw [dif_pos h]
  constructor
  · intro heq
    have hf := Option.some.inj heq
    have h0 := congrArg Fin.val (congrFun hf ⟨0, by decide⟩)
    have h1 := congrArg Fin.val (congrFun hf ⟨1, by decide⟩)
    have h0' : (_ : Int).toNat = r.val := h0
    have h1' : (_ : Int).toNat = k.val := h1
    rw [e0 _] at h0'
    rw [e1 _] at h1'
    omega
  · rintro ⟨h0, h1⟩
    congr 1
    funext a
    match a with
    | ⟨0, ha⟩ =>
      apply Fin.ext
      show (_ + _ : Int).toNat = r.val
      rw [e0 ha]; omega
    | ⟨1, ha⟩ =>
      apply Fin.ext
      show (_ + _ : Int).toNat = k.val
      rw [e1 ha]; omega

/-- A rank-1 index set of extent `n` is `Fin n`. -/
def idxEquiv1 {n : Nat} : (⟨1, ![n]⟩ : Shape).Idx ≃ Fin n where
  toFun j := j 0
  invFun e := ix1 e
  left_inv j := (eq_ix1 j).symm
  right_inv _ := rfl

/-- The kernel's dense matrix at an entry: the accumulating scatter of the edge weights into the zero matrix has, at
entry `(r, k)`, the sum of the weights of the edges from `k` into `r`. -/
theorem dense_apply {φ : FTy} (z : S10240x10240.Idx → EReal) (hz : ∀ i, z i = 0) (idx : S170000x2.Idx → BitVec 32)
    (lap2 : S170000.Idx → EReal) (lapR : Fin 170000 → ℝ) (row col : Fin 170000 → Fin 10000)
    (hlap : ∀ e, lap2 (ix1 e) = ((lapR e : ℝ) : EReal))
    (hrow : ∀ e, idx (ix2 e (0 : Fin 2)) = BitVec.ofNat 32 (row e).val)
    (hcol : ∀ e, idx (ix2 e (1 : Fin 2)) = BitVec.ofNat 32 (col e).val) (r k : Fin 10240) :
    Host.scatterAdd (F := Ideal) (φ := φ) Cert.KernelIdeal.scatter_S10240x10240_S170000x2_S170000_n_01_01_1 z idx lap2 (ix2 r k)
      = ((Cert.Spec.Ldense lapR row col r k : ℝ) : EReal) := by
  show Ideal.hostScatterAdd _ z idx lap2 (ix2 r k) = _
  unfold Ideal.hostScatterAdd Cert.Spec.Ldense
  rw [hz, zero_add, Cert.Spec.coe_sum, Finset.sum_filter, Finset.sum_filter]
  refine Fintype.sum_equiv idxEquiv1 _ _ (fun j => ?_)
  obtain ⟨e, rfl⟩ : ∃ e, j = ix1 e := ⟨j 0, eq_ix1 j⟩
  show _ = if (row e).val = r.val ∧ (col e).val = k.val then ((lapR e : ℝ) : EReal) else 0
  by_cases hc : (row e).val = r.val ∧ (col e).val = k.val
  · rw [if_pos ((decode idx row col hrow hcol e r k).2 hc), if_pos hc, hlap]
  · rw [if_neg (mt (decode idx row col hrow hcol e r k).1 hc), if_neg hc]

end Cert.KernelIdeal.HandValue
-- ==== Proof.HostVals2.lean ====
import proofs.«101218_j11046655885865_1_alg».proof.Proof.HostVals
import proofs.«101218_j11046655885865_1_alg».proof.Proof.LDecode
import proofs.«101218_j11046655885865_1_alg».proof.Proof.Inputs
import proofs.«101218_j11046655885865_1_alg».proof.Proof.Gen.ReferenceIdeal.Read

/-!
# The kernel's matrix at an entry, over the edge lists both programs compute

The kernel program and the reference compute the same weighted edge list first — the given edges with their
normalised weights, then one self loop per node. When that list comes from real weights and node numbers below
10000, entry `(r, k)` of the padded matrix the first kernel region multiplies by is the sum of the weights of
the edges whose endpoints are `r` and `k`.
-/

noncomputable section

namespace Cert.KernelIdeal.HandValue

open Cert.KernelIdeal Cert.KernelIdeal.Gen Idealize.ShloMosaic Idealize.ShloMosaic.ValueIdx

/-! ## The kernel's edge lists are the reference's -/

section Chain
variable {F : FTy → Type} [FloatOps F]

theorem chain_row2 (a1 : Vec F S2x160000 .i32) : row2 a1 = Cert.ReferenceIdeal.Read.val_main_v31 (F := F) a1 := rfl
theorem chain_col2 (a1 : Vec F S2x160000 .i32) : col2 a1 = Cert.ReferenceIdeal.Read.val_main_v32 (F := F) a1 := rfl
theorem chain_lap2 (a1 : Vec F S2x160000 .i32) (a2 : Vec F S160000 .f32) :
    lap2 a1 a2 = Cert.ReferenceIdeal.Read.val_main_v36 (F := F) a1 a2 := rfl

end Chain

/-! ## The matrix at an entry -/

/-- Entry `(r, k)` of the matrix the first region multiplies by, for edge lists that come from real weights and
    node numbers below 10000: the sum of the weights of the edges whose endpoints are `r` and `k`. -/
theorem L52_apply_own (a1 : Vec Ideal S2x160000 .i32) (a2 : Vec Ideal S160000 .f32)
    (hch : Cert.Inputs.ChainFacts (lap2 (F := Ideal) a1 a2) (row2 (F := Ideal) a1) (col2 (F := Ideal) a1)) (r k : Fin 10240) :
    L52 a1 a2 (ix2 r k) = ((Cert.Spec.Ldense hch.lapR hch.row hch.col r k : ℝ) : EReal) :=
  (L52F_apply (idx2 a1) (lap2 a1 a2) (ix2 r k)).trans
    (dense_apply (φ := .f32) _ zeroMat_apply (idx2 a1) (lap2 a1 a2) hch.lapR hch.row hch.col hch.hlap
      (fun e => idx2F_col0 (row2 a1) (col2 a1) e _ (hch.row e).isLt (hch.hrow2 e))
      (fun e => idx2F_col1 (row2 a1) (col2 a1) e _ (hch.col e).isLt (hch.hcol2 e)) r k)

/-- The same for any three arrays equal to the kernel's edge lists. -/
theorem L52_apply_gen (a1 : Vec Ideal S2x160000 .i32) (a2 : Vec Ideal S160000 .f32)
    (l2 : (⟨1, ![170000]⟩ : Shape).Idx → EReal) (r2 c2 : (⟨1, ![170000]⟩ : Shape).Idx → BitVec 32)
    (hl : lap2 (F := Ideal) a1 a2 = l2) (hr : row2 (F := Ideal) a1 = r2) (hc : col2 (F := Ideal) a1 = c2)
    (hch : Cert.Inputs.ChainFacts l2 r2 c2) (r k : Fin 10240) :
    L52 a1 a2 (ix2 r k) = ((Cert.Spec.Ldense hch.lapR hch.row hch.col r k : ℝ) : EReal) := by
  subst hl hr hc
  exact L52_apply_own a1 a2 hch r k

/-- The same over the reference's names for the edge lists. -/
theorem L52_apply (a1 : (⟨S2x160000, .i32⟩ : BufTy).Contents (Elt Ideal)) (a2 : (⟨S160000, .f32⟩ : BufTy).Contents (Elt Ideal))
    (hch : Cert.Inputs.ChainFacts (Cert.ReferenceIdeal.Read.val_main_v36 (F := Ideal) a1 a2)
      (Cert.ReferenceIdeal.Read.val_main_v31 (F := Ideal) a1) (Cert.ReferenceIdeal.Read.val_main_v32 (F := Ideal) a1))
    (r k : Fin 10240) :
    L52 a1 a2 (ix2 r k) = ((Cert.Spec.Ldense hch.lapR hch.row hch.col r k : ℝ) : EReal) :=
  L52_apply_gen a1 a2 _ _ _ (chain_lap2 a1 a2) (chain_row2 a1) (chain_col2 a1) hch r k

end Cert.KernelIdeal.HandValue

end
-- ==== Proof.R0Value.lean ====
/-
  The value of the first region: the array it writes is the matrix product of the two arrays it reads, the
  contracted axis of extent 10240 taken in ten blocks of 1024 whose partial products are added in order from
  zero. Over real entries that ordered sum is the plain sum over the whole axis.
-/
import proofs.«101218_j11046655885865_1_alg».proof.Proof.R0Body
import Idealize.ShloMosaic.Lib.Pipeline.Value
import Idealize.ShloMosaic.Lib.ValueIdx
import Idealize.ShloMosaic.PureOps.Ideal.Laws
import Mathlib.Data.EReal.Basic
import Mathlib.Data.EReal.Operations
import Mathlib.Algebra.BigOperators.Group.Finset.Basic
import Mathlib.Algebra.BigOperators.Fin
import Mathlib.Logic.Equiv.Fin.Basic

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.ValueIdx
open Idealize.ShloMosaic.Pipeline (Dat)

/-- Position q of block k on an axis of extent 10240 cut into ten blocks of 1024. -/
def bix (k : ℕ) (q : Fin 1024) : Fin 10240 := ⟨(1024 * k + q.val) % 10240, Nat.mod_lt _ (by norm_num)⟩

theorem bix_val (k : ℕ) (q : Fin 1024) (hk : k < 10) : (bix k q).val = 1024 * k + q.val := by
  have := q.isLt
  show (1024 * k + q.val) % 10240 = _
  omega

/-- Row r of the first array against column j of the second, over block k of the contracted axis. -/
def bterm (A : S10240x10240.Idx → EReal) (B : S10240x512.Idx → EReal) (r : Fin 10240) (j : Fin 512) (k : ℕ) : EReal :=
  ∑ q : Fin 1024, A (ix2 r (bix k q)) * B (ix2 (bix k q) j)

/-- The blocks 0..k added in order, from zero. -/
def psum (A : S10240x10240.Idx → EReal) (B : S10240x512.Idx → EReal) (r : Fin 10240) (j : Fin 512) : ℕ → EReal
  | 0 => 0 + bterm A B r j 0
  | k + 1 => psum A B r j k + bterm A B r j (k + 1)

theorem psum_zero (A : S10240x10240.Idx → EReal) (B : S10240x512.Idx → EReal) (r : Fin 10240) (j : Fin 512) :
    psum A B r j 0 = 0 + bterm A B r j 0 := rfl
theorem psum_succ (A : S10240x10240.Idx → EReal) (B : S10240x512.Idx → EReal) (r : Fin 10240) (j : Fin 512) (k : ℕ) :
    psum A B r j (k + 1) = psum A B r j k + bterm A B r j (k + 1) := rfl

/-- The matrix product, row r of the first array against column j of the second, the contracted axis in ten
    blocks of 1024 summed in order. -/
def G0 (A : (⟨S10240x10240, .bf16⟩ : BufTy).Contents (Elt Ideal)) (B : (⟨S10240x512, .bf16⟩ : BufTy).Contents (Elt Ideal)) :
    (⟨S10240x512, .f32⟩ : BufTy).Contents (Elt Ideal) :=
  fun i => psum A B (i 0) (i 1) 9

/-! ### Over real entries the ordered block sums are the plain sum -/

theorem coe_sum' {ι : Type*} (s : Finset ι) (g : ι → ℝ) :
    ((∑ i ∈ s, g i : ℝ) : EReal) = ∑ i ∈ s, ((g i : ℝ) : EReal) := by
  classical
  induction s using Finset.induction_on with
  | empty => simp
  | insert x s hx ih => rw [Finset.sum_insert hx, Finset.sum_insert hx, EReal.coe_add, ih]

/-- Block k's term in the reals. -/
def btermR (a : S10240x10240.Idx → ℝ) (b : S10240x512.Idx → ℝ) (r : Fin 10240) (j : Fin 512) (k : ℕ) : ℝ :=
  ∑ q : Fin 1024, a (ix2 r (bix k q)) * b (ix2 (bix k q) j)

theorem bterm_coe (a : S10240x10240.Idx → ℝ) (b : S10240x512.Idx → ℝ) (r : Fin 10240) (j : Fin 512) (k : ℕ) :
    bterm (fun i => ((a i : ℝ) : EReal)) (fun i => ((b i : ℝ) : EReal)) r j k = ((btermR a b r j k : ℝ) : EReal) := by
  unfold bterm btermR
  rw [coe_sum']
  exact Finset.sum_congr rfl fun q _ => (EReal.coe_mul _ _).symm

theorem psum_coe (a : S10240x10240.Idx → ℝ) (b : S10240x512.Idx → ℝ) (r : Fin 10240) (j : Fin 512) :
    ∀ k : ℕ, psum (fun i => ((a i : ℝ) : EReal)) (fun i => ((b i : ℝ) : EReal)) r j k
      = ((∑ k' ∈ Finset.range (k + 1), btermR a b r j k' : ℝ) : EReal)
  | 0 => by
    rw [psum_zero, bterm_coe, zero_add, Finset.sum_range_one]
  | k + 1 => by
    rw [psum_succ, psum_coe a b r j k, bterm_coe, ← EReal.coe_add, ← Finset.sum_range_succ]

/-- Ten blocks of 1024 are the axis of extent 10240. -/
theorem sum_blocks (f : Fin 10240 → ℝ) :
    ∑ k ∈ Finset.range 10, ∑ q : Fin 1024, f (bix k q) = ∑ m : Fin 10240, f m := by
  rw [← Fin.sum_univ_eq_sum_range (fun k => ∑ q : Fin 1024, f (bix k q)) 10]
  rw [← Equiv.sum_comp (finProdFinEquiv (m := 10) (n := 1024)) f, Fintype.sum_prod_type]
  refine Finset.sum_congr rfl fun k _ => Finset.sum_congr rfl fun q _ => congrArg f (Fin.ext ?_)
  rw [bix_val k.val q k.isLt]
  show _ = q.val + 1024 * k.val
  omega

theorem G0_apply_real (a : S10240x10240.Idx → ℝ) (b : S10240x512.Idx → ℝ) (r : Fin 10240) (j : Fin 512) :
    G0 (fun i => ((a i : ℝ) : EReal)) (fun i => ((b i : ℝ) : EReal)) (ix2 r j)
      = ((∑ k : Fin 10240, a (ix2 r k) * b (ix2 k j) : ℝ) : EReal) := by
  show psum (fun i => ((a i : ℝ) : EReal)) (fun i => ((b i : ℝ) : EReal)) r j 9 = _
  rw [psum_coe]
  exact congrArg _ (sum_blocks fun m => a (ix2 r m) * b (ix2 m j))

theorem lhs_dot0_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_dot0_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_dot0_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_dot0_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The block product at an entry: the sum over the contracted axis. -/
theorem matmul0_apply (a : FVec Ideal S1024x1024 .bf16) (b : FVec Ideal S1024x512 .bf16) (p : Fin 1024) (q : Fin 512) :
    matmul dot_S1024x1024_S1024x512_S1024x512_1_0_0_1_n_n none a b (constant (F := Ideal) S1024x512 .f32 0x00000000#32) (ix2 p q)
      = ∑ k : Fin 1024, a (ix2 p k) * b (ix2 k q) := by
  refine (Ideal.matmul_constant_zero_apply dot_S1024x1024_S1024x512_S1024x512_1_0_0_1_n_n none a b (ix2 p q)).trans ?_
  rw [← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 p q) ((ValueIdx.contrEquiv1 dot_S1024x1024_S1024x512_S1024x512_1_0_0_1_n_n 1024 rfl rfl).symm k) = ix2 p k := funext fun a => Fin.ext (by
    match a with
    | ⟨0, _⟩ => exact lhs_dot0_0 _ _
    | ⟨1, _⟩ => exact (lhs_dot0_1 _ _).trans hk)
  have er : dot_S1024x1024_S1024x512_S1024x512_1_0_0_1_n_n.rhsIdx (ix2 p q) ((ValueIdx.contrEquiv1 dot_S1024x1024_S1024x512_S1024x512_1_0_0_1_n_n 1024 rfl rfl).symm k) = ix2 k q := funext fun a => Fin.ext (by
    match a with
    | ⟨0, _⟩ => exact (rhs_dot0_0 _ _).trans hk
    | ⟨1, _⟩ => exact rhs_dot0_1 _ _)
  rw [el, er]

/-- The body's update at an entry: the accumulator plus the block product. -/
theorem pay2_apply (acc : Vec Ideal S1024x512 .f32) (a : Vec Ideal S1024x1024 .bf16) (b : Vec Ideal S1024x512 .bf16) (p : Fin 1024) (q : Fin 512) :
    k0_pay2 (F := Ideal) acc a b (ix2 p q) = acc (ix2 p q) + ∑ k : Fin 1024, a (ix2 p k) * b (ix2 k q) := by
  unfold k0_pay2
  simp only [shapeCast_self]
  exact congrArg (acc (ix2 p q) + ·) (matmul0_apply a b p q)

/-- The reset value at an entry. -/
theorem pay1_apply (j : S1024x512.Idx) : k0_pay1 (F := Ideal) j = 0 := by
  unfold k0_pay1
  simp only [shapeCast_self]
  show Ideal.ofBits .f32 0x00000000#32 = 0
  exact Ideal.ofBits_zero_f32

/-! ## The blocks the body reads, as entries of the two arrays -/

section Blocks

variable (V : (c : Dev nD) → (b : Ref sig .tc) → Buf (Elt Ideal) ((c : Thread nD τ).loc b))

/-- The first array as the region finds it. -/
abbrev Aarr (c : Dev nD) : S10240x10240.Idx → EReal := V c main_v52
/-- The second array as the region finds it. -/
abbrev Barr (c : Dev nD) : S10240x512.Idx → EReal := V c main_v56
/-- The first window's block at a point. -/
abbrev ablk (c : Dev nD) (t : Fin cfg0.N) : Vec Ideal S1024x1024 .bf16 := Hand.iblk0 V c 0 t
/-- The second window's block at a point. -/
abbrev bblk (c : Dev nD) (t : Fin cfg0.N) : Vec Ideal S1024x512 .bf16 := Hand.iblk0 V c 1 t

/-- The block indices over the grid: point t = 10 i + k reads block (i, k) of the first array, block (k, 0) of the
    second, and writes block (i, 0) of the result. -/
theorem idx_facts : ∀ t : Fin cfg0.N, win0_0.index t (0 : Fin 2) = t.val / 10
    ∧ win0_0.index t (1 : Fin 2) = t.val % 10
    ∧ win0_1.index t (0 : Fin 2) = t.val % 10
    ∧ win0_1.index t (1 : Fin 2) = 0
    ∧ win0_2.index t (0 : Fin 2) = t.val / 10
    ∧ win0_2.index t (1 : Fin 2) = 0 :=
  (by decide +kernel : ∀ t : Fin grid0.N, _)

theorem hN : cfg0.N = 100 := N_0

theorem ablk_apply (c : Dev nD) (n : ℕ) (hn : n < cfg0.N) (p k : Fin 1024) :
    ablk V c ⟨n, hn⟩ (ix2 p k) = Aarr V c (ix2 (bix (n / 10) p) (bix (n % 10) k)) := by
  obtain ⟨e0, e1, -, -, -, -⟩ := idx_facts ⟨n, hn⟩
  have hn' : n < 100 := hN ▸ hn
  unfold ablk Hand.iblk0
  rw [View.read_apply]
  show V c main_v52 _ = V c main_v52 _
  congr 1
  funext a
  apply Fin.ext
  match a with
  | ⟨0, _⟩ =>
    show win0_0.index ⟨n, hn⟩ (0 : Fin 2) * 1024 + 1 * p.val = (bix (n / 10) p).val
    rw [e0, bix_val _ _ (by omega)]; dsimp only; omega
  | ⟨1, _⟩ =>
    show win0_0.index ⟨n, hn⟩ (1 : Fin 2) * 1024 + 1 * k.val = (bix (n % 10) k).val
    rw [e1, bix_val _ _ (by omega)]; dsimp only; omega

theorem bblk_apply (c : Dev nD) (n : ℕ) (hn : n < cfg0.N) (k : Fin 1024) (q : Fin 512) :
    bblk V c ⟨n, hn⟩ (ix2 k q) = Barr V c (ix2 (bix (n % 10) k) q) := by
  obtain ⟨-, -, e0, e1, -, -⟩ := idx_facts ⟨n, hn⟩
  have hn' : n < 100 := hN ▸ hn
  unfold bblk Hand.iblk0
  rw [View.read_apply]
  show V c main_v56 _ = V c main_v56 _
  congr 1
  funext a
  apply Fin.ext
  match a with
  | ⟨0, _⟩ =>
    show win0_1.index ⟨n, hn⟩ (0 : Fin 2) * 1024 + 1 * k.val = (bix (n % 10) k).val
    rw [e0, bix_val _ _ (by omega)]; dsimp only; omega
  | ⟨1, _⟩ =>
    show win0_1.index ⟨n, hn⟩ (1 : Fin 2) * 512 + 1 * q.val = q.val
    rw [e1]; omega

/-- The accumulator after point n = 10 i + k holds, at (p, q), the blocks 0..k of row 1024 i + p against column q
    added in order. -/
theorem acc_eq (c : Dev nD) : ∀ (n : ℕ) (hn : n < cfg0.N) (p : Fin 1024) (q : Fin 512),
    Hand.accAt0 (F := Ideal) V c n hn (ix2 p q) = psum (Aarr V c) (Barr V c) (bix (n / 10) p) q (n % 10)
  | 0, hn, p, q => by
    refine (congrFun (Hand.accAt0_zero V c hn) (ix2 p q)).trans ?_
    refine (pay2_apply (k0_pay1 (F := Ideal)) (ablk V c ⟨0, hn⟩) (bblk V c ⟨0, hn⟩) p q).trans ?_
    rw [pay1_apply]
    show _ = 0 + bterm (Aarr V c) (Barr V c) (bix (0 / 10) p) q 0
    refine congrArg (0 + ·) (Finset.sum_congr rfl fun k _ => ?_)
    rw [ablk_apply, bblk_apply]
  | n + 1, hn, p, q => by
    have hn' : n + 1 < 100 := hN ▸ hn
    refine (congrFun (Hand.accAt0_succ V c n hn) (ix2 p q)).trans ?_
    refine (pay2_apply (if (n + 1) % 10 = 0 then k0_pay1 (F := Ideal) else Hand.accAt0 V c n (Nat.lt_of_succ_lt hn))
      (ablk V c ⟨n + 1, hn⟩) (bblk V c ⟨n + 1, hn⟩) p q).trans ?_
    have hs : ∑ k : Fin 1024, ablk V c ⟨n + 1, hn⟩ (ix2 p k) * bblk V c ⟨n + 1, hn⟩ (ix2 k q)
        = bterm (Aarr V c) (Barr V c) (bix ((n + 1) / 10) p) q ((n + 1) % 10) :=
      Finset.sum_congr rfl fun k _ => by rw [ablk_apply, bblk_apply]
    rw [hs]
    by_cases h : (n + 1) % 10 = 0
    · rw [if_pos h, pay1_apply, h]
      rfl
    · rw [if_neg h, acc_eq c n (Nat.lt_of_succ_lt hn) p q]
      have e1 : (n + 1) / 10 = n / 10 := by omega
      have e2 : (n + 1) % 10 = n % 10 + 1 := by omega
      rw [e1, e2]
      rfl

end Blocks

/-! ## What is written back, and the whole array -/

section Final

variable (V : (c : Dev nD) → (b : Ref sig .tc) → Buf (Elt Ideal) ((c : Thread nD τ).loc b))

theorem acc_eq' (c : Dev nD) (n : ℕ) (hn : n < cfg0.N) (j : S1024x512.Idx) :
    Hand.accAt0 (F := Ideal) V c n hn j = psum (Aarr V c) (Barr V c) (bix (n / 10) (j 0)) (j 1) (n % 10) :=
  (congrArg (Hand.accAt0 (F := Ideal) V c n hn) (eq_ix2 j)).trans (acc_eq V c n hn (j 0) (j 1))

/-- The last point of row block i writes back block i of the product. -/
theorem flushed_eq (c : Dev nD) (t : Fin cfg0.N) (hf : (cfg0.win 2).flush t = true) :
    (Hand.dat0 (F := Ideal) V c).flushed 2 t
      = ((cfg0.win 2).blk t).view.read (Elt Ideal) (G0 (V c main_v52) (V c main_v56)) := by
  have h9 : t.val % 10 = 9 := (flush0_2 t).mp hf
  have hn' : t.val < 100 := hN ▸ t.isLt
  obtain ⟨-, -, -, -, e0, e1⟩ := idx_facts t
  show (cfg0.win 2).cut (grid0.coords t) ((Hand.dat0 (F := Ideal) V c).after 2 t) = _
  rw [Hand.after0_2]
  funext y
  show Hand.accAt0 (F := Ideal) V c t.val t.isLt ((cfg0.win 2).xinj (grid0.coords t) y)
    = G0 (V c main_v52) (V c main_v56) (((cfg0.win 2).blk t).view.emb y)
  refine (acc_eq' V c t.val t.isLt ((cfg0.win 2).xinj (grid0.coords t) y)).trans ?_
  rw [h9]
  show psum (Aarr V c) (Barr V c) _ _ 9
    = psum (Aarr V c) (Barr V c) (((cfg0.win 2).blk t).view.emb y 0) (((cfg0.win 2).blk t).view.emb y 1) 9
  have hy0 : (y 0).val < 1024 := (y 0).isLt
  have hy1 : (y 1).val < 512 := (y 1).isLt
  have r0 : bix (t.val / 10) (((cfg0.win 2).xinj (grid0.coords t) y) 0) = ((cfg0.win 2).blk t).view.emb y 0 :=
    Fin.ext (by
      refine (bix_val (t.val / 10) _ (by omega)).trans ?_
      show 1024 * (t.val / 10) + (y 0).val = win0_2.index t (0 : Fin 2) * 1024 + 1 * (y 0).val
      rw [e0]; omega)
  have r1 : ((cfg0.win 2).xinj (grid0.coords t) y) 1 = ((cfg0.win 2).blk t).view.emb y 1 :=
    Fin.ext (by
      show (y 1).val = win0_2.index t (1 : Fin 2) * 512 + 1 * (y 1).val
      rw [e1]; omega)
  rw [r0, r1]

/-- An index of the result is in point t's block iff each coordinate is in the block's range on its axis. -/
theorem mem_blk (t : Fin cfg0.N) (i : S10240x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v57).slice (win0_2.rect t)).set ↔ _
  rw [View.set_slice_whole, Rect.mem_set_unit]
  exact Iff.rfl

/-- Row r of the result lies in the block written back at the last point of row block r / 1024. -/
theorem cover (i : S10240x512.Idx) :
    ∃ t : Fin cfg0.N, (cfg0.win 2).flush t = true ∧ i ∈ ((cfg0.win 2).blk t).view.set := by
  have hi0 : (i 0).val < 10240 := (i 0).isLt
  have hi1 : (i 1).val < 512 := (i 1).isLt
  have ht : 10 * ((i 0).val / 1024) + 9 < cfg0.N := by rw [hN]; omega
  obtain ⟨-, -, -, -, e0, e1⟩ := idx_facts ⟨10 * ((i 0).val / 1024) + 9, ht⟩
  refine ⟨⟨10 * ((i 0).val / 1024) + 9, ht⟩, (flush0_2 _).mpr (by dsimp only; omega), ?_⟩
  rw [mem_blk]
  intro a
  match a with
  | ⟨0, _⟩ =>
    show win0_2.index ⟨10 * ((i 0).val / 1024) + 9, ht⟩ (0 : Fin 2) * 1024 ≤ (i 0).val
      ∧ (i 0).val < win0_2.index ⟨10 * ((i 0).val / 1024) + 9, ht⟩ (0 : Fin 2) * 1024 + 1024
    rw [e0]; dsimp only; omega
  | ⟨1, _⟩ =>
    show win0_2.index ⟨10 * ((i 0).val / 1024) + 9, ht⟩ (1 : Fin 2) * 512 ≤ (i 1).val
      ∧ (i 1).val < win0_2.index ⟨10 * ((i 0).val / 1024) + 9, ht⟩ (1 : Fin 2) * 512 + 512
    rw [e1]; omega

/-- The result array after the region: the product of the two arrays, blocks of the contracted axis added in order. -/
theorem out0_value (c : Dev nD) :
    (Hand.dat0 (F := Ideal) V c).arrAt 2 cfg0.N = G0 (V c main_v52) (V c main_v56) :=
  (Hand.dat0 (F := Ideal) V c).arrAt_eq_of_cover 2 (G0 (V c main_v52) (V c main_v56)) (flushed_eq V c) cover

end Final

end Cert.KernelIdeal.HandValue

end
-- ==== Proof.R1Value.lean ====
/- The value of the second pipelined call of the program at the ideal instance: what the region leaves in its
   output array, as one function of its five input arrays. The payload is read at an index (two 128-deep products
   into zero accumulators, added, plus the bias row); what a grid point writes back is the block of that one
   function which the point's output rectangle names; the forty blocks cover the array. -/
import proofs.«101218_j11046655885865_1_alg».proof.Proof.R1Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

/-! ## The payload at an index -/

/-- The dimension numbers of the two products: rows by columns, one shared axis. -/
abbrev dims1 : DotDims S1000x128 S128x128 S1000x128 := dot_S1000x128_S128x128_S1000x128_1_0_0_1_n_n

/-- The left operand's index at output index `j` and shared coordinate `q`: row `j 0`, column `q`. -/
theorem lhs1_0 (j : S1000x128.Idx) (q : dims1.contr.Idx) : (dims1.lhsIdx j q 0).val = (j 0).val := by
  unfold DotDims.lhsIdx
  rw [dif_neg (show ¬(0 : Fin S1000x128.rank) ∈ dims1.lhsBatch by decide), dif_pos (show (0 : Fin S1000x128.rank) ∈ dims1.lhsNonContracting by decide)]
  rfl
theorem lhs1_1 (j : S1000x128.Idx) (q : dims1.contr.Idx) : (dims1.lhsIdx j q 1).val = (q ⟨0, by decide⟩).val :=
  dims1.lhsIdx_val_of_single rfl j q
/-- The right operand's index at output index `j` and shared coordinate `q`: row `q`, column `j 1`. -/
theorem rhs1_0 (j : S1000x128.Idx) (q : dims1.contr.Idx) : (dims1.rhsIdx j q 0).val = (q ⟨0, by decide⟩).val :=
  dims1.rhsIdx_val_of_single rfl j q
theorem rhs1_1 (j : S1000x128.Idx) (q : dims1.contr.Idx) : (dims1.rhsIdx j q 1).val = (j 1).val := by
  unfold DotDims.rhsIdx
  rw [dif_neg (show ¬(1 : Fin S128x128.rank) ∈ dims1.rhsBatch by decide), dif_pos (show (1 : Fin S128x128.rank) ∈ dims1.rhsNonContracting by decide)]
  rfl

/-- A [1000,128] by [128,128] product into the zero splat, at (r, o): the sum over the 128 shared coordinates. -/
theorem mm1_apply {φ₁ φ₂ : FTy} (A : FVec Ideal S1000x128 φ₁) (B : FVec Ideal S128x128 φ₂) (r : Fin 1000) (o : Fin 128) :
    matmul dims1 none A B (constant S1000x128 .f32 0x00000000#32) (ix2 r o) = ∑ f : Fin 128, A (ix2 r f) * B (ix2 f o) := by
  simp only [matmul]
  rw [Ideal.matmul_constant_zero_apply, ← Equiv.sum_comp (contrEquiv1 dims1 128 rfl rfl).symm]
  refine Finset.sum_congr rfl fun k _ => ?_
  have hk := contrEquiv1_symm_val dims1 128 rfl rfl k
  have el : dims1.lhsIdx (ix2 r o) ((contrEquiv1 dims1 128 rfl rfl).symm k) = ix2 r k := funext fun a => Fin.ext (by
    match a with
    | ⟨0, _⟩ => exact lhs1_0 _ _
    | ⟨1, _⟩ => exact (lhs1_1 _ _).trans hk)
  have er : dims1.rhsIdx (ix2 r o) ((contrEquiv1 dims1 128 rfl rfl).symm k) = ix2 k o := funext fun a => Fin.ext (by
    match a with
    | ⟨0, _⟩ => exact (rhs1_0 _ _).trans hk
    | ⟨1, _⟩ => exact rhs1_1 _ _)
  rw [el, er]

/-- The payload at (u, r, o): the two products' sums and the bias. -/
theorem combine_pay_apply (x0 x1 : Vec Ideal S1x1000x128 .f32) (x2 x3 : Vec Ideal S128x128 .f32) (x4 : Vec Ideal S128 .f32)
    (u : Fin 1) (r : Fin 1000) (o : Fin 128) :
    k1_pay1 (F := Ideal) x0 x1 x2 x3 x4 (ix3 u r o)
      = ((∑ f : Fin 128, x0 (ix3 (0 : Fin 1) r f) * x2 (ix2 f o)) + (∑ f : Fin 128, x1 (ix3 (0 : Fin 1) r f) * x3 (ix2 f o))) + x4 (ix1 o) := by
  unfold k1_pay1
  refine (shapeCast_ab_1ab_apply _ _ u r o).trans ?_
  rw [addf_apply, addf_apply, mm1_apply, mm1_apply, broadcastTo_1b_ab_apply, shapeCast_a_1a_apply]
  simp only [truncf_apply, shapeCast_self, shapeCast_1ab_ab_apply]

/-! ## The whole-array function -/

/-- What the second call leaves in its output array, as one function of its five input arrays: at (b, n, o) the
    product of row (b, n) of the first array with column o of the first matrix, plus the same of the second array
    and the second matrix, plus the bias at o. -/
def G1 (x lx : (⟨S4x10000x128, .f32⟩ : BufTy).Contents (Elt Ideal)) (wx wl : (⟨S128x128, .f32⟩ : BufTy).Contents (Elt Ideal))
    (bs : (⟨S128, .f32⟩ : BufTy).Contents (Elt Ideal)) : (⟨S4x10000x128, .f32⟩ : BufTy).Contents (Elt Ideal) :=
  fun i => ((∑ f : Fin 128, x (ix3 (n0 := 4) (n1 := 10000) (n2 := 128) (i 0) (i 1) f) * wx (ix2 (n0 := 128) (n1 := 128) f (i 2)))
      + (∑ f : Fin 128, lx (ix3 (n0 := 4) (n1 := 10000) (n2 := 128) (i 0) (i 1) f) * wl (ix2 (n0 := 128) (n1 := 128) f (i 2))))
    + bs (ix1 (n := 128) (i 2))

/-- `G1` at (b, n, o), its coordinates named. -/
theorem G1_apply (x lx : (⟨S4x10000x128, .f32⟩ : BufTy).Contents (Elt Ideal)) (wx wl : (⟨S128x128, .f32⟩ : BufTy).Contents (Elt Ideal))
    (bs : (⟨S128, .f32⟩ : BufTy).Contents (Elt Ideal)) (b : Fin 4) (n : Fin 10000) (o : Fin 128) :
    G1 x lx wx wl bs (ix3 b n o)
      = ((∑ f : Fin 128, x (ix3 b n f) * wx (ix2 f o)) + (∑ f : Fin 128, lx (ix3 b n f) * wl (ix2 f o))) + bs (ix1 o) := rfl

/-! ## What a point writes back -/

/-- The printed index maps, decided over the 40 points: the two row-blocked inputs move with the output, the three
    whole inputs stay at block zero, and the output's block index is (b, i, 0) with b < 4 and i < 10. -/
theorem idx_facts1 : ∀ t : Fin cfg1.N,
    win1_0.index t (0 : Fin 3) = win1_5.index t (0 : Fin 3) ∧ win1_0.index t (1 : Fin 3) = win1_5.index t (1 : Fin 3) ∧ win1_0.index t (2 : Fin 3) = 0
    ∧ win1_1.index t (0 : Fin 3) = win1_5.index t (0 : Fin 3) ∧ win1_1.index t (1 : Fin 3) = win1_5.index t (1 : Fin 3) ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (2 : Fin 3) = 0 :=
  (by decide +kernel : ∀ t : Fin grid1.N, _)

/-- Every block (b, i, 0) of the output is some point's. -/
theorem idx_onto1 : ∀ (q0 : Fin 4) (q1 : Fin 10), ∃ t : Fin cfg1.N, win1_5.index t = ![q0.val, q1.val, 0] :=
  (by decide +kernel : ∀ (q0 : Fin 4) (q1 : Fin 10), ∃ t : Fin grid1.N, win1_5.index t = ![q0.val, q1.val, 0])

/-- Window 0's block at point `t`, read at (0, r, f): the array at the block's row offset plus r, lane f. -/
theorem read1_0 (A0 : (⟨S4x10000x128, .f32⟩ : BufTy).Contents (Elt Ideal)) (t : Fin cfg1.N) (r : Fin 1000) (f : Fin 128) (k : S4x10000x128.Idx)
    (hk0 : (k 0).val = win1_0.index t (0 : Fin 3)) (hk1 : (k 1).val = win1_0.index t (1 : Fin 3) * 1000 + r.val)
    (hk2 : (k 2).val = win1_0.index t (2 : Fin 3) * 128 + f.val) :
    ((cfg1.win 0).blk t).view.read (Elt Ideal) A0 (ix3 (0 : Fin 1) r f) = A0 k := by
  show A0 (((cfg1.win 0).blk t).view.emb (ix3 (0 : Fin 1) r f)) = _
  congr 1; funext a; apply Fin.ext
  match a with
  | ⟨0, _⟩ => show win1_0.index t (0 : Fin 3) * 1 + 1 * 0 = (k 0).val; omega
  | ⟨1, _⟩ => show win1_0.index t (1 : Fin 3) * 1000 + 1 * r.val = (k 1).val; omega
  | ⟨2, _⟩ => show win1_0.index t (2 : Fin 3) * 128 + 1 * f.val = (k 2).val; omega

/-- Window 1's block likewise. -/
theorem read1_1 (A1 : (⟨S4x10000x128, .f32⟩ : BufTy).Contents (Elt Ideal)) (t : Fin cfg1.N) (r : Fin 1000) (f : Fin 128) (k : S4x10000x128.Idx)
    (hk0 : (k 0).val = win1_1.index t (0 : Fin 3)) (hk1 : (k 1).val = win1_1.index t (1 : Fin 3) * 1000 + r.val)
    (hk2 : (k 2).val = win1_1.index t (2 : Fin 3) * 128 + f.val) :
    ((cfg1.win 1).blk t).view.read (Elt Ideal) A1 (ix3 (0 : Fin 1) r f) = A1 k := by
  show A1 (((cfg1.win 1).blk t).view.emb (ix3 (0 : Fin 1) r f)) = _
  congr 1; funext a; apply Fin.ext
  match a with
  | ⟨0, _⟩ => show win1_1.index t (0 : Fin 3) * 1 + 1 * 0 = (k 0).val; omega
  | ⟨1, _⟩ => show win1_1.index t (1 : Fin 3) * 1000 + 1 * r.val = (k 1).val; omega
  | ⟨2, _⟩ => show win1_1.index t (2 : Fin 3) * 128 + 1 * f.val = (k 2).val; omega

/-- Window 2's block at point `t`, read at (f, o). -/
theorem read1_2 (A2 : (⟨S128x128, .f32⟩ : BufTy).Contents (Elt Ideal)) (t : Fin cfg1.N) (f o : Fin 128) (k : S128x128.Idx)
    (hk0 : (k 0).val = win1_2.index t (0 : Fin 2) * 128 + f.val) (hk1 : (k 1).val = win1_2.index t (1 : Fin 2) * 128 + o.val) :
    ((cfg1.win 2).blk t).view.read (Elt Ideal) A2 (ix2 f o) = A2 k := by
  show A2 (((cfg1.win 2).blk t).view.emb (ix2 f o)) = _
  congr 1; funext a; apply Fin.ext
  match a with
  | ⟨0, _⟩ => show win1_2.index t (0 : Fin 2) * 128 + 1 * f.val = (k 0).val; omega
  | ⟨1, _⟩ => show win1_2.index t (1 : Fin 2) * 128 + 1 * o.val = (k 1).val; omega

/-- Window 3's block likewise. -/
theorem read1_3 (A3 : (⟨S128x128, .f32⟩ : BufTy).Contents (Elt Ideal)) (t : Fin cfg1.N) (f o : Fin 128) (k : S128x128.Idx)
    (hk0 : (k 0).val = win1_3.index t (0 : Fin 2) * 128 + f.val) (hk1 : (k 1).val = win1_3.index t (1 : Fin 2) * 128 + o.val) :
    ((cfg1.win 3).blk t).view.read (Elt Ideal) A3 (ix2 f o) = A3 k := by
  show A3 (((cfg1.win 3).blk t).view.emb (ix2 f o)) = _
  congr 1; funext a; apply Fin.ext
  match a with
  | ⟨0, _⟩ => show win1_3.index t (0 : Fin 2) * 128 + 1 * f.val = (k 0).val; omega
  | ⟨1, _⟩ => show win1_3.index t (1 : Fin 2) * 128 + 1 * o.val = (k 1).val; omega

/-- Window 4's block at point `t`, read at o. -/
theorem read1_4 (A4 : (⟨S128, .f32⟩ : BufTy).Contents (Elt Ideal)) (t : Fin cfg1.N) (o : Fin 128) (k : S128.Idx)
    (hk0 : (k 0).val = win1_4.index t (0 : Fin 1) * 128 + o.val) :
    ((cfg1.win 4).blk t).view.read (Elt Ideal) A4 (ix1 o) = A4 k := by
  show A4 (((cfg1.win 4).blk t).view.emb (ix1 o)) = _
  congr 1; funext a; apply Fin.ext
  match a with
  | ⟨0, _⟩ => show win1_4.index t (0 : Fin 1) * 128 + 1 * o.val = (k 0).val; omega

/-- Where element (u, r, o) of the output's block at point `t` sits in the output array. -/
theorem emb1_5 (t : Fin cfg1.N) (u : Fin 1) (r : Fin 1000) (o : Fin 128) :
    ((((cfg1.win 5).blk t).view.emb (ix3 u r o) : S4x10000x128.Idx) 0).val = win1_5.index t (0 : Fin 3) * 1 + 1 * u.val
    ∧ ((((cfg1.win 5).blk t).view.emb (ix3 u r o) : S4x10000x128.Idx) 1).val = win1_5.index t (1 : Fin 3) * 1000 + 1 * r.val
    ∧ ((((cfg1.win 5).blk t).view.emb (ix3 u r o) : S4x10000x128.Idx) 2).val = win1_5.index t (2 : Fin 3) * 128 + 1 * o.val :=
  ⟨rfl, rfl, rfl⟩

/-- The payload of the five input arrays' blocks at point `t`, written back, is block `t` of `G1` of the arrays. -/
theorem blk1_eq (A0 A1 : (⟨S4x10000x128, .f32⟩ : BufTy).Contents (Elt Ideal)) (A2 A3 : (⟨S128x128, .f32⟩ : BufTy).Contents (Elt Ideal))
    (A4 : (⟨S128, .f32⟩ : BufTy).Contents (Elt Ideal)) (t : Fin cfg1.N) :
    (cfg1.win 5).cut (grid1.coords t) (k1_pay1 (F := Ideal) (((cfg1.win 0).blk t).view.read (Elt Ideal) A0) (((cfg1.win 1).blk t).view.read (Elt Ideal) A1)
        (((cfg1.win 2).blk t).view.read (Elt Ideal) A2) (((cfg1.win 3).blk t).view.read (Elt Ideal) A3) (((cfg1.win 4).blk t).view.read (Elt Ideal) A4))
      = ((cfg1.win 5).blk t).view.read (Elt Ideal) (G1 A0 A1 A2 A3 A4) := by
  obtain ⟨e00, e01, e02, e10, e11, e12, e20, e21, e30, e31, e40, e52⟩ := idx_facts1 t
  funext j
  revert j
  show ∀ j : S1x1000x128.Idx, k1_pay1 (F := Ideal) _ _ _ _ _ j = G1 A0 A1 A2 A3 A4 (((cfg1.win 5).blk t).view.emb j)
  intro j
  obtain ⟨u, r, o, rfl⟩ : ∃ (u : Fin 1) (r : Fin 1000) (o : Fin 128), j = ix3 u r o := ⟨j 0, j 1, j 2, eq_ix3 j⟩
  refine (combine_pay_apply _ _ _ _ _ u r o).trans ?_
  have hu : u.val = 0 := by omega
  obtain ⟨E0, E1, E2⟩ := emb1_5 t u r o
  generalize (((cfg1.win 5).blk t).view.emb (ix3 u r o) : S4x10000x128.Idx) = E at E0 E1 E2 ⊢
  unfold G1
  refine congrArg₂ (· + ·) (congrArg₂ (· + ·) (Finset.sum_congr rfl fun f _ => ?_) (Finset.sum_congr rfl fun f _ => ?_)) ?_
  · rw [read1_0 A0 t r f (ix3 (n0 := 4) (n1 := 10000) (n2 := 128) (E 0) (E 1) f) (by show (E 0).val = _; omega) (by show (E 1).val = _; omega) (by show f.val = _; omega),
      read1_2 A2 t f o (ix2 (n0 := 128) (n1 := 128) f (E 2)) (by show f.val = _; omega) (by show (E 2).val = _; omega)]
  · rw [read1_1 A1 t r f (ix3 (n0 := 4) (n1 := 10000) (n2 := 128) (E 0) (E 1) f) (by show (E 0).val = _; omega) (by show (E 1).val = _; omega) (by show f.val = _; omega),
      read1_3 A3 t f o (ix2 (n0 := 128) (n1 := 128) f (E 2)) (by show f.val = _; omega) (by show (E 2).val = _; omega)]
  · exact read1_4 A4 t o (ix1 (n := 128) (E 2)) (by show (E 2).val = _; omega)

/-! ## The array after the region -/

variable (V : (c : Dev nD) → (b : Ref sig .tc) → Buf (Elt Ideal) ((c : Thread nD τ).loc b))

/-- What point `t` writes back to the output array is block `t` of `G1` of the input arrays as the region finds them. -/
theorem flushed1_eq (c : Dev nD) (t : Fin cfg1.N) :
    (Cert.KernelIdeal.Hand.dat1 (F := Ideal) V c).flushed 5 t
      = ((cfg1.win 5).blk t).view.read (Elt Ideal) (G1 (V c main_arg0) (V c main_v60) (V c main_v65) (V c main_v75) (V c main_arg4)) := by
  show (cfg1.win 5).cut (grid1.coords t) ((Cert.KernelIdeal.Hand.dat1 (F := Ideal) V c).after 5 t) = _
  rw [Cert.KernelIdeal.Hand.after1_5, Cert.KernelIdeal.Hand.out1_5_eq]
  exact blk1_eq (V c main_arg0) (V c main_v60) (V c main_v65) (V c main_v75) (V c main_arg4) t

/-- An index of the output array is in point `t`'s block iff each coordinate is in the block's range on its axis. -/
theorem mem_blk1 (t : Fin cfg1.N) (i : S4x10000x128.Idx) :
    i ∈ ((cfg1.win 5).blk t).view.set ↔ ∀ a : Fin 3, win1_5.index t a * S1x1000x128.size a ≤ (i a).val ∧ (i a).val < win1_5.index t a * S1x1000x128.size a + S1x1000x128.size a := by
  show i ∈ ((View.whole main_v76).slice (win1_5.rect t)).set ↔ _
  rw [View.set_slice_whole, Rect.mem_set_unit]
  exact Iff.rfl

/-- Every index (b, n, o) of the output array is in the block of the point whose block index is (b, n / 1000, 0). -/
theorem cover1 (i : S4x10000x128.Idx) : ∃ t : Fin cfg1.N, (cfg1.win 5).flush t = true ∧ i ∈ ((cfg1.win 5).blk t).view.set := by
  have hi0 : (i 0).val < 4 := (i 0).isLt
  have hi1 : (i 1).val < 10000 := (i 1).isLt
  have hi2 : (i 2).val < 128 := (i 2).isLt
  obtain ⟨t, ht⟩ := idx_onto1 ⟨(i 0).val, hi0⟩ ⟨(i 1).val / 1000, by omega⟩
  have q0 : win1_5.index t (0 : Fin 3) = (i 0).val := congrFun ht 0
  have q1 : win1_5.index t (1 : Fin 3) = (i 1).val / 1000 := congrFun ht 1
  have q2 : win1_5.index t (2 : Fin 3) = 0 := congrFun ht 2
  refine ⟨t, flush1_5 t, ?_⟩
  rw [mem_blk1]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1000 ≤ (i 1).val ∧ (i 1).val < win1_5.index t (1 : Fin 3) * 1000 + 1000; omega
  | ⟨2, _⟩ => show win1_5.index t (2 : Fin 3) * 128 ≤ (i 2).val ∧ (i 2).val < win1_5.index t (2 : Fin 3) * 128 + 128; omega

/-- The output array after the region is `G1` of the five input arrays as the region finds them. -/
theorem out1_value (c : Dev nD) :
    (Cert.KernelIdeal.Hand.dat1 (F := Ideal) V c).arrAt 5 cfg1.N = G1 (V c main_arg0) (V c main_v60) (V c main_v65) (V c main_v75) (V c main_arg4) :=
  (Cert.KernelIdeal.Hand.dat1 (F := Ideal) V c).arrAt_eq_of_cover 5 _ (fun t _ => flushed1_eq V c t) cover1

end Cert.KernelIdeal.HandValue

end
-- ==== Proof.KernelValue.lean ====
/-
  The kernel program's result as the real specification.

  The second region's output array is its formula at the features, the first region's product regrouped by batch, the
  two folded weight matrices and the bias; the first region's product is the dense scattered matrix against the padded
  features. Over real inputs every entry is a real number, the product regrouped is the propagated features, and the
  whole is the collapsed Chebyshev recurrence over the reals.
-/
import proofs.«101218_j11046655885865_1_alg».proof.Proof.Run
import proofs.«101218_j11046655885865_1_alg».proof.Proof.HostVals
import proofs.«101218_j11046655885865_1_alg».proof.Proof.HostVals2
import proofs.«101218_j11046655885865_1_alg».proof.Proof.R0Value
import proofs.«101218_j11046655885865_1_alg».proof.Proof.R1Value
import proofs.«101218_j11046655885865_1_alg».proof.Proof.SpecCoe
import proofs.«101218_j11046655885865_1_alg».proof.Proof.Inputs
import proofs.«101218_j11046655885865_1_alg».proof.Proof.Gen.ReferenceIdeal.Read
import Idealize.ShloMosaic.Lib.ValueIdx
import Mathlib.Data.EReal.Basic
import Mathlib.Data.EReal.Operations
import Mathlib.Algebra.BigOperators.Group.Finset.Basic
import Mathlib.Algebra.BigOperators.Fin

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.ValueIdx
open Cert.Spec
open scoped BigOperators

/-- Column 128 b + f of the padded feature array is feature f of batch b. -/
theorem col_split (b : Fin 4) (f : Fin 128) :
    (128 * b.val + f.val) / 128 = b.val ∧ (128 * b.val + f.val) % 128 = f.val := by
  have := f.isLt
  constructor <;> omega

/-- The product of the dense matrix with the padded features, regrouped by batch, is the propagated
    features: entry (b, n, f) is row n of the dense matrix against column 128 b + f. -/
theorem lx_value (lapR : Fin 170000 → ℝ) (row col : Fin 170000 → Fin 10000) (xr : Fin 4 → Fin 10000 → Fin 128 → ℝ)
    (A : S10240x10240.Idx → EReal) (hA : ∀ r k : Fin 10240, A (ix2 r k) = ((Ldense lapR row col r k : ℝ) : EReal))
    (B : S10240x512.Idx → EReal)
    (hB : ∀ (k : Fin 10240) (b : Fin 4) (f : Fin 128) (h : 128 * b.val + f.val < 512),
      B (ix2 k (⟨128 * b.val + f.val, h⟩ : Fin 512)) = ((xpad xr k b f : ℝ) : EReal))
    (b : Fin 4) (n : Fin 10000) (f : Fin 128) :
    T60 (F := Ideal) (G0 A B) (ix3 b n f) = ((LxK lapR row col xr b n f : ℝ) : EReal) := by
  have hj : ∀ j : Fin 512, j.val / 128 < 4 ∧ j.val % 128 < 128 := fun j => by have := j.isLt; omega
  have hAe : A = fun i => ((Ldense lapR row col (i 0) (i 1) : ℝ) : EReal) :=
    funext fun i => (congrArg A (eq_ix2 i)).trans (hA (i 0) (i 1))
  have hBe : B = fun i => ((xpad xr (i 0) ⟨(i 1).val / 128, (hj (i 1)).1⟩ ⟨(i 1).val % 128, (hj (i 1)).2⟩ : ℝ) : EReal) :=
    funext fun i => by
      refine (congrArg B (eq_ix2 i)).trans ?_
      have e : (i 1) = (⟨128 * ((i 1).val / 128) + (i 1).val % 128, by have h : (i 1).val < 512 := (i 1).isLt; omega⟩ : Fin 512) :=
        Fin.ext (Nat.div_add_mod _ _).symm
      refine (congrArg (fun j => B (ix2 (i 0) j)) e).trans ?_
      exact hB (i 0) ⟨(i 1).val / 128, (hj (i 1)).1⟩ ⟨(i 1).val % 128, (hj (i 1)).2⟩ _
  rw [T60_apply, hAe, hBe, G0_apply_real]
  refine congrArg _ ?_
  unfold LxK
  refine Finset.sum_congr rfl fun k _ => ?_
  have hs := col_split b f
  show Ldense lapR row col _ k * xpad xr k ⟨(128 * b.val + f.val) / 128, _⟩ ⟨(128 * b.val + f.val) % 128, _⟩ = _
  congr 2
  · exact Fin.ext hs.1
  · exact Fin.ext hs.2

/-- The second region's formula over real data is the collapsed recurrence. -/
theorem core_value (lapR : Fin 170000 → ℝ) (row col : Fin 170000 → Fin 10000) (xr : Fin 4 → Fin 10000 → Fin 128 → ℝ)
    (wr : Fin 4 → Fin 128 → Fin 128 → ℝ) (br : Fin 128 → ℝ)
    (X : Vec Ideal S4x10000x128 .f32) (hx : ∀ b n f, X (ix3 b n f) = ((xr b n f : ℝ) : EReal))
    (Wt : Vec Ideal S4x128x128 .f32) (hw : ∀ j f o, Wt (ix3 j f o) = ((wr j f o : ℝ) : EReal))
    (Bs : Vec Ideal S128 .f32) (hb : ∀ o, Bs (ix1 o) = ((br o : ℝ) : EReal))
    (LX : Vec Ideal S4x10000x128 .f32) (hlx : ∀ b n f, LX (ix3 b n f) = ((LxK lapR row col xr b n f : ℝ) : EReal))
    (b : Fin 4) (n : Fin 10000) (o : Fin 128) :
    G1 X LX (WX Wt) (WL Wt) Bs (ix3 b n o) = ((kerR lapR row col xr wr br b n o : ℝ) : EReal) := by
  rw [G1_apply]
  simp only [hx, hlx, WX_apply, WL_apply, hw, hb]
  push_real
  unfold kerR
  rfl

/-- The padded, regrouped features over real data: column 128 b + f of row k is feature f of node k
    in batch b, zero on the padding rows. -/
theorem x56_value (xr : Fin 4 → Fin 10000 → Fin 128 → ℝ)
    (X : Vec Ideal S4x10000x128 .f32) (hx : ∀ b n f, X (ix3 b n f) = ((xr b n f : ℝ) : EReal))
    (k : Fin 10240) (b : Fin 4) (f : Fin 128) (h : 128 * b.val + f.val < 512) :
    X56 X (ix2 k (⟨128 * b.val + f.val, h⟩ : Fin 512)) = ((xpad xr k b f : ℝ) : EReal) := by
  have hs := col_split b f
  rw [X56_apply]
  unfold xpad
  by_cases hk : k.val < 10000
  · rw [dif_pos hk, dif_pos hk, hx]
    congr 2
    · exact Fin.ext hs.1
    · exact Fin.ext hs.2
  · rw [dif_neg hk, dif_neg hk]; rfl

variable (m : (ℓ : Loc nD τ sig) → Buf (Elt Ideal) ℓ)

/-- The first region's result is the block product of the scattered matrix and the padded features. -/
theorem o8_eq (c : Dev nD) :
    Hand.o8 m c = G0 (L52 (m ((c.tc : Thread nD τ).loc main_arg1)) (m ((c.tc : Thread nD τ).loc main_arg2))) (X56 (m ((c.tc : Thread nD τ).loc main_arg0))) := by
  unfold Hand.o8
  rw [out0_value (Hand.Ein0 m) c]
  show G0 (V7 m c main_v52) (V7 m c main_v56) = _
  rw [v52_eq, v56_eq]

/-- The second region's result is its formula at the features, the regrouped first result, the two
    folded weight matrices and the bias. -/
theorem o10_eq (c : Dev nD) :
    Hand.o10 m c = G1 (m ((c.tc : Thread nD τ).loc main_arg0)) (T60 (Hand.o8 m c))
      (WX (m ((c.tc : Thread nD τ).loc main_arg3))) (WL (m ((c.tc : Thread nD τ).loc main_arg3))) (m ((c.tc : Thread nD τ).loc main_arg4)) := by
  unfold Hand.o10
  rw [out1_value (Hand.Ein1 m) c]
  show G1 (V9 m (Hand.outs8 m) c main_arg0) (V9 m (Hand.outs8 m) c main_v60) (V9 m (Hand.outs8 m) c main_v65) (V9 m (Hand.outs8 m) c main_v75) (V9 m (Hand.outs8 m) c main_arg4) = _
  rw [v9_arg0, v60_eq, v65_eq, v75_eq, v9_arg4]
  rw [show Hand.outs8 m 8 main_v57 c = Hand.o8 m c from Function.update_self _ _ _]

/-- THE KERNEL'S VALUE: under real inputs the result array holds, at every index, the collapsed
    recurrence over the reals. -/
theorem kernel_value (c : Dev nD)
    (hin : Cert.Inputs.RealInputs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (hch : Cert.Inputs.ChainFacts (Cert.ReferenceIdeal.Read.val_main_v36 (F := Ideal) (m ((c.tc : Thread nD τ).loc main_arg1)) (m ((c.tc : Thread nD τ).loc main_arg2))) (Cert.ReferenceIdeal.Read.val_main_v31 (F := Ideal) (m ((c.tc : Thread nD τ).loc main_arg1))) (Cert.ReferenceIdeal.Read.val_main_v32 (F := Ideal) (m ((c.tc : Thread nD τ).loc main_arg1))))
    (b : Fin 4) (n : Fin 10000) (o : Fin 128) :
    Cert.KernelIdeal.Hand.o10 m c (ix3 b n o) = ((Cert.Spec.kerR hch.lapR hch.row hch.col hin.xr hin.wr hin.br b n o : ℝ) : EReal) := by
  rw [o10_eq m c, o8_eq m c]
  exact core_value hch.lapR hch.row hch.col hin.xr hin.wr hin.br _ hin.hx _ hin.hw _ hin.hb _
    (lx_value hch.lapR hch.row hch.col hin.xr _ (L52_apply _ _ hch) _ (x56_value hin.xr _ hin.hx)) b n o

end Cert.KernelIdeal.HandValue

end
-- ==== Proof.PreFacts.lean ====
/-
  The precondition, decoded.

  The printed precondition is the conjunction of five statements, each a conjunction over every entry of one argument:
  |x| < +∞ for the entries of x, of the edge weights, of the weights and of the bias, and 0 ≤ e < 10000 (signed) for
  the entries of the edge-index array. When the conjunction is 1, each of the five is 1, and then so is each entry's
  own statement. An extended real whose absolute value max(v, -v) lies below +∞ is neither +∞ nor -∞: it is a real
  number. A 32-bit word that is at least 0 and below 10000 as a signed number has a non-negative signed value, which
  is then its unsigned value, so the word is the numeral of a natural number below 10000. Choosing the real behind
  every float entry and the node number behind every endpoint gives the inputs as real data.
-/
import proofs.«101218_j11046655885865_1_alg».proof.Pre_finite_inputs
import proofs.«101218_j11046655885865_1_alg».proof.Proof.Gen.Pre_finite_inputs
import proofs.«101218_j11046655885865_1_alg».proof.Proof.Inputs
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx

/-- The bit pattern 0x7F800000 (sign 0, exponent all ones, fraction 0) denotes +∞. -/
theorem inf_bits : Ideal.ofBits .f32 0x7F800000#32 = (⊤ : EReal) := by
  simp [Ideal.ofBits, Ideal.ieee]

/-- An extended real whose absolute value is below +∞ is a real number. -/
theorem real_of_abs_lt_top (v : EReal) (h : max v (-v) < ⊤) : ∃ r : ℝ, v = (r : EReal) := by
  induction v using EReal.rec with
  | bot => simp at h
  | coe r => exact ⟨r, rfl⟩
  | top => simp at h

/-- One entry of the comparison |x| < +∞ (the bound a scalar constant spread over the array's shape) being 1 says that
    the entry of x is a real number. -/
theorem real_of_finite_bit {s : Shape} (hb : (⟨0, ![]⟩ : Shape).BroadcastsInDim s (![] : Fin 0 → Fin s.rank))
    (x : FVec Ideal s .f32) (j : s.Idx)
    (h : cmpf .olt (Host.absf x) (broadcastInDim s ![] hb (constant (F := Ideal) ⟨0, ![]⟩ .f32 0x7F800000#32)) j = 1#1) :
    ∃ r : ℝ, x j = (r : EReal) := by
  have h' : Ideal.cmp .olt (max (x j) (-(x j))) (Ideal.ofBits .f32 0x7F800000#32) = 1#1 := h
  rw [inf_bits] at h'
  simp only [Ideal.cmp, StableHlo.Predicate.ofBool_eq_one_iff, decide_eq_true_eq] at h'
  exact real_of_abs_lt_top _ h'

/-- A word that is at least 0 and below 10000, both read signed, has an unsigned value below 10000: a word whose
    unsigned value is 2³¹ or more reads negative. -/
theorem word_range (w : BitVec 32) (h0 : IntOp.cmpi .sge w 0#32 = 1#1) (h1 : IntOp.cmpi .slt w 10000#32 = 1#1) :
    w.toNat < 10000 := by
  simp only [IntOp.cmpi, StableHlo.Predicate.ofBool_eq_one_iff, BitVec.sle, BitVec.slt, decide_eq_true_eq] at h0 h1
  have e0 : (0#32 : BitVec 32).toInt = 0 := by decide
  have e1 : (10000#32 : BitVec 32).toInt = 10000 := by decide
  rw [e0] at h0; rw [e1] at h1
  rw [BitVec.toInt_eq_toNat_cond] at h0 h1
  split at h0 <;> omega

/-- The scalar shape has one index. -/
instance : Subsingleton Cert.Pre_finite_inputs.S_.Idx := ⟨fun a b => funext fun d => d.elim0⟩

open Cert.Pre_finite_inputs in
/-- THE PRECONDITION, ENTRY BY ENTRY: every float entry is a real number and every edge endpoint, as an unsigned word,
    is below 10000. -/
theorem decode [Cert.Pre_finite_inputs.Facts] (x : FVec Ideal S4x10000x128 .f32) (ei : IVec S2x160000 32)
    (ew : FVec Ideal S160000 .f32) (w : FVec Ideal S4x128x128 .f32) (bs : FVec Ideal S128 .f32)
    (h : Cert.Pre_finite_inputs.fn (F := Ideal) x ei ew w bs = (fun _ => 1#1)) :
    (∀ j, ∃ r : ℝ, x j = (r : EReal)) ∧ (∀ j, ∃ r : ℝ, ew j = (r : EReal)) ∧ (∀ j, ∃ r : ℝ, w j = (r : EReal))
      ∧ (∀ j, ∃ r : ℝ, bs j = (r : EReal)) ∧ (∀ j, (ei j).toNat < 10000) := by
  have h0 := congrFun h ValueIdx.ix0
  dsimp only [Cert.Pre_finite_inputs.fn, Cert.Pre_finite_inputs.fn_part1] at h0
  -- the five conjuncts, outermost first
  obtain ⟨h18, h24⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  refine ⟨fun j => ?_, fun j => ?_, fun j => ?_, fun j => ?_, fun j => ?_⟩
  · exact real_of_finite_bit _ x j (Host.reduce_andi_all _ _ _ _ _ h3 j)
  · exact real_of_finite_bit _ ew j (Host.reduce_andi_all _ _ _ _ _ h7 j)
  · exact real_of_finite_bit _ w j (Host.reduce_andi_all _ _ _ _ _ h12 j)
  · exact real_of_finite_bit _ bs j (Host.reduce_andi_all _ _ _ _ _ h17 j)
  · have hj := Host.reduce_andi_all _ _ _ _ _ h24 j
    obtain ⟨hge, hlt⟩ := IntOp.andi_eq_one.1 hj
    exact word_range _ hge hlt

/-- A word whose unsigned value is below 10000 is the numeral of a node number. -/
theorem node_of_word (v : BitVec 32) (hv : v.toNat < 10000) : ∃ k : Fin 10000, v = BitVec.ofNat 32 k.val :=
  ⟨⟨v.toNat, hv⟩, BitVec.eq_of_toNat_eq (by
    rw [BitVec.toNat_ofNat]; exact (Nat.mod_eq_of_lt v.isLt).symm)⟩

/-- UNDER THE PRECONDITION THE INPUTS ARE REAL DATA: real arrays behind the four float arguments, and a target and a
    source node below 10000 behind each given edge. -/
theorem realInputs [Cert.Pre_finite_inputs.Facts] (x : (⟨3, ![4, 10000, 128]⟩ : Shape).Idx → EReal)
    (ei : (⟨2, ![2, 160000]⟩ : Shape).Idx → BitVec 32) (ew : (⟨1, ![160000]⟩ : Shape).Idx → EReal)
    (w : (⟨3, ![4, 128, 128]⟩ : Shape).Idx → EReal) (bs : (⟨1, ![128]⟩ : Shape).Idx → EReal)
    (h : Cert.Pre_finite_inputs.fn (F := Ideal) x ei ew w bs = (fun _ => 1#1)) :
    Nonempty (Cert.Inputs.RealInputs x ei ew w bs) := by
  obtain ⟨hx, hew, hw, hb, hei⟩ := decode x ei ew w bs h
  choose xr hxr using fun (b : Fin 4) (n : Fin 10000) (f : Fin 128) => hx (ix3 b n f)
  choose wr hwr using fun (j : Fin 4) (f : Fin 128) (o : Fin 128) => hw (ix3 j f o)
  choose br hbr using fun (o : Fin 128) => hb (ix1 o)
  choose ewr hewr using fun (e : Fin 160000) => hew (ix1 e)
  choose rowE hrowE using fun (e : Fin 160000) => node_of_word _ (hei (ix2 (0 : Fin 2) e))
  choose colE hcolE using fun (e : Fin 160000) => node_of_word _ (hei (ix2 (1 : Fin 2) e))
  exact ⟨{ xr := xr, hx := hxr, wr := wr, hw := hwr, br := br, hb := hbr, ewr := ewr, hew := hewr,
           rowE := rowE, colE := colE, hrow := hrowE, hcol := hcolE }⟩

end Cert.PreFacts

end
-- ==== Proof.LapFacts.lean ====
/-
  The weighted edge list is real data.

  Both programs first compute, from the 160000 given edges, a list of 170000 weighted edges: the given edges with
  the normalised weights  -d(row)^(-1/2) · w · d(col)^(-1/2)  (d the weighted degree, the factor 0 at a node
  whose degree is not positive), then one self loop per node of weight -0.05, every weight doubled. From real edge
  weights and endpoints below 10000 every one of the 170000 weights is a real number and every endpoint is below
  10000.

  Only "is a real number" is carried from stage to stage, never which one: a finite sum of reals is real, a real
  power of a real base is real, a selection between reals is real, an element gathered from an array of reals is
  real wherever it is read, sums, products and negations of reals are real, and the float literals 0, 1, -1/2,
  -0.05 and 2 are real.
-/
import proofs.«101218_j11046655885865_1_alg».proof.Proof.Gen.ReferenceIdeal.Read
import proofs.«101218_j11046655885865_1_alg».proof.Proof.Inputs
import Idealize.ShloMosaic.PureOps.Ideal
import Idealize.ShloMosaic.PureOps.Ideal.Laws
import Idealize.ShloMosaic.PureOps.Contract
import Idealize.ShloMosaic.Lib.ValueIdx
import Idealize.ShloMosaic.Lib.IdealHost
import Idealize.ShloMosaic.Lib.Pipeline.Value

noncomputable section

namespace Cert.LapFacts

open Idealize.ShloMosaic Idealize.ShloMosaic.ValueIdx
open Cert.ReferenceIdeal Cert.ReferenceIdeal.Gen Cert.ReferenceIdeal.Read
open scoped BigOperators

/-! ## Real numbers among the extended reals -/

/-- An extended real that is a real number. -/
def IsReal (x : EReal) : Prop := ∃ r : ℝ, x = ((r : ℝ) : EReal)

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of real numbers is a real number. -/
theorem isReal_sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-- The power of a real base to a real exponent is a real number. -/
theorem IsReal.pow {x y : EReal} (hx : IsReal x) (hy : IsReal y) : IsReal (Ideal.pow x y) := by
  obtain ⟨a, rfl⟩ := hx; obtain ⟨b, rfl⟩ := hy; exact ⟨Real.rpow a b, rfl⟩

/-- A selection between two real numbers is a real number. -/
theorem IsReal.select {a b : EReal} (c : BitVec 1) (ha : IsReal a) (hb : IsReal b) : IsReal (Scalar.select c a b) := by
  unfold Scalar.select; split
  · exact ha
  · exact hb

/-! ## The float literals of the chain -/

/-- A pattern whose exponent field is not all ones denotes a real number. -/
theorem isReal_ieee (e m : Nat) {w : Nat} (b : BitVec w) (h : (b.extractLsb' m e).toNat ≠ 2 ^ e - 1) :
    IsReal (Ideal.ieee e m b) := by
  unfold Ideal.ieee
  simp only []
  rw [if_neg h]
  split
  · exact ⟨_, rfl⟩
  · exact ⟨_, rfl⟩

theorem isReal_lit_zero : IsReal (Ideal.ofBits .f32 0x00000000#32) := by
  rw [Ideal.ofBits_zero_f32]; exact isReal_zero

theorem isReal_lit_one : IsReal (Ideal.ofBits .f32 0x3F800000#32) := by
  rw [Ideal.ofBits_one_f32]; exact isReal_one

/-- The exponent -1/2. -/
theorem isReal_lit_neg_half : IsReal (Ideal.ofBits .f32 0xBF000000#32) := by
  show IsReal (Ideal.ieee 8 23 (0xBF000000#32 : BitVec 32))
  exact isReal_ieee 8 23 _ (by decide)

/-- The self loops' weight -0.05. -/
theorem isReal_lit_self : IsReal (Ideal.ofBits .f32 0xBD4CCCCD#32) := by
  show IsReal (Ideal.ieee 8 23 (0xBD4CCCCD#32 : BitVec 32))
  exact isReal_ieee 8 23 _ (by decide)

/-- The factor 2. -/
theorem isReal_lit_two : IsReal (Ideal.ofBits .f32 0x40000000#32) := by
  show IsReal (Ideal.ieee 8 23 (0x40000000#32 : BitVec 32))
  exact isReal_ieee 8 23 _ (by decide)

/-! ## The shape operations of the chain -/

/-- A gather from an array of real numbers reads a real number, whichever element it reads. -/
theorem isReal_gather {s si t : Shape} {w : Nat} (d : GatherDims s si t) (x : s.Idx → EReal) (idx : IVec si w)
    (hx : ∀ i, IsReal (x i)) (j : t.Idx) : IsReal (Host.gather d x idx j) := hx _

/-- A scatter that adds real numbers into an array of real numbers leaves real numbers. -/
theorem isReal_scatterAdd {s si u : Shape} {w : Nat} (d : ScatterDims s si u) (x : FVec Ideal s .f32) (idx : IVec si w)
    (upd : FVec Ideal u .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (isReal_sum _ _ fun j _ => hu j)

/-- Two vectors laid end to end, read in the first. -/
theorem concat1_left {α : Type} {n1 n2 n : Nat} (x₁ : (⟨1, ![n1]⟩ : Shape).Idx → α) (x₂ : (⟨1, ![n2]⟩ : Shape).Idx → α)
    (h : Shape.Concatenates [(⟨1, ![n1]⟩ : Shape), ⟨1, ![n2]⟩] ⟨1, ![n]⟩ 0) (e : Fin n) (he : e.val < n1) :
    concatenate ⟨1, ![n]⟩ 0 [⟨⟨1, ![n1]⟩, x₁⟩, ⟨⟨1, ![n2]⟩, x₂⟩] h (ix1 e) = x₁ (ix1 ⟨e.val, he⟩) :=
  concatenate_pair_apply_left 0 x₁ x₂ h (ix1 e) rfl (ix1 ⟨e.val, he⟩) (fun b => match b with | ⟨0, _⟩ => rfl)

/-- Two vectors laid end to end, read in the second. -/
theorem concat1_right {α : Type} {n1 n2 n : Nat} (x₁ : (⟨1, ![n1]⟩ : Shape).Idx → α) (x₂ : (⟨1, ![n2]⟩ : Shape).Idx → α)
    (h : Shape.Concatenates [(⟨1, ![n1]⟩ : Shape), ⟨1, ![n2]⟩] ⟨1, ![n]⟩ 0) (e : Fin n) (he : n1 ≤ e.val)
    (he2 : e.val - n1 < n2) :
    concatenate ⟨1, ![n]⟩ 0 [⟨⟨1, ![n1]⟩, x₁⟩, ⟨⟨1, ![n2]⟩, x₂⟩] h (ix1 e) = x₂ (ix1 ⟨e.val - n1, he2⟩) :=
  concatenate_pair_apply_right 0 x₁ x₂ h (ix1 e) rfl rfl (ix1 ⟨e.val - n1, he2⟩)
    (fun b hb => absurd (Subsingleton.elim _ _) hb) (by show e.val - n1 + n1 = e.val; omega)

/-! ## The weights, stage by stage -/

section Weights

variable (ei : (⟨2, ![2, 160000]⟩ : Shape).Idx → BitVec 32) (ew : (⟨1, ![160000]⟩ : Shape).Idx → EReal)

/-- The weighted degrees: zero plus a finite sum of edge weights. -/
theorem real_v6 (hew : ∀ j, IsReal (ew j)) (n : S10000.Idx) : IsReal (val_main_v6 (F := Ideal) ei ew n) := by
  unfold val_main_v6
  refine isReal_scatterAdd _ _ _ _ (fun i => ?_) hew n
  rw [val_main_v4_apply, val_main_cst_apply]
  exact isReal_lit_zero

/-- The degree where it is positive, one elsewhere. -/
theorem real_v9 (hew : ∀ j, IsReal (ew j)) (n : S10000.Idx) : IsReal (val_main_v9 (F := Ideal) ei ew n) := by
  rw [val_main_v9_apply]
  refine IsReal.select _ (real_v6 ei ew hew n) ?_
  rw [val_main_call0_v1_apply, val_main_call0_v0_apply, val_main_cst_1_apply]
  exact isReal_lit_one

/-- Its power -1/2. -/
theorem real_v11 (hew : ∀ j, IsReal (ew j)) (n : S10000.Idx) : IsReal (val_main_v11 (F := Ideal) ei ew n) := by
  rw [val_main_v11_apply]
  show IsReal (Ideal.pow _ _)
  refine (real_v9 ei ew hew n).pow ?_
  rw [val_main_v10_apply, val_main_cst_2_apply]
  exact isReal_lit_neg_half

/-- The normalising factor of a node: that power where the degree is positive, zero elsewhere. -/
theorem real_v12 (hew : ∀ j, IsReal (ew j)) (n : S10000.Idx) : IsReal (val_main_v12 (F := Ideal) ei ew n) := by
  rw [val_main_v12_apply]
  refine IsReal.select _ (real_v11 ei ew hew n) ?_
  rw [val_main_call1_v1_apply, val_main_call1_v0_apply, val_main_cst_3_apply]
  exact isReal_lit_zero

/-- The factor of an edge's target node. -/
theorem real_v19 (hew : ∀ j, IsReal (ew j)) (e : S160000.Idx) : IsReal (val_main_v19 (F := Ideal) ei ew e) := by
  unfold val_main_v19
  exact isReal_gather _ _ _ (real_v12 ei ew hew) e

/-- The factor of an edge's source node. -/
theorem real_v28 (hew : ∀ j, IsReal (ew j)) (e : S160000.Idx) : IsReal (val_main_v28 (F := Ideal) ei ew e) := by
  unfold val_main_v28
  exact isReal_gather _ _ _ (real_v12 ei ew hew) e

/-- The normalised weight of a given edge. -/
theorem real_v29 (hew : ∀ j, IsReal (ew j)) (e : S160000.Idx) : IsReal (val_main_v29 (F := Ideal) ei ew e) := by
  rw [val_main_v29_apply, val_main_v21_apply, val_main_v20_apply]
  show IsReal (-(val_main_v19 (F := Ideal) ei ew e) * ew e * val_main_v28 (F := Ideal) ei ew e)
  exact ((real_v19 ei ew hew e).neg.mul (hew e)).mul (real_v28 ei ew hew e)

/-- The weight of a self loop. -/
theorem real_v33 (n : S10000.Idx) : IsReal (val_main_v33 (F := Ideal) n) := by
  rw [val_main_v33_apply, val_main_cst_7_apply]
  exact isReal_lit_self

/-- The 170000 weights before doubling. -/
theorem real_v34 (hew : ∀ j, IsReal (ew j)) (e : Fin 170000) : IsReal (val_main_v34 (F := Ideal) ei ew (ix1 e)) := by
  by_cases he : e.val < 160000
  · rw [show val_main_v34 (F := Ideal) ei ew (ix1 e) = val_main_v29 (F := Ideal) ei ew (ix1 ⟨e.val, he⟩) from
      concat1_left _ _ _ e he]
    exact real_v29 ei ew hew _
  · have he2 : e.val - 160000 < 10000 := by have := e.isLt; omega
    rw [show val_main_v34 (F := Ideal) ei ew (ix1 e) = val_main_v33 (F := Ideal) (ix1 ⟨e.val - 160000, he2⟩) from
      concat1_right _ _ _ e (by omega) he2]
    exact real_v33 _

/-- The 170000 weights. -/
theorem real_v36 (hew : ∀ j, IsReal (ew j)) (e : Fin 170000) : IsReal (val_main_v36 (F := Ideal) ei ew (ix1 e)) := by
  rw [val_main_v36_apply]
  show IsReal (val_main_v34 (F := Ideal) ei ew (ix1 e) * val_main_v35 (F := Ideal) (ix1 e))
  refine (real_v34 ei ew hew e).mul ?_
  rw [val_main_v35_apply, val_main_cst_8_apply]
  exact isReal_lit_two

end Weights

/-! ## The endpoints -/

section Endpoints

variable (ei : (⟨2, ![2, 160000]⟩ : Shape).Idx → BitVec 32)

/-- The target nodes of the given edges are row 0 of the edge array. -/
theorem v1_eq (e : Fin 160000) : val_main_v1 (F := Ideal) ei (ix1 e) = ei (ix2 (0 : Fin 2) e) := by
  rw [val_main_v1_apply, val_main_v0_apply]
  congr 1
  funext a
  match a with
  | ⟨0, _⟩ => exact Fin.ext rfl
  | ⟨1, _⟩ => exact Fin.ext (Nat.mod_eq_of_lt e.isLt)

/-- The source nodes of the given edges are row 1 of the edge array. -/
theorem v3_eq (e : Fin 160000) : val_main_v3 (F := Ideal) ei (ix1 e) = ei (ix2 (1 : Fin 2) e) := by
  rw [val_main_v3_apply, val_main_v2_apply]
  congr 1
  funext a
  match a with
  | ⟨0, _⟩ => exact Fin.ext rfl
  | ⟨1, _⟩ => exact Fin.ext (Nat.mod_eq_of_lt e.isLt)

/-- Every target node of the 170000 edges is below 10000: a given edge's, or the self loop's own node. -/
theorem row2_lt (rowE : Fin 160000 → Fin 10000) (hrow : ∀ e, ei (ix2 (0 : Fin 2) e) = BitVec.ofNat 32 (rowE e).val)
    (e : Fin 170000) : ∃ n : Fin 10000, val_main_v31 (F := Ideal) ei (ix1 e) = BitVec.ofNat 32 n.val := by
  by_cases he : e.val < 160000
  · refine ⟨rowE ⟨e.val, he⟩, ?_⟩
    rw [show val_main_v31 (F := Ideal) ei (ix1 e) = val_main_v1 (F := Ideal) ei (ix1 ⟨e.val, he⟩) from
      concat1_left _ _ _ e he]
    rw [v1_eq]; exact hrow _
  · have he2 : e.val - 160000 < 10000 := by have := e.isLt; omega
    refine ⟨⟨e.val - 160000, he2⟩, ?_⟩
    rw [show val_main_v31 (F := Ideal) ei (ix1 e) = val_main_v30 (F := Ideal) (ix1 ⟨e.val - 160000, he2⟩) from
      concat1_right _ _ _ e (by omega) he2]
    rw [val_main_v30_apply]

/-- Every source node of the 170000 edges is below 10000. -/
theorem col2_lt (colE : Fin 160000 → Fin 10000) (hcol : ∀ e, ei (ix2 (1 : Fin 2) e) = BitVec.ofNat 32 (colE e).val)
    (e : Fin 170000) : ∃ n : Fin 10000, val_main_v32 (F := Ideal) ei (ix1 e) = BitVec.ofNat 32 n.val := by
  by_cases he : e.val < 160000
  · refine ⟨colE ⟨e.val, he⟩, ?_⟩
    rw [show val_main_v32 (F := Ideal) ei (ix1 e) = val_main_v3 (F := Ideal) ei (ix1 ⟨e.val, he⟩) from
      concat1_left _ _ _ e he]
    rw [v3_eq]; exact hcol _
  · have he2 : e.val - 160000 < 10000 := by have := e.isLt; omega
    refine ⟨⟨e.val - 160000, he2⟩, ?_⟩
    rw [show val_main_v32 (F := Ideal) ei (ix1 e) = val_main_v30 (F := Ideal) (ix1 ⟨e.val - 160000, he2⟩) from
      concat1_right _ _ _ e (by omega) he2]
    rw [val_main_v30_apply]

end Endpoints

/-! ## The chain's facts -/

/-- From real inputs with endpoints below 10000, the 170000 weighted edges have real weights and endpoints below
    10000. -/
theorem chainFacts (x : (⟨3, ![4, 10000, 128]⟩ : Shape).Idx → EReal) (ei : (⟨2, ![2, 160000]⟩ : Shape).Idx → BitVec 32)
    (ew : (⟨1, ![160000]⟩ : Shape).Idx → EReal) (w : (⟨3, ![4, 128, 128]⟩ : Shape).Idx → EReal)
    (bs : (⟨1, ![128]⟩ : Shape).Idx → EReal) (hin : Cert.Inputs.RealInputs x ei ew w bs) :
    Nonempty (Cert.Inputs.ChainFacts (Read.val_main_v36 (F := Ideal) ei ew) (Read.val_main_v31 (F := Ideal) ei)
      (Read.val_main_v32 (F := Ideal) ei)) := by
  have hew : ∀ j, IsReal (ew j) := fun j => by rw [eq_ix1 j]; exact ⟨_, hin.hew _⟩
  choose lapR hlap using real_v36 ei ew hew
  choose row hrow2 using row2_lt ei hin.rowE hin.hrow
  choose col hcol2 using col2_lt ei hin.colE hin.hcol
  exact ⟨⟨lapR, hlap, row, col, hrow2, hcol2⟩⟩

end Cert.LapFacts

end
-- ==== Proof.lean ====
/-
  The claim: a graph convolution with Chebyshev weights, computed by two pipelined kernels over a dense
  Laplacian, equals its reference over the extended reals.

  The reference gathers the source node's features along every weighted edge, sums them into the target nodes and
  adds the four Chebyshev terms `x W₀ + Lx W₁ + (2 Lx − x) W₂ + (2 Lx − Lx) W₃ + bias`. The kernel scatters the
  edge weights into a dense 10240 × 10240 matrix, multiplies it block by block with the zero-padded features (first
  kernel: ten accumulated blocks per row panel), and combines `x (W₀ − W₂) + Lx (W₁ + 2 W₂ + W₃) + bias` (second
  kernel). Under the precondition — every float input finite, every edge endpoint a node number below 10000 — every
  intermediate value is a real number, the dense product is the segment sum (exchange of two finite sums), and the
  collapsed recurrence is the recurrence (distributivity over the reals).

  The three frames: each program runs to the end without fault and leaves its arguments unchanged — for the kernel
  programs from the two regions' body obligations (the first region's scratch accumulator carried from grid point to
  grid point in the region invariant), for the reference from its run. No rewrite was applied by the ideal pass, so
  `preserves` is trivial.
-/
import proofs.«101218_j11046655885865_1_alg».proof.Defs
import proofs.«101218_j11046655885865_1_alg».proof.Proof.Gen.Kernel
import proofs.«101218_j11046655885865_1_alg».proof.Proof.Gen.KernelIdeal
import proofs.«101218_j11046655885865_1_alg».proof.Proof.Gen.ReferenceIdeal
import proofs.«101218_j11046655885865_1_alg».proof.Proof.Gen.Pre_finite_inputs
import proofs.«101218_j11046655885865_1_alg».proof.Proof.RunBits
import proofs.«101218_j11046655885865_1_alg».proof.Proof.Run
import proofs.«101218_j11046655885865_1_alg».proof.Proof.RefValue
import proofs.«101218_j11046655885865_1_alg».proof.Proof.KernelValue
import proofs.«101218_j11046655885865_1_alg».proof.Proof.PreFacts
import proofs.«101218_j11046655885865_1_alg».proof.Proof.LapFacts
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the same result array: index by index the kernel's is the real `kerR`, the reference's the
    real `refR`, and the two reals are equal. -/
theorem algebraic : Cert.algebraic_KernelIdeal_ReferenceIdeal := by
  intro m ρ m' ρ' hpre hagree
  refine ⟨fun c => Cert.KernelIdeal.Hand.o10 m c, Cert.KernelIdeal.Hand.run_result m ρ, ?_⟩
  refine (θ_run Cert.ReferenceIdeal.defs _ _).mono (fun r h c => ⟨(h c).1.trans ?_, (h c).2⟩)
    (Cert.ReferenceIdeal.Value.run (F := Ideal) m' ρ')
  show Cert.ReferenceIdeal.Value.res_main_v74 m' c = Cert.KernelIdeal.Hand.o10 m c
  obtain ⟨hin⟩ := Cert.PreFacts.realInputs _ _ _ _ _ (hpre c)
  obtain ⟨hch⟩ := Cert.LapFacts.chainFacts _ _ _ _ _ hin
  rw [Cert.ReferenceIdeal.RefValue.ref_run_value, (hagree c).1, (hagree c).2.1, (hagree c).2.2.1, (hagree c).2.2.2.1, (hagree c).2.2.2.2]
  funext i
  obtain ⟨b, n, o, rfl⟩ : ∃ (b : Fin 4) (n : Fin 10000) (o : Fin 128), i = ix3 b n o := ⟨i 0, i 1, i 2, eq_ix3 i⟩
  rw [Cert.ReferenceIdeal.RefValue.ref_value _ _ _ _ _ hin hch b n o, Cert.KernelIdeal.HandValue.kernel_value m c hin hch b n o,
    Cert.Spec.kerR_eq_refR]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
